-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S64x128 : Shape := ⟨2, ![64, 128]⟩
abbrev S128x256 : Shape := ⟨2, ![128, 256]⟩
abbrev S128 : Shape := ⟨1, ![128]⟩
abbrev S24x128 : Shape := ⟨2, ![24, 128]⟩
abbrev S24 : Shape := ⟨1, ![24]⟩
abbrev S262144 : Shape := ⟨1, ![262144]⟩
abbrev S64x4096x24 : Shape := ⟨3, ![64, 4096, 24]⟩
abbrev S_ : Shape := ⟨0, ![]⟩
abbrev S262143 : Shape := ⟨1, ![262143]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S24x128 : S_.BroadcastsInDim S24x128 (![] : Fin 0 → Fin S24x128.rank)
  reducesTo_S24x128_S_d0_1 : S24x128.ReducesTo [0, 1] S_
  bcast_S_S24 : S_.BroadcastsInDim S24 (![] : Fin 0 → Fin S24.rank)
  reducesTo_S24_S_d0 : S24.ReducesTo [0] S_
  bcast_S_S262144 : S_.BroadcastsInDim S262144 (![] : Fin 0 → Fin S262144.rank)
  reducesTo_S262144_S_d0 : S262144.ReducesTo [0] S_
  slices_S262144_S262143_1 : S262144.Slices ![1] S262143
  slices_S262144_S262143_0 : S262144.Slices ![0] S262143
  reducesTo_S262143_S_d0 : S262143.ReducesTo [0] S_

variable [Facts]

def fn_part2 {F : FTy → Type} [FloatOps F] (main_arg7 : IVec S262144 32) (main_v32 : IVec S_ 1) (main_c_12 : IVec S_ 32) : IVec S_ 1 :=
  let main_v33 : IVec S262144 32 := broadcastInDim S262144 ![] bcast_S_S262144 main_c_12
  let main_v34 : IVec S262144 1 := cmpi .slt main_arg7 main_v33
  let main_c_13 : IVec S_ 1 := constantI S_ 1 1#1
  let main_v35 : IVec S_ 1 := (fun x v => Host.reduce IntOp.andi x v reducesTo_S262144_S_d0 h_S_) main_v34 main_c_13
  let main_v36 : IVec S_ 1 := andi main_v32 main_v35
  let main_v37 : IVec S262143 32 := (extractStridedSlice S262143 ![1] · slices_S262144_S262143_1) main_arg7
  let main_v38 : IVec S262143 32 := (extractStridedSlice S262143 ![0] · slices_S262144_S262143_0) main_arg7
  let main_v39 : IVec S262143 1 := cmpi .sge main_v37 main_v38
  let main_c_14 : IVec S_ 1 := constantI S_ 1 1#1
  let main_v40 : IVec S_ 1 := (fun x v => Host.reduce IntOp.andi x v reducesTo_S262143_S_d0 h_S_) main_v39 main_c_14
  let main_v41 : IVec S_ 1 := andi main_v36 main_v40
  main_v41

def fn_part1 {F : FTy → Type} [FloatOps F] (main_arg4 : FVec F S24x128 .f32) (main_arg5 : FVec F S24 .f32) (main_arg7 : IVec S262144 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S24x128 .f32 := Host.absf main_arg4
  let main_cst_6 : FVec F S_ .f32 := constant S_ .f32 0x7F800000#32
  let main_v20 : FVec F S24x128 .f32 := broadcastInDim S24x128 ![] bcast_S_S24x128 main_cst_6
  let main_v21 : IVec S24x128 1 := cmpf .olt main_v19 main_v20
  let main_c_7 : IVec S_ 1 := constantI S_ 1 1#1
  let main_v22 : IVec S_ 1 := (fun x v => Host.reduce IntOp.andi x v reducesTo_S24x128_S_d0_1 h_S_) main_v21 main_c_7
  let main_v23 : IVec S_ 1 := andi main_v18 main_v22
  let main_v24 : FVec F S24 .f32 := Host.absf main_arg5
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_c_10 : IVec S_ 32 := constantI S_ 32 0#32
  let main_v29 : IVec S262144 32 := broadcastInDim S262144 ![] bcast_S_S262144 main_c_10
  let main_v30 : IVec S262144 1 := cmpi .sge main_arg7 main_v29
  let main_c_11 : IVec S_ 1 := constantI S_ 1 1#1
  let main_v31 : IVec S_ 1 := (fun x v => Host.reduce IntOp.andi x v reducesTo_S262144_S_d0 h_S_) main_v30 main_c_11
  let main_v32 : IVec S_ 1 := andi main_v28 main_v31
  let main_c_12 : IVec S_ 32 := constantI S_ 32 64#32
  fn_part2 (F := F) main_arg7 main_v32 main_c_12

def fn {F : FTy → Type} [FloatOps F] (main_arg0 : FVec F S262144x128 .f32) (main_arg1 : FVec F S64x128 .f32) (main_arg2 : FVec F S128x256 .f32) (main_arg3 : FVec F S128 .f32) (main_arg4 : FVec F S24x128 .f32) (main_arg5 : FVec F S24 .f32) (main_arg6 : IVec S262144 1) (main_arg7 : IVec S262144 32) (main_arg8 : IVec S64x4096x24 1) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg7 main_v13 main_v16
-- ==== Kernel.lean ====
abbrev S262144x128 : Shape := ⟨2, ![262144, 128]⟩
abbrev S64x128 : Shape := ⟨2, ![64, 128]⟩
abbrev S128x256 : Shape := ⟨2, ![128, 256]⟩
abbrev S128 : Shape := ⟨1, ![128]⟩
abbrev S24x128 : Shape := ⟨2, ![24, 128]⟩
abbrev S24 : Shape := ⟨1, ![24]⟩
abbrev S262144 : Shape := ⟨1, ![262144]⟩
abbrev S64x4096x24 : Shape := ⟨3, ![64, 4096, 24]⟩
abbrev S256x128 : Shape := ⟨2, ![256, 128]⟩
abbrev S128x24 : Shape := ⟨2, ![128, 24]⟩
abbrev S_ : Shape := ⟨0, ![]⟩
abbrev S64 : Shape := ⟨1, ![64]⟩
abbrev S262144x1 : Shape := ⟨2, ![262144, 1]⟩
abbrev S1 : Shape := ⟨1, ![1]⟩
abbrev S65 : Shape := ⟨1, ![65]⟩
abbrev S1x64 : Shape := ⟨2, ![1, 64]⟩
abbrev S262144x24 : Shape := ⟨2, ![262144, 24]⟩
abbrev S4096x128 : Shape := ⟨2, ![4096, 128]⟩
abbrev S4096x24 : Shape := ⟨2, ![4096, 24]⟩
abbrev S4096x1 : Shape := ⟨2, ![4096, 1]⟩
abbrev S4096x64 : Shape := ⟨2, ![4096, 64]⟩
abbrev S4096x256 : Shape := ⟨2, ![4096, 256]⟩
abbrev S1x128 : Shape := ⟨2, ![1, 128]⟩
abbrev S1x24 : Shape := ⟨2, ![1, 24]⟩
abbrev S262144x2 : Shape := ⟨2, ![262144, 2]⟩
abbrev S64x98304 : Shape := ⟨2, ![64, 98304]⟩

abbrev nBuf : Space → Nat
  | .hbm => 98
  | .vmem => 11
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S128x256, .f32⟩
  | .hbm, ⟨3, _⟩ => ⟨S128, .f32⟩
  | .hbm, ⟨4, _⟩ => ⟨S24x128, .f32⟩
  | .hbm, ⟨5, _⟩ => ⟨S24, .f32⟩
  | .hbm, ⟨6, _⟩ => ⟨S262144, .i1⟩
  | .hbm, ⟨7, _⟩ => ⟨S262144, .i32⟩
  | .hbm, ⟨8, _⟩ => ⟨S64x4096x24, .i1⟩
  | .hbm, ⟨9, _⟩ => ⟨S256x128, .f32⟩
  | .hbm, ⟨10, _⟩ => ⟨S256x128, .bf16⟩
  | .hbm, ⟨11, _⟩ => ⟨S128x24, .f32⟩
  | .hbm, ⟨12, _⟩ => ⟨S128x24, .bf16⟩
  | .hbm, ⟨13, _⟩ => ⟨S64x128, .bf16⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S_, .i32⟩
  | .hbm, ⟨29, _⟩ => ⟨S262144, .i32⟩
  | .hbm, ⟨30, _⟩ => ⟨S64, .i32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S_, .i32⟩
  | .hbm, ⟨35, _⟩ => ⟨S64, .i32⟩
  | .hbm, ⟨36, _⟩ => ⟨S65, .i32⟩
  | .hbm, ⟨37, _⟩ => ⟨S64, .i32⟩
  | .hbm, ⟨38, _⟩ => ⟨S1x64, .i32⟩
  | .hbm, ⟨39, _⟩ => ⟨S64, .i32⟩
  | .hbm, ⟨40, _⟩ => ⟨S1x64, .i32⟩
  | .hbm, ⟨41, _⟩ => ⟨S262144x24, .f32⟩
  | .hbm, ⟨42, _⟩ => ⟨S262144, .i32⟩
  | .hbm, ⟨43, _⟩ => ⟨S_, .i32⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S_, .i32⟩
  | .hbm, ⟨48, _⟩ => ⟨S64, .i32⟩
  | .hbm, ⟨49, _⟩ => ⟨S262144x1, .i32⟩
  | .hbm, ⟨50, _⟩ => ⟨S64, .i32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144, .i32⟩
  | .hbm, ⟨60, _⟩ => ⟨S262144, .i32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S262144, .i1⟩
  | .hbm, ⟨65, _⟩ => ⟨S_, .i32⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S_, .i32⟩
  | .hbm, ⟨70, _⟩ => ⟨S_, .i32⟩
  | .hbm, ⟨71, _⟩ => ⟨S262144, .i32⟩
  | .hbm, ⟨72, _⟩ => ⟨S262144, .i32⟩
  | .hbm, ⟨73, _⟩ => ⟨S_, .f32⟩
  | .hbm, ⟨74, _⟩ => ⟨S64x4096x24, .f32⟩
  | .hbm, ⟨75, _⟩ => ⟨S_, .i32⟩
  | .hbm, ⟨76, _⟩ => ⟨S262144, .i32⟩
  | .hbm, ⟨77, _⟩ => ⟨S262144, .i1⟩
  | .hbm, ⟨78, _⟩ => ⟨S_, .i32⟩
  | .hbm, ⟨79, _⟩ => ⟨S262144, .i32⟩
  | .hbm, ⟨80, _⟩ => ⟨S262144, .i32⟩
  | .hbm, ⟨81, _⟩ => ⟨S262144, .i32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S262144, .i32⟩
  | .hbm, ⟨89, _⟩ => ⟨S262144x1, .i32⟩
  | .hbm, ⟨90, _⟩ => ⟨S262144x1, .i32⟩
  | .hbm, ⟨91, _⟩ => ⟨S262144x2, .i32⟩
  | .hbm, ⟨92, _⟩ => ⟨S64x4096x24, .f32⟩
  | .hbm, ⟨93, _⟩ => ⟨S_, .f32⟩
  | .hbm, ⟨94, _⟩ => ⟨S_, .f32⟩
  | .hbm, ⟨95, _⟩ => ⟨S64x4096x24, .f32⟩
  | .hbm, ⟨96, _⟩ => ⟨S64x4096x24, .f32⟩
  | .hbm, ⟨97, _⟩ => ⟨S64x98304, .f32⟩
  | .local _ .vmem, ⟨0, _⟩ => ⟨S4096x128, .f32⟩
  | .local _ .vmem, ⟨1, _⟩ => ⟨S4096x128, .f32⟩
  | .local _ .vmem, ⟨2, _⟩ => ⟨S1x64, .i32⟩
  | .local _ .vmem, ⟨3, _⟩ => ⟨S1x64, .i32⟩
  | .local _ .vmem, ⟨4, _⟩ => ⟨S64x128, .bf16⟩
  | .local _ .vmem, ⟨5, _⟩ => ⟨S256x128, .bf16⟩
  | .local _ .vmem, ⟨6, _⟩ => ⟨S128, .f32⟩
  | .local _ .vmem, ⟨7, _⟩ => ⟨S128x24, .bf16⟩
  | .local _ .vmem, ⟨8, _⟩ => ⟨S24, .f32⟩
  | .local _ .vmem, ⟨9, _⟩ => ⟨S4096x24, .f32⟩
  | .local _ .vmem, ⟨10, _⟩ => ⟨S4096x24, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_call1_call0_c : Ref sig .tc := ⟨.hbm, 33, rfl⟩
abbrev main_call1_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_call0_c : Ref sig .tc := ⟨.hbm, 43, rfl⟩
abbrev main_call2_call0_v0 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_call3_v0 : Ref sig .tc := ⟨.hbm, 66, rfl⟩
abbrev main_call3_v1 : Ref sig .tc := ⟨.hbm, 67, rfl⟩
abbrev main_v40 : Ref sig .tc := ⟨.hbm, 68, rfl⟩
abbrev main_c_10 : Ref sig .tc := ⟨.hbm, 69, rfl⟩
abbrev main_call4_v0 : Ref sig .tc := ⟨.hbm, 70, rfl⟩
abbrev main_call4_v1 : Ref sig .tc := ⟨.hbm, 71, rfl⟩
abbrev main_v41 : Ref sig .tc := ⟨.hbm, 72, rfl⟩
abbrev main_cst : Ref sig .tc := ⟨.hbm, 73, rfl⟩
abbrev main_v42 : Ref sig .tc := ⟨.hbm, 74, rfl⟩
abbrev main_c_11 : Ref sig .tc := ⟨.hbm, 75, rfl⟩
abbrev main_v43 : Ref sig .tc := ⟨.hbm, 76, rfl⟩
abbrev main_v44 : Ref sig .tc := ⟨.hbm, 77, rfl⟩
abbrev main_c_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_13 : Ref sig .tc := ⟨.hbm, 82, rfl⟩
abbrev main_v48 : Ref sig .tc := ⟨.hbm, 83, rfl⟩
abbrev main_v49 : Ref sig .tc := ⟨.hbm, 84, rfl⟩
abbrev main_c_14 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_15 : Ref sig .tc := ⟨.hbm, 93, rfl⟩
abbrev main_call5_v0 : Ref sig .tc := ⟨.hbm, 94, rfl⟩
abbrev main_call5_v1 : Ref sig .tc := ⟨.hbm, 95, rfl⟩
abbrev main_v57 : Ref sig .tc := ⟨.hbm, 96, rfl⟩
abbrev main_v58 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x24 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x256_S256x128_1_0 : S128x256.Transposes [1, 0] S256x128
  bitsLt_bf16_f32 : FTy.bits .bf16 < FTy.bits .f32
  transposes_S24x128_S128x24_1_0 : S24x128.Transposes [1, 0] S128x24
  bcast_S_S64 : S_.BroadcastsInDim S64 (![] : Fin 0 → Fin S64.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  concatenates_S1_S64_S65_d0 : Shape.Concatenates [S1, S64] S65 0
  slices_S65_S64_0 : S65.Slices ![0] S64
  shapeCasts_S64_S1x64 : S64.ShapeCasts S1x64
  slices_S65_S64_1 : S65.Slices ![1] S64
  iota_S4096x1_d0_w32 : S4096x1.Iotas .tc 32 [0]
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4096x1_S4096x64 : S4096x1.Broadcasts S4096x64
  broadcasts_S1x64_S4096x64 : S1x64.Broadcasts S4096x64
  natLt_1_32 : 1 < 32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x24_S128x24_0_0 : ∀ a, (![0, 0] : Fin 2 → Nat) a + S128x24.size a ≤ S128x24.size a
  h_S128x24 : 0 < S128x24.numel
  shapeCasts_S128x24_S128x24 : S128x24.ShapeCasts S128x24
  inb_S24_S24_0 : ∀ a, (![0] : Fin 1 → Nat) a + S24.size a ≤ S24.size a
  h_S24 : 0 < S24.numel
  shapeCasts_S24_S1x24 : S24.ShapeCasts S1x24
  broadcasts_S1x24_S4096x24 : S1x24.Broadcasts S4096x24
  inb_S4096x24_S4096x24_0_0 : ∀ a, (![0, 0] : Fin 2 → Nat) a + S4096x24.size a ≤ S4096x24.size a
  h_S4096x24 : 0 < S4096x24.numel
  reduceWindows_S262144_S262144_w262144s1p262143_0 : S262144.ReduceWindows (![262144] : Fin 1 → Nat) ![1] ![262143] ![0] S262144
  bcast_S_S64x4096x24 : S_.BroadcastsInDim S64x4096x24 (![] : Fin 0 → Fin S64x4096x24.rank)
  concatenates_S262144x1_S262144x1_S262144x2_d1 : Shape.Concatenates [S262144x1, S262144x1] S262144x2 1
  shapeCasts_S64x4096x24_S64x98304 : S64x4096x24.ShapeCasts S64x98304
  scatter_S64_S262144x1_S262144_n_0_0_1_wf : ScatterDims.WF S64 S262144x1 S262144 [] [0] [0] 1
  dot_S4096x64_S64x128_S4096x128_1_0_0_1_n_n_wf : DotDims.WF S4096x64 S64x128 S4096x128 [1] [0] [0] [1] [] []
  dot_S4096x256_S256x128_S4096x128_1_0_0_1_n_n_wf : DotDims.WF S4096x256 S256x128 S4096x128 [1] [0] [0] [1] [] []
  dot_S4096x128_S128x24_S4096x24_1_0_0_1_n_n_wf : DotDims.WF S4096x128 S128x24 S4096x24 [1] [0] [0] [1] [] []
  gather_S64_S262144x1_S262144_n_0_n_n_0_1_1_wf : GatherDims.WF S64 S262144x1 S262144 [] [0] [] [0] [] 1 ![1]
  scatter_S64x4096x24_S262144x2_S262144x24_1_01_01_1_wf : ScatterDims.WF S64x4096x24 S262144x2 S262144x24 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .i32 = 32 ∨ (Rect.block (s := S1x64) S1x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .i32 = 32 ∨ (Rect.block (s := S1x64) S1x64.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x24.size a ≤ S128x24.size a
  hwx0_6 : ∀ i : grid0.Coords, EltTy.bits .bf16 = 32 ∨ (Rect.block (s := S128x24) S128x24.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24.size a ≤ S24.size a
  hwx0_7 : ∀ i : grid0.Coords, EltTy.bits .f32 = 32 ∨ (Rect.block (s := S24) S24.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x24.size a ≤ S262144x24.size a
  hwx0_8 : ∀ i : grid0.Coords, EltTy.bits .f32 = 32 ∨ (Rect.block (s := S262144x24) S4096x24.size (cc0_transform_8 i) (hinb0_8 i)).WholeWords (EltTy.packing .f32)

variable [Facts₀]

def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x24_S4096x24_1_0_0_1_n_n : DotDims S4096x128 S128x24 S4096x24 where
  lhsContracting := [1]
  rhsContracting := [0]
  lhsNonContracting := [0]
  rhsNonContracting := [1]
  lhsBatch := []
  rhsBatch := []
  wf := dot_S4096x128_S128x24_S4096x24_1_0_0_1_n_n_wf
def gather_S64_S262144x1_S262144_n_0_n_n_0_1_1 : GatherDims S64 S262144x1 S262144 where
  offsetDims := []
  collapsedSliceDims := [0]
  operandBatchingDims := []
  startIndicesBatchingDims := []
  startIndexMap := [0]
  indexVectorDim := 1
  sliceSizes := ![1]
  wf := gather_S64_S262144x1_S262144_n_0_n_n_0_1_1_wf
def scatter_S64x4096x24_S262144x2_S262144x24_1_01_01_1 : ScatterDims S64x4096x24 S262144x2 S262144x24 where
  updateWindowDims := [1]
  insertedWindowDims := [0, 1]
  scatterDimsToOperandDims := [0, 1]
  indexVectorDim := 1
  wf := scatter_S64x4096x24_S262144x2_S262144x24_1_01_01_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x24.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S4096x24.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x128 : Shape := ⟨2, ![262144, 128]⟩
abbrev S64x128 : Shape := ⟨2, ![64, 128]⟩
abbrev S128x256 : Shape := ⟨2, ![128, 256]⟩
abbrev S128 : Shape := ⟨1, ![128]⟩
abbrev S24x128 : Shape := ⟨2, ![24, 128]⟩
abbrev S24 : Shape := ⟨1, ![24]⟩
abbrev S262144 : Shape := ⟨1, ![262144]⟩
abbrev S64x4096x24 : Shape := ⟨3, ![64, 4096, 24]⟩
abbrev S_ : Shape := ⟨0, ![]⟩
abbrev S262144x1 : Shape := ⟨2, ![262144, 1]⟩
abbrev S262144x256 : Shape := ⟨2, ![262144, 256]⟩
abbrev S256x128 : Shape := ⟨2, ![256, 128]⟩
abbrev S1x128 : Shape := ⟨2, ![1, 128]⟩
abbrev S128x24 : Shape := ⟨2, ![128, 24]⟩
abbrev S262144x24 : Shape := ⟨2, ![262144, 24]⟩
abbrev S1x24 : Shape := ⟨2, ![1, 24]⟩
abbrev S64 : Shape := ⟨1, ![64]⟩
abbrev S262144x2 : Shape := ⟨2, ![262144, 2]⟩
abbrev S64x98304 : Shape := ⟨2, ![64, 98304]⟩

abbrev nBuf : Space → Nat
  | .hbm => 88
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S128x256, .f32⟩
  | .hbm, ⟨3, _⟩ => ⟨S128, .f32⟩
  | .hbm, ⟨4, _⟩ => ⟨S24x128, .f32⟩
  | .hbm, ⟨5, _⟩ => ⟨S24, .f32⟩
  | .hbm, ⟨6, _⟩ => ⟨S262144, .i1⟩
  | .hbm, ⟨7, _⟩ => ⟨S262144, .i32⟩
  | .hbm, ⟨8, _⟩ => ⟨S64x4096x24, .i1⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x128, .f32⟩
  | .hbm, ⟨18, _⟩ => ⟨S262144x256, .f32⟩
  | .hbm, ⟨19, _⟩ => ⟨S256x128, .f32⟩
  | .hbm, ⟨20, _⟩ => ⟨S262144x128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S128x24, .f32⟩
  | .hbm, ⟨28, _⟩ => ⟨S262144x24, .f32⟩
  | .hbm, ⟨29, _⟩ => ⟨S1x24, .f32⟩
  | .hbm, ⟨30, _⟩ => ⟨S262144x24, .f32⟩
  | .hbm, ⟨31, _⟩ => ⟨S262144x24, .f32⟩
  | .hbm, ⟨32, _⟩ => ⟨S262144, .i32⟩
  | .hbm, ⟨33, _⟩ => ⟨S_, .i32⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S64, .i32⟩
  | .hbm, ⟨39, _⟩ => ⟨S262144x1, .i32⟩
  | .hbm, ⟨40, _⟩ => ⟨S64, .i32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144, .i32⟩
  | .hbm, ⟨50, _⟩ => ⟨S262144, .i32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S262144, .i1⟩
  | .hbm, ⟨55, _⟩ => ⟨S_, .i32⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S_, .i32⟩
  | .hbm, ⟨60, _⟩ => ⟨S_, .i32⟩
  | .hbm, ⟨61, _⟩ => ⟨S262144, .i32⟩
  | .hbm, ⟨62, _⟩ => ⟨S262144, .i32⟩
  | .hbm, ⟨63, _⟩ => ⟨S_, .f32⟩
  | .hbm, ⟨64, _⟩ => ⟨S64x4096x24, .f32⟩
  | .hbm, ⟨65, _⟩ => ⟨S_, .i32⟩
  | .hbm, ⟨66, _⟩ => ⟨S262144, .i32⟩
  | .hbm, ⟨67, _⟩ => ⟨S262144, .i1⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S262144, .i32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S262144x1, .i32⟩
  | .hbm, ⟨81, _⟩ => ⟨S262144x2, .i32⟩
  | .hbm, ⟨82, _⟩ => ⟨S64x4096x24, .f32⟩
  | .hbm, ⟨83, _⟩ => ⟨S_, .f32⟩
  | .hbm, ⟨84, _⟩ => ⟨S_, .f32⟩
  | .hbm, ⟨85, _⟩ => ⟨S64x4096x24, .f32⟩
  | .hbm, ⟨86, _⟩ => ⟨S64x4096x24, .f32⟩
  | .hbm, ⟨87, _⟩ => ⟨S64x98304, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_call0_c : Ref sig .tc := ⟨.hbm, 33, rfl⟩
abbrev main_call1_call0_v0 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_call2_v0 : Ref sig .tc := ⟨.hbm, 56, rfl⟩
abbrev main_call2_v1 : Ref sig .tc := ⟨.hbm, 57, rfl⟩
abbrev main_v36 : Ref sig .tc := ⟨.hbm, 58, rfl⟩
abbrev main_c_6 : Ref sig .tc := ⟨.hbm, 59, rfl⟩
abbrev main_call3_v0 : Ref sig .tc := ⟨.hbm, 60, rfl⟩
abbrev main_call3_v1 : Ref sig .tc := ⟨.hbm, 61, rfl⟩
abbrev main_v37 : Ref sig .tc := ⟨.hbm, 62, rfl⟩
abbrev main_cst : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_call4_v0 : Ref sig .tc := ⟨.hbm, 84, rfl⟩
abbrev main_call4_v1 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x128_S262144x128_S262144x256_d1 : Shape.Concatenates [S262144x128, S262144x128] S262144x256 1
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S24x128_S128x24_1_0 : S24x128.Transposes [1, 0] S128x24
  bcast_S24_S1x24_1 : S24.BroadcastsInDim S1x24 (![1] : Fin 1 → Fin S1x24.rank)
  bcast_S1x24_S262144x24_0_1 : S1x24.BroadcastsInDim S262144x24 (![0, 1] : Fin 2 → Fin S262144x24.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S64 : S_.BroadcastsInDim S64 (![] : Fin 0 → Fin S64.rank)
  bcast_S_S64x4096x24 : S_.BroadcastsInDim S64x4096x24 (![] : Fin 0 → Fin S64x4096x24.rank)
  concatenates_S262144x1_S262144x1_S262144x2_d1 : Shape.Concatenates [S262144x1, S262144x1] S262144x2 1
  shapeCasts_S64x4096x24_S64x98304 : S64x4096x24.ShapeCasts S64x98304
  gather_S64x128_S262144x1_S262144x128_1_0_n_n_0_1_1128_wf : GatherDims.WF S64x128 S262144x1 S262144x128 [1] [0] [] [0] [] 1 ![1, 128]
  dot_S262144x256_S256x128_S262144x128_1_0_0_1_n_n_wf : DotDims.WF S262144x256 S256x128 S262144x128 [1] [0] [0] [1] [] []
  dot_S262144x128_S128x24_S262144x24_1_0_0_1_n_n_wf : DotDims.WF S262144x128 S128x24 S262144x24 [1] [0] [0] [1] [] []
  scatter_S64_S262144x1_S262144_n_0_0_1_wf : ScatterDims.WF S64 S262144x1 S262144 [] [0] [0] 1
  gather_S64_S262144x1_S262144_n_0_n_n_0_1_1_wf : GatherDims.WF S64 S262144x1 S262144 [] [0] [] [0] [] 1 ![1]
  scatter_S64x4096x24_S262144x2_S262144x24_1_01_01_1_wf : ScatterDims.WF S64x4096x24 S262144x2 S262144x24 [1] [0, 1] [0, 1] 1

variable [Facts₀]

def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x24_S262144x24_1_0_0_1_n_n : DotDims S262144x128 S128x24 S262144x24 where
  lhsContracting := [1]
  rhsContracting := [0]
  lhsNonContracting := [0]
  rhsNonContracting := [1]
  lhsBatch := []
  rhsBatch := []
  wf := dot_S262144x128_S128x24_S262144x24_1_0_0_1_n_n_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def gather_S64_S262144x1_S262144_n_0_n_n_0_1_1 : GatherDims S64 S262144x1 S262144 where
  offsetDims := []
  collapsedSliceDims := [0]
  operandBatchingDims := []
  startIndicesBatchingDims := []
  startIndexMap := [0]
  indexVectorDim := 1
  sliceSizes := ![1]
  wf := gather_S64_S262144x1_S262144_n_0_n_n_0_1_1_wf
def scatter_S64x4096x24_S262144x2_S262144x24_1_01_01_1 : ScatterDims S64x4096x24 S262144x2 S262144x24 where
  updateWindowDims := [1]
  insertedWindowDims := [0, 1]
  scatterDimsToOperandDims := [0, 1]
  indexVectorDim := 1
  wf := scatter_S64x4096x24_S262144x2_S262144x24_1_01_01_1_wf

class Facts : Prop extends Facts₀ where

variable [Facts]
-- ==== Proof.KHost.lean ====
/-
  The kernel program's host side before the region, as pure functions of the argument arrays: the per-graph node
  counts (a scatter-add of ones at the batch ids), their running sums with a leading zero, and the two rows the kernel
  reads: `cumLo b` = number of nodes in graphs before `b`, `cumHi b` = number of nodes in graphs up to `b`; the
  weights transposed. Each is read off the operation list one stretch at a time, from arbitrary buffer contents.
-/
import proofs.«411711_j670014898681_2_alg».proof.Proof.KernelIdealFrame
import Idealize.ShloMosaic.Lib.StableHlo.Run

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

/-- How many nodes each graph has: ones added at the (clipped, wrapped) batch ids. -/
def counts (batch : IVec S262144 32) : IVec S64 32 :=
  let v6 : IVec S262144 32 := maxsi (broadcastInDim S262144 ![] bcast_S_S262144 (constantI S_ 32 0#32)) batch
  let v8 : IVec S262144 1 := cmpi .slt v6 (broadcastInDim S262144 ![] bcast_S_S262144 (constantI S_ 32 0#32))
  let v10 : IVec S262144 32 := addi v6 (broadcastInDim S262144 ![] bcast_S_S262144 (constantI S_ 32 64#32))
  let v11 : IVec S262144 32 := select v8 v10 v6
  let v12 : IVec S262144x1 32 := broadcastInDim S262144x1 ![0] bcast_S262144_S262144x1_0 v11
  let v13 : IVec S262144 32 := broadcastInDim S262144 ![] bcast_S_S262144 (constantI S_ 32 1#32)
  Host.scatter scatter_S64_S262144x1_S262144_n_0_0_1 IntOp.addi (broadcastInDim S64 ![] bcast_S_S64 (constantI S_ 32 0#32)) v12 v13

/-- A zero, then the running sums of the counts. -/
def cum (batch : IVec S262144 32) : IVec S65 32 :=
  concatenate S65 0 [⟨S1, (broadcastInDim S1 ![] bcast_S_S1 (constantI S_ 32 0#32) : IVec S1 32)⟩,
    ⟨S64, (Host.reduceWindow IntOp.addi ![64] ![1] ![63] ![0] (counts batch) (broadcastInDim S_ ![] bcast_S_S_ (constantI S_ 32 0#32) : IVec S_ 32)
      reduceWindows_S64_S64_w64s1p63_0 h_S_ : IVec S64 32)⟩] concatenates_S1_S64_S65_d0

/-- Nodes in graphs before `b`. -/
def cumLo (batch : IVec S262144 32) : IVec S1x64 32 :=
  shapeCast S1x64 (extractStridedSlice S64 ![0] (cum batch) slices_S65_S64_0 : IVec S64 32) shapeCasts_S64_S1x64

/-- Nodes in graphs up to `b`. -/
def cumHi (batch : IVec S262144 32) : IVec S1x64 32 :=
  shapeCast S1x64 (extractStridedSlice S64 ![1] (cum batch) slices_S65_S64_1 : IVec S64 32) shapeCasts_S64_S1x64

variable {F : FTy → Type} [FloatOps F]

/-! The operations before the region, stretch by stretch, each from ANY contents `W` of the buffers: what a stretch
    leaves in the buffers the next ones read. -/

section Stretches

variable (W : Valuation τ sig (Elt F))

/-- First stretch: the scalar zero. -/
theorem s0_c0 : (after hostOps0 W (Proc.devRef .tc main_c_0) : IVec S_ 32) = constantI S_ 32 0#32 := by
  simp only [hostOps0]
  after_results
/-- First stretch: the 64 zeros the counts start from. -/
theorem s0_v5 : (after hostOps0 W (Proc.devRef .tc main_v5) : IVec S64 32)
    = broadcastInDim S64 ![] bcast_S_S64 (constantI S_ 32 0#32) := by
  simp only [hostOps0]
  after_results
/-- First stretch: the batch ids are not written. -/
theorem s0_arg7 : (after hostOps0 W (Proc.devRef .tc main_arg7) : IVec S262144 32) = W (Proc.devRef .tc main_arg7) := by
  simp only [hostOps0]
  after_results

/-- Second stretch: the ids raised to at least the scalar in `main_c_0`. -/
theorem s1_v6 : (after hostOps0_1 W (Proc.devRef .tc main_v6) : IVec S262144 32)
    = maxsi (broadcastInDim S262144 ![] bcast_S_S262144 (W (Proc.devRef .tc main_c_0) : IVec S_ 32)) (W (Proc.devRef .tc main_arg7)) := by
  simp only [hostOps0_1]
  after_results
  rfl
/-- Second stretch: the 64 zeros are not written. -/
theorem s1_v5 : (after hostOps0_1 W (Proc.devRef .tc main_v5) : IVec S64 32) = W (Proc.devRef .tc main_v5) := by
  simp only [hostOps0_1]
  after_results

/-- Third stretch: ones added, at the wrapped ids, to what `main_v5` holds. -/
theorem s2_v14 : (after hostOps0_2 W (Proc.devRef .tc main_v14) : IVec S64 32)
    = Host.scatter scatter_S64_S262144x1_S262144_n_0_0_1 IntOp.addi (W (Proc.devRef .tc main_v5) : IVec S64 32)
        (broadcastInDim S262144x1 ![0] bcast_S262144_S262144x1_0
          (select (cmpi .slt (W (Proc.devRef .tc main_v6) : IVec S262144 32) (broadcastInDim S262144 ![] bcast_S_S262144 (constantI S_ 32 0#32)))
            (addi (W (Proc.devRef .tc main_v6) : IVec S262144 32) (broadcastInDim S262144 ![] bcast_S_S262144 (constantI S_ 32 64#32)))
            (W (Proc.devRef .tc main_v6) : IVec S262144 32) : IVec S262144 32) : IVec S262144x1 32)
        (broadcastInDim S262144 ![] bcast_S_S262144 (constantI S_ 32 1#32) : IVec S262144 32) := by
  simp only [hostOps0_2]
  after_results_simp
/-- Third stretch: the one-entry zero row. -/
theorem s2_v15 : (after hostOps0_2 W (Proc.devRef .tc main_v15) : IVec S1 32)
    = broadcastInDim S1 ![] bcast_S_S1 (constantI S_ 32 0#32) := by
  simp only [hostOps0_2]
  after_results_simp

attribute [local irreducible] Host.reduceWindow in
/-- Fourth stretch: the running sums of what `main_v14` holds. -/
theorem s3_v16 : (after hostOps0_3 W (Proc.devRef .tc main_v16) : IVec S64 32)
    = Host.reduceWindow IntOp.addi ![64] ![1] ![63] ![0] (W (Proc.devRef .tc main_v14) : IVec S64 32)
        (broadcastInDim S_ ![] bcast_S_S_ (constantI S_ 32 0#32) : IVec S_ 32) reduceWindows_S64_S64_w64s1p63_0 h_S_ := by
  simp only [hostOps0_3]
  after_results
  rfl
/-- Fourth stretch: the one-entry zero row is not written. -/
theorem s3_v15 : (after hostOps0_3 W (Proc.devRef .tc main_v15) : IVec S1 32) = W (Proc.devRef .tc main_v15) := by
  simp only [hostOps0_3]
  after_results

/-- Last stretch: the two rows are cut from the zero joined to the running sums. -/
theorem s4_v19 : (after hostOps0_4 W (Proc.devRef .tc main_v19) : IVec S1x64 32)
    = shapeCast S1x64 (extractStridedSlice S64 ![0] (concatenate S65 0 [⟨S1, (W (Proc.devRef .tc main_v15) : IVec S1 32)⟩,
        ⟨S64, (W (Proc.devRef .tc main_v16) : IVec S64 32)⟩] concatenates_S1_S64_S65_d0 : IVec S65 32) slices_S65_S64_0 : IVec S64 32)
        shapeCasts_S64_S1x64 := by
  simp only [hostOps0_4]
  after_results
  rfl
theorem s4_v21 : (after hostOps0_4 W (Proc.devRef .tc main_v21) : IVec S1x64 32)
    = shapeCast S1x64 (extractStridedSlice S64 ![1] (concatenate S65 0 [⟨S1, (W (Proc.devRef .tc main_v15) : IVec S1 32)⟩,
        ⟨S64, (W (Proc.devRef .tc main_v16) : IVec S64 32)⟩] concatenates_S1_S64_S65_d0 : IVec S65 32) slices_S65_S64_1 : IVec S64 32)
        shapeCasts_S64_S1x64 := by
  simp only [hostOps0_4]
  after_results
  rfl

end Stretches

section Reading

variable (W : Valuation τ sig (Elt F))

attribute [local irreducible] Host.scatter Host.reduceWindow concatenate in
/-- All the operations before the region, from any contents: `main_v19` ends at `cumLo` of the batch ids. -/
theorem read_v19 :
    (after (List.flatten [hostOps0, hostOps0_1, hostOps0_2, hostOps0_3, hostOps0_4]) W (Proc.devRef .tc main_v19) : IVec S1x64 32)
      = cumLo (W (Proc.devRef .tc main_arg7)) := by
  simp only [List.flatten_cons, List.flatten_nil, List.append_nil, StableHlo.after_append]
  rw [s4_v19, s3_v16, s3_v15, s2_v14, s2_v15, s1_v6, s1_v5, s0_c0, s0_v5, s0_arg7]
  unfold cumLo cum counts
  rfl

attribute [local irreducible] Host.scatter Host.reduceWindow concatenate in
/-- And `main_v21` at `cumHi`. -/
theorem read_v21 :
    (after (List.flatten [hostOps0, hostOps0_1, hostOps0_2, hostOps0_3, hostOps0_4]) W (Proc.devRef .tc main_v21) : IVec S1x64 32)
      = cumHi (W (Proc.devRef .tc main_arg7)) := by
  simp only [List.flatten_cons, List.flatten_nil, List.append_nil, StableHlo.after_append]
  rw [s4_v21, s3_v16, s3_v15, s2_v14, s2_v15, s1_v6, s1_v5, s0_c0, s0_v5, s0_arg7]
  unfold cumHi cum counts
  rfl

end Reading

variable (m : (ℓ : Loc nD τ sig) → Buf (Elt F) ℓ)

/-- What the region finds in its windows' arrays that host operations wrote. -/
theorem V_main_v19 (c : Dev nD) : (V m c main_v19 : IVec S1x64 32) = cumLo (m ((c : Thread nD τ).loc main_arg7)) := by
  dsimp only [V, V0]
  exact read_v19 _
theorem V_main_v21 (c : Dev nD) : (V m c main_v21 : IVec S1x64 32) = cumHi (m ((c : Thread nD τ).loc main_arg7)) := by
  dsimp only [V, V0]
  exact read_v21 _
theorem V_main_v4 (c : Dev nD) : (V m c main_v4 : FVec F S64x128 .bf16) = truncf .bf16 (m ((c : Thread nD τ).loc main_arg1)) bitsLt_bf16_f32 := by
  dsimp only [V, V0]
  simp only [hostOps0, hostOps0_1, hostOps0_2, hostOps0_3, hostOps0_4, List.flatten_cons, List.flatten_nil, List.append_nil,
    List.cons_append, List.nil_append]
  after_results
  all_goals rfl
theorem V_main_v1 (c : Dev nD) : (V m c main_v1 : FVec F S256x128 .bf16)
    = truncf .bf16 (transpose S256x128 [1, 0] (m ((c : Thread nD τ).loc main_arg2)) transposes_S128x256_S256x128_1_0 : FVec F S256x128 .f32) bitsLt_bf16_f32 := by
  dsimp only [V, V0]
  simp only [hostOps0, hostOps0_1, hostOps0_2, hostOps0_3, hostOps0_4, List.flatten_cons, List.flatten_nil, List.append_nil,
    List.cons_append, List.nil_append]
  after_results
  all_goals rfl
theorem V_main_v3 (c : Dev nD) : (V m c main_v3 : FVec F S128x24 .bf16)
    = truncf .bf16 (transpose S128x24 [1, 0] (m ((c : Thread nD τ).loc main_arg4)) transposes_S24x128_S128x24_1_0 : FVec F S128x24 .f32) bitsLt_bf16_f32 := by
  dsimp only [V, V0]
  simp only [hostOps0, hostOps0_1, hostOps0_2, hostOps0_3, hostOps0_4, List.flatten_cons, List.flatten_nil, List.append_nil,
    List.cons_append, List.nil_append]
  after_results
  all_goals rfl

end Cert.KernelIdeal.Hand

end
-- ==== Proof.Spec.lean ====
/-
  What both programs compute before the shared scatter: the two-layer network's score of every node.
  Node `n` belongs to graph `g n`; its feature row is its own 128 features followed by the 128 features of its
  graph; the hidden layer is `max (x · W1ᵀ + b1) 0`, the score `h · W2ᵀ + b2`, all on the extended reals.
-/
import Idealize.ShloMosaic.PureOps.Ideal
import Idealize.ShloMosaic.Lib.ValueIdx

noncomputable section

namespace Cert.Spec

open Idealize.ShloMosaic Idealize.ShloMosaic.ValueIdx

/-- The graph a node belongs to: its batch id read as a number (below 64 on the stated domain). -/
def graphOf (batch : IVec ⟨1, ![262144]⟩ 32) (n : Fin 262144) : Fin 64 :=
  ⟨(batch (ix1 n)).toNat % 64, Nat.mod_lt _ (by decide)⟩

/-- Entry `k` of node `n`'s feature row: its own features, then its graph's. -/
def feat (nf : (⟨2, ![262144, 128]⟩ : Shape).Idx → EReal) (gf : (⟨2, ![64, 128]⟩ : Shape).Idx → EReal)
    (g : Fin 262144 → Fin 64) (n : Fin 262144) (k : Fin 256) : EReal :=
  if h : k.val < 128 then nf (ix2 n ⟨k.val, h⟩) else gf (ix2 (g n) ⟨k.val - 128, by omega⟩)

/-- Hidden unit `j` of node `n`. -/
def hidden (nf : (⟨2, ![262144, 128]⟩ : Shape).Idx → EReal) (gf : (⟨2, ![64, 128]⟩ : Shape).Idx → EReal)
    (W1 : (⟨2, ![128, 256]⟩ : Shape).Idx → EReal) (b1 : (⟨1, ![128]⟩ : Shape).Idx → EReal)
    (g : Fin 262144 → Fin 64) (n : Fin 262144) (j : Fin 128) : EReal :=
  max ((∑ k : Fin 256, feat nf gf g n k * W1 (ix2 j k)) + b1 (ix1 j)) 0

/-- Score of move `q` at node `n`. -/
def score (nf : (⟨2, ![262144, 128]⟩ : Shape).Idx → EReal) (gf : (⟨2, ![64, 128]⟩ : Shape).Idx → EReal)
    (W1 : (⟨2, ![128, 256]⟩ : Shape).Idx → EReal) (b1 : (⟨1, ![128]⟩ : Shape).Idx → EReal)
    (W2 : (⟨2, ![24, 128]⟩ : Shape).Idx → EReal) (b2 : (⟨1, ![24]⟩ : Shape).Idx → EReal)
    (g : Fin 262144 → Fin 64) (n : Fin 262144) (q : Fin 24) : EReal :=
  (∑ j : Fin 128, hidden nf gf W1 b1 g n j * W2 (ix2 q j)) + b2 (ix1 q)

/-- The whole score array. -/
def scores (nf : (⟨2, ![262144, 128]⟩ : Shape).Idx → EReal) (gf : (⟨2, ![64, 128]⟩ : Shape).Idx → EReal)
    (W1 : (⟨2, ![128, 256]⟩ : Shape).Idx → EReal) (b1 : (⟨1, ![128]⟩ : Shape).Idx → EReal)
    (W2 : (⟨2, ![24, 128]⟩ : Shape).Idx → EReal) (b2 : (⟨1, ![24]⟩ : Shape).Idx → EReal)
    (g : Fin 262144 → Fin 64) : (⟨2, ![262144, 24]⟩ : Shape).Idx → EReal :=
  fun i => score nf gf W1 b1 W2 b2 g (i 0) (i 1)

/-- The stated domain of the batch ids, as numbers: every id below 64 and non-negative (as a 32-bit word read
    signed), and the ids non-decreasing along the nodes. -/
structure BatchOk (batch : IVec ⟨1, ![262144]⟩ 32) : Prop where
  range : ∀ n : Fin 262144, (batch (ix1 n)).toNat < 64
  sorted : ∀ n n' : Fin 262144, n ≤ n' → (batch (ix1 n)).toNat ≤ (batch (ix1 n')).toNat

end Cert.Spec

end
-- ==== Proof.KCountScatter.lean ====
/-
  The scatter-add of ones at the batch ids counts: on the stated domain (every id a number below 64) entry `b` of the
  count row is the number of nodes whose id is `b`, as a 32-bit word.
-/
import proofs.«411711_j670014898681_2_alg».proof.Proof.KHost
import proofs.«411711_j670014898681_2_alg».proof.Proof.Spec
import Idealize.ShloMosaic.Lib.StableHlo.Predicate

noncomputable section

namespace Cert.KernelIdeal.Hand

open Cert.KernelIdeal Cert.KernelIdeal.Gen
open Idealize.ShloMosaic Idealize.ShloMosaic.ValueIdx

namespace CountScatter

/-- A left fold whose step adds one at entry `i` exactly on the marked list elements and leaves entry `i` alone on the
    others ends, at `i`, at the start value plus the number of marked elements. -/
theorem foldl_count {ι σ : Type} (step : (σ → BitVec 32) → ι → (σ → BitVec 32)) (p : ι → Bool) (i : σ)
    (hhit : ∀ r n, p n = true → step r n i = r i + 1#32) (hmiss : ∀ r n, p n = false → step r n i = r i)
    (L : List ι) (x : σ → BitVec 32) :
    (L.foldl step x) i = x i + BitVec.ofNat 32 (L.countP p) := by
  induction L generalizing x with
  | nil => simp
  | cons n L ih =>
    rw [List.foldl_cons, ih, List.countP_cons]
    cases hp : p n with
    | true =>
      rw [hhit x n hp, if_pos rfl, BitVec.add_assoc, Nat.add_comm, BitVec.ofNat_add]
    | false =>
      rw [hmiss x n hp]; simp

/-- On the stated domain the clip at zero and the wrap of negative ids leave every id as it is. -/
theorem idcol_apply (batch : IVec S262144 32) (hr : ∀ n : Fin 262144, (batch (ix1 n)).toNat < 64) (j : S262144.Idx) :
    (select (cmpi .slt (maxsi (broadcastInDim S262144 ![] bcast_S_S262144 (constantI S_ 32 0#32)) batch)
        (broadcastInDim S262144 ![] bcast_S_S262144 (constantI S_ 32 0#32)))
      (addi (maxsi (broadcastInDim S262144 ![] bcast_S_S262144 (constantI S_ 32 0#32)) batch)
        (broadcastInDim S262144 ![] bcast_S_S262144 (constantI S_ 32 64#32)))
      (maxsi (broadcastInDim S262144 ![] bcast_S_S262144 (constantI S_ 32 0#32)) batch) : IVec S262144 32) j = batch j := by
  have hj : (batch j).toNat < 64 := by rw [eq_ix1 j]; exact hr _
  have hti : (batch j).toInt = (batch j).toNat := StableHlo.Predicate.toInt_eq_toNat_of_lt (by omega)
  have h0 : (0#32 : BitVec 32).toInt = 0 := by decide
  have hns : (batch j).slt 0#32 = false := by
    simp only [BitVec.slt, hti, h0, decide_eq_false_iff_not]; omega
  show Scalar.select (IntOp.cmpi .slt (IntOp.maxsi 0#32 (batch j)) 0#32) _ (IntOp.maxsi 0#32 (batch j)) = batch j
  have hmax : IntOp.maxsi 0#32 (batch j) = batch j := by
    unfold IntOp.maxsi; rw [hns]; rfl
  rw [hmax]
  have hc : IntOp.cmpi .slt (batch j) 0#32 = 0#1 := by
    show BitVec.ofBool ((batch j).slt 0#32) = 0#1
    rw [hns]; rfl
  rw [hc]; exact select_zero _ _

/-- Where the update at position `j` lands: the index column is the id column written as a one-column table, the one
    scattered axis reads it signed (an id below 64 reads the same signed and unsigned), there is no window. -/
theorem resultIdx_apply (col : IVec S262144 32) (j : S262144.Idx) (hj : (col j).toNat < 64) :
    scatter_S64_S262144x1_S262144_n_0_0_1.resultIdx? j (broadcastInDim S262144x1 ![0] bcast_S262144_S262144x1_0 col) = some (ix1 ⟨(col j).toNat, hj⟩) := by
  have hmem : (0 : Fin 1) ∈ scatter_S64_S262144x1_S262144_n_0_0_1.scatterDimsToOperandDims := List.mem_singleton.mpr rfl
  have hstart : scatter_S64_S262144x1_S262144_n_0_0_1.start j (broadcastInDim S262144x1 ![0] bcast_S262144_S262144x1_0 col) (0 : Fin 1) = ((col j).toNat : Int) := by
    unfold ScatterDims.start
    rw [dif_pos hmem]
    have hsi : scatter_S64_S262144x1_S262144_n_0_0_1.siIdx j ⟨List.idxOf (0 : Fin 1) scatter_S64_S262144x1_S262144_n_0_0_1.scatterDimsToOperandDims, List.idxOf_lt_length_iff.2 hmem⟩ = ix2 (n0 := 262144) (n1 := 1) (j 0) 0 := by
      funext b; refine Fin.ext ?_
      match b with
      | ⟨0, _⟩ => rfl
      | ⟨1, _⟩ => rfl
    rw [hsi]
    have hb : broadcastInDim S262144x1 ![0] bcast_S262144_S262144x1_0 col (ix2 (n0 := 262144) (n1 := 1) (j 0) 0) = col j := by
      unfold broadcastInDim
      refine congrArg col (funext fun a => ?_)
      obtain rfl : a = 0 := Subsingleton.elim _ _
      rw [dif_neg (by decide)]
      rfl
    rw [hb]
    exact StableHlo.Predicate.toInt_eq_toNat_of_lt (by omega)
  have hwin : scatter_S64_S262144x1_S262144_n_0_0_1.window j (0 : Fin 1) = 0 := by
    unfold ScatterDims.window
    rw [dif_neg (by decide)]
  have H : ∀ a, 0 ≤ scatter_S64_S262144x1_S262144_n_0_0_1.start j (broadcastInDim S262144x1 ![0] bcast_S262144_S262144x1_0 col) a + scatter_S64_S262144x1_S262144_n_0_0_1.window j a
      ∧ scatter_S64_S262144x1_S262144_n_0_0_1.start j (broadcastInDim S262144x1 ![0] bcast_S262144_S262144x1_0 col) a + scatter_S64_S262144x1_S262144_n_0_0_1.window j a < S64.size a := by
    intro a; obtain rfl : a = (0 : Fin 1) := Subsingleton.elim _ _
    rw [hstart, hwin]
    refine ⟨by omega, ?_⟩
    show ((col j).toNat : Int) + ((0 : Nat) : Int) < ((64 : Nat) : Int)
    omega
  unfold ScatterDims.resultIdx?
  rw [dif_pos H]
  refine congrArg some (funext fun a => ?_)
  obtain rfl : a = (0 : Fin 1) := Subsingleton.elim _ _
  refine Fin.ext ?_
  show (scatter_S64_S262144x1_S262144_n_0_0_1.start j (broadcastInDim S262144x1 ![0] bcast_S262144_S262144x1_0 col) (0 : Fin 1) + scatter_S64_S262144x1_S262144_n_0_0_1.window j (0 : Fin 1)).toNat = (col j).toNat
  rw [hstart, hwin]; omega

/-- Counting the marked positions along the row-major list of a length-`N` array's positions is counting the marked
    coordinates. -/
theorem countP_positions (q : S262144.Idx → Prop) [DecidablePred q] :
    (List.finRange S262144.numel).countP (fun n => decide (q (S262144.rowMajor.symm n)))
      = (Finset.univ.filter fun n : Fin 262144 => q (ix1 n)).card := by
  have h1 : (List.finRange S262144.numel).countP (fun n => decide (q (S262144.rowMajor.symm n)))
      = (Finset.univ.filter fun n : Fin S262144.numel => q (S262144.rowMajor.symm n)).card := by
    rw [List.countP_eq_length_filter]
    simp [Finset.card, Finset.filter, Fin.univ_def]
  rw [h1]
  let e : Fin S262144.numel ≃ Fin 262144 :=
    S262144.rowMajor.symm.trans ⟨fun j => j 0, fun n => ix1 n, fun j => (eq_ix1 j).symm, fun n => rfl⟩
  refine Finset.card_equiv e fun n => ?_
  simp only [Finset.mem_filter, Finset.mem_univ, true_and]
  have : ix1 (e n) = S262144.rowMajor.symm n := (eq_ix1 _).symm
  rw [this]

end CountScatter

open CountScatter in
/-- Entry `b` of the count row is the number of nodes of graph `b`. -/
theorem counts_apply (batch : IVec S262144 32) (hr : ∀ n : Fin 262144, (batch (ix1 n)).toNat < 64) (b : Fin 64) :
    counts batch (ix1 b) = BitVec.ofNat 32 (Finset.univ.filter fun n : Fin 262144 => (batch (ix1 n)).toNat = b.val).card := by
  have hcol := funext (idcol_apply batch hr)
  have hlt : ∀ j : S262144.Idx, (batch j).toNat < 64 := fun j => by rw [eq_ix1 j]; exact hr _
  unfold counts
  simp only []
  rw [hcol]
  unfold Host.scatter
  rw [foldl_count _ (fun n => decide ((batch (S262144.rowMajor.symm n)).toNat = b.val)) (ix1 b)
    (by
      intro r n hp
      have hres := resultIdx_apply batch (S262144.rowMajor.symm n) (hlt _)
      have hk : (⟨(batch (S262144.rowMajor.symm n)).toNat, hlt _⟩ : Fin 64) = b := Fin.ext (of_decide_eq_true hp)
      rw [hk] at hres
      simp only [hres]
      rw [if_pos trivial]
      rfl)
    (by
      intro r n hp
      have hres := resultIdx_apply batch (S262144.rowMajor.symm n) (hlt _)
      simp only [hres]
      rw [if_neg]
      intro h
      exact of_decide_eq_false hp (congrArg Fin.val (congrFun h (0 : Fin 1))).symm)]
  show 0#32 + _ = _
  rw [BitVec.zero_add, countP_positions (fun j => (batch j).toNat = b.val)]

end Cert.KernelIdeal.Hand

end
-- ==== Proof.Count.lean ====
/-
  Counting along a non-decreasing sequence: position `p` lies at or past the number of entries below `b`, and
  before the number of entries at most `b`, exactly when the entry at `p` is `b`.
-/
import Mathlib.Data.Fintype.Card
import Mathlib.Data.Finset.Card
import Mathlib.Order.Monotone.Basic
import Mathlib.Order.Interval.Finset.Fin

namespace Cert.Count

/-- Entries below `b` of a non-decreasing sequence fill an initial segment: there are at most `p` of them exactly
    when the entry at `p` is at least `b`. -/
theorem card_lt_le_iff {N : ℕ} (f : Fin N → ℕ) (hf : Monotone f) (p : Fin N) (b : ℕ) :
    (Finset.univ.filter fun n => f n < b).card ≤ p.val ↔ b ≤ f p := by
  constructor
  · intro h
    by_contra hlt
    replace hlt := not_le.mp hlt
    have hsub : Finset.Iic p ⊆ Finset.univ.filter fun n => f n < b := by
      intro n hn
      simp only [Finset.mem_Iic] at hn
      simp only [Finset.mem_filter, Finset.mem_univ, true_and]
      exact lt_of_le_of_lt (hf hn) hlt
    have hc := Finset.card_le_card hsub
    rw [Fin.card_Iic] at hc
    omega
  · intro h
    have hsub : (Finset.univ.filter fun n => f n < b) ⊆ Finset.Iio p := by
      intro n hn
      simp only [Finset.mem_filter, Finset.mem_univ, true_and] at hn
      simp only [Finset.mem_Iio]
      by_contra hge
      replace hge := not_lt.mp hge
      have := hf hge
      omega
    have hc := Finset.card_le_card hsub
    rw [Fin.card_Iio] at hc
    exact hc

/-- And position `p` is among the first "entries at most `b`" exactly when the entry at `p` is at most `b`. -/
theorem lt_card_le_iff {N : ℕ} (f : Fin N → ℕ) (hf : Monotone f) (p : Fin N) (b : ℕ) :
    p.val < (Finset.univ.filter fun n => f n ≤ b).card ↔ f p ≤ b := by
  constructor
  · intro h
    by_contra hlt
    replace hlt := not_le.mp hlt
    have hsub : (Finset.univ.filter fun n => f n ≤ b) ⊆ Finset.Iio p := by
      intro n hn
      simp only [Finset.mem_filter, Finset.mem_univ, true_and] at hn
      simp only [Finset.mem_Iio]
      by_contra hge
      replace hge := not_lt.mp hge
      have := hf hge
      omega
    have hc := Finset.card_le_card hsub
    rw [Fin.card_Iio] at hc
    omega
  · intro h
    have hsub : Finset.Iic p ⊆ Finset.univ.filter fun n => f n ≤ b := by
      intro n hn
      simp only [Finset.mem_Iic] at hn
      simp only [Finset.mem_filter, Finset.mem_univ, true_and]
      exact le_trans (hf hn) h
    have hc := Finset.card_le_card hsub
    rw [Fin.card_Iic] at hc
    omega

theorem sorted_pos_iff {N : ℕ} (f : Fin N → ℕ) (hf : Monotone f) (p : Fin N) (b : ℕ) :
    ((Finset.univ.filter fun n => f n < b).card ≤ p.val ∧ p.val < (Finset.univ.filter fun n => f n ≤ b).card) ↔ f p = b := by
  rw [card_lt_le_iff f hf, lt_card_le_iff f hf]; omega

end Cert.Count
-- ==== Proof.KCount.lean ====
/-
  The two rows the kernel reads locate every node's graph. On the stated domain (ids in range, non-decreasing) the
  count row `counts b` is the number of nodes of graph `b`, `cumLo b` the number of nodes of graphs before `b`, `cumHi b`
  the number of nodes of graphs up to `b`; so position `p` satisfies `cumLo b ≤ p < cumHi b` exactly when `b` is `p`'s
  graph.
-/
import proofs.«411711_j670014898681_2_alg».proof.Proof.KHost
import proofs.«411711_j670014898681_2_alg».proof.Proof.KCountScatter
import proofs.«411711_j670014898681_2_alg».proof.Proof.Spec
import proofs.«411711_j670014898681_2_alg».proof.Proof.Count
import Idealize.ShloMosaic.Lib.Pipeline.Value
import Idealize.ShloMosaic.Lib.StableHlo.Predicate
import Mathlib.Data.BitVec
import Mathlib.Algebra.BigOperators.Fin

noncomputable section

namespace Cert.KernelIdeal.Hand

open Cert.KernelIdeal Cert.KernelIdeal.Gen
open Idealize.ShloMosaic Idealize.ShloMosaic.ValueIdx

namespace CumRows

/-- A left fold of word addition from zero along a list is the sum of the list's values. -/
theorem foldl_addi_eq_sum {ι : Type} (g : ι → BitVec 32) (l : List ι) :
    l.foldl (fun r n => IntOp.addi r (g n)) 0#32 = (l.map g).sum := by
  rw [List.sum_eq_foldl, List.foldl_map]; rfl

/-- The windowed sum of width 64 padded 63 low is the running sum: entry `j` adds the entries up to `j`. (Window
    position `n` of entry `j` reads entry `j + n - 63` when that is not negative and zero otherwise; the shift
    `n ↦ n + j + 1` modulo 64 carries the positions that read an entry onto the entries up to `j`.) -/
theorem cumsum_apply (x : IVec S64 32) (z : IVec S_ 32) (hz : ∀ i, z i = 0#32)
    (h : S64.ReduceWindows ![64] ![1] ![63] ![0] S64) (hu : 0 < S_.numel) (j : Fin 64) :
    Host.reduceWindow IntOp.addi ![64] ![1] ![63] ![0] x z h hu (ix1 j)
      = ∑ k ∈ Finset.univ.filter (fun k : Fin 64 => k ≤ j), x (ix1 k) := by
  unfold Host.reduceWindow
  simp only [hz]
  rw [foldl_addi_eq_sum, ← Fin.sum_univ_def]
  let e0 : Fin 64 ≃ (⟨1, ![64]⟩ : Shape).Idx :=
    ⟨fun k => ix1 k, fun i => i 0, fun _ => rfl, fun i => (eq_ix1 i).symm⟩
  rw [← Equiv.sum_comp (e0.trans (⟨1, ![64]⟩ : Shape).rowMajor)]
  simp only [Equiv.trans_apply, Equiv.symm_apply_apply]
  rw [Finset.sum_filter]
  refine Fintype.sum_equiv (Equiv.addRight (j + 1)) _ _ (fun n => ?_)
  have hn := n.isLt
  have hj := j.isLt
  have hv : ((Equiv.addRight (j + 1)) n).val = (n.val + (j.val + 1) % 64) % 64 := by
    show (n + (j + 1)).val = _
    rw [Fin.val_add, Fin.val_add]; rfl
  by_cases hc : 63 ≤ j.val + n.val
  · rw [dif_pos (fun a => by
      match a with
      | ⟨0, _⟩ => exact ⟨by show 63 ≤ j.val * 1 + n.val; omega, by show j.val * 1 + n.val - 63 < 64; omega⟩)]
    rw [if_pos (by rw [Fin.le_def, hv]; omega)]
    exact congrArg x (funext fun a => by
      match a with
      | ⟨0, _⟩ => exact Fin.ext (by show j.val * 1 + n.val - 63 = _; rw [hv]; omega))
  · rw [dif_neg (fun hall => hc (by
      have h0 : 63 ≤ j.val * 1 + n.val := (hall 0).1
      omega))]
    rw [if_neg (by rw [Fin.le_def, hv]; omega)]
    rfl

/-- The running-sum row with its leading zero: entry 0 is zero. -/
theorem cum_zero (batch : IVec S262144 32) : cum batch (ix1 (⟨0, by omega⟩ : Fin 65)) = 0#32 := by
  unfold cum
  refine (concatenate_pair_apply_left (t := S65) (s₁ := S1) (s₂ := S64) 0 _ _ concatenates_S1_S64_S65_d0
    (ix1 (⟨0, by omega⟩ : Fin 65)) rfl (ix1 (0 : Fin 1)) (fun b => ?_)).trans ?_
  · match b with
    | ⟨0, _⟩ => rfl
  · rfl

/-- Entry `k + 1` of it is the sum of the counts up to `k`. -/
theorem cum_succ (batch : IVec S262144 32) (k : Fin 64) :
    cum batch (ix1 (⟨k.val + 1, by omega⟩ : Fin 65)) = ∑ i ∈ Finset.univ.filter (fun i : Fin 64 => i ≤ k), counts batch (ix1 i) := by
  unfold cum
  refine (concatenate_pair_apply_right (t := S65) (s₁ := S1) (s₂ := S64) 0 _ _ concatenates_S1_S64_S65_d0
    (ix1 (⟨k.val + 1, by omega⟩ : Fin 65)) rfl rfl (ix1 k) (fun b hb => ?_) ?_).trans ?_
  · match b with
    | ⟨0, _⟩ => exact absurd rfl hb
  · rfl
  · exact cumsum_apply (counts batch) _ (fun _ => rfl) _ _ k

/-- The low row at graph `b` is entry `b` of the running sums. -/
theorem cumLo_eq (batch : IVec S262144 32) (b : Fin 64) :
    cumLo batch (ix2 (0 : Fin 1) b) = cum batch (ix1 (⟨b.val, by omega⟩ : Fin 65)) := by
  unfold cumLo
  refine (shapeCast_apply _ shapeCasts_S64_S1x64 (ix2 (0 : Fin 1) b) (ix1 b) ?_).trans ?_
  · rw [Shape.rowMajor_val_one, Shape.rowMajor_val_two]; show b.val = 0 * 64 + b.val; omega
  · refine extractStridedSlice_apply _ _ slices_S65_S64_0 (ix1 b) (ix1 (⟨b.val, by omega⟩ : Fin 65)) (fun a => ?_)
    match a with
    | ⟨0, _⟩ => show b.val = 0 + b.val; omega

/-- The high row at graph `b` is entry `b + 1` of the running sums. -/
theorem cumHi_eq (batch : IVec S262144 32) (b : Fin 64) :
    cumHi batch (ix2 (0 : Fin 1) b) = cum batch (ix1 (⟨b.val + 1, by omega⟩ : Fin 65)) := by
  unfold cumHi
  refine (shapeCast_apply _ shapeCasts_S64_S1x64 (ix2 (0 : Fin 1) b) (ix1 b) ?_).trans ?_
  · rw [Shape.rowMajor_val_one, Shape.rowMajor_val_two]; show b.val = 0 * 64 + b.val; omega
  · refine extractStridedSlice_apply _ _ slices_S65_S64_1 (ix1 b) (ix1 (⟨b.val + 1, by omega⟩ : Fin 65)) (fun a => ?_)
    match a with
    | ⟨0, _⟩ => show b.val + 1 = 1 + b.val; omega

/-- The counts over a set of graphs add up to the number of nodes whose graph is in the set. -/
theorem sum_counts (batch : IVec S262144 32) (hr : ∀ n : Fin 262144, (batch (ix1 n)).toNat < 64) (S : Finset (Fin 64)) :
    ∑ i ∈ S, counts batch (ix1 i)
      = BitVec.ofNat 32 (Finset.univ.filter fun n : Fin 262144 => (⟨(batch (ix1 n)).toNat, hr n⟩ : Fin 64) ∈ S).card := by
  rw [Finset.card_eq_sum_card_fiberwise (f := fun n : Fin 262144 => (⟨(batch (ix1 n)).toNat, hr n⟩ : Fin 64))
    (s := Finset.univ.filter fun n : Fin 262144 => (⟨(batch (ix1 n)).toNat, hr n⟩ : Fin 64) ∈ S) (t := S)
    (fun n hn => (Finset.mem_filter.1 hn).2)]
  rw [← BitVec.natCast_eq_ofNat, Nat.cast_sum]
  refine Finset.sum_congr rfl (fun i hi => ?_)
  rw [counts_apply batch hr i, BitVec.natCast_eq_ofNat]
  refine congrArg (fun s : Finset (Fin 262144) => BitVec.ofNat 32 s.card) ?_
  ext n
  simp only [Finset.mem_filter, Finset.mem_univ, true_and]
  constructor
  · intro h
    have e : (⟨(batch (ix1 n)).toNat, hr n⟩ : Fin 64) = i := Fin.ext h
    exact ⟨e ▸ hi, e⟩
  · rintro ⟨_, e⟩
    exact congrArg Fin.val e

/-- Entry `m` of the running sums is the number of nodes whose id is below `m`. -/
theorem cum_apply (batch : IVec S262144 32) (hr : ∀ n : Fin 262144, (batch (ix1 n)).toNat < 64) (m : Fin 65) :
    cum batch (ix1 m) = BitVec.ofNat 32 (Finset.univ.filter fun n : Fin 262144 => (batch (ix1 n)).toNat < m.val).card := by
  obtain ⟨m, hm⟩ := m
  cases m with
  | zero =>
    refine (cum_zero batch).trans ?_
    rw [Finset.filter_false_of_mem (fun n _ => Nat.not_lt_zero _)]
    rfl
  | succ k =>
    refine (cum_succ batch ⟨k, by omega⟩).trans ((sum_counts batch hr _).trans ?_)
    refine congrArg (fun s : Finset (Fin 262144) => BitVec.ofNat 32 s.card) (Finset.filter_congr (fun n _ => ?_))
    simp only [Finset.mem_filter, Finset.mem_univ, true_and, Fin.le_def]
    omega

end CumRows

open CumRows in
/-- The kernel's two comparisons at position `p` and graph `b` both hold exactly when `b` is `p`'s graph. -/
theorem onehot_iff (batch : IVec S262144 32) (hb : Cert.Spec.BatchOk batch) (p : Fin 262144) (b : Fin 64) :
    (IntOp.cmpi .sge (BitVec.ofNat 32 p.val) (cumLo batch (ix2 (0 : Fin 1) b)) = 1#1
      ∧ IntOp.cmpi .slt (BitVec.ofNat 32 p.val) (cumHi batch (ix2 (0 : Fin 1) b)) = 1#1) ↔ b = Cert.Spec.graphOf batch p := by
  have hp := p.isLt
  have hcard : ∀ s : Finset (Fin 262144), s.card ≤ 262144 := fun s =>
    (Finset.card_le_univ s).trans (Fintype.card_fin 262144).le
  have tn : ∀ a : ℕ, a ≤ 262144 → (BitVec.ofNat 32 a).toNat = a := fun a h => by
    rw [BitVec.toNat_ofNat]; exact Nat.mod_eq_of_lt (by omega)
  have e : (Finset.univ.filter fun n : Fin 262144 => (batch (ix1 n)).toNat < b.val + 1)
      = Finset.univ.filter fun n : Fin 262144 => (batch (ix1 n)).toNat ≤ b.val :=
    Finset.filter_congr (fun n _ => Nat.lt_succ_iff)
  rw [cumLo_eq, cumHi_eq, cum_apply batch hb.range, cum_apply batch hb.range]
  show (IntOp.cmpi .sge (BitVec.ofNat 32 p.val)
        (BitVec.ofNat 32 (Finset.univ.filter fun n : Fin 262144 => (batch (ix1 n)).toNat < b.val).card) = 1#1
      ∧ IntOp.cmpi .slt (BitVec.ofNat 32 p.val)
        (BitVec.ofNat 32 (Finset.univ.filter fun n : Fin 262144 => (batch (ix1 n)).toNat < b.val + 1).card) = 1#1) ↔ _
  rw [e, StableHlo.Predicate.sge_iff_toNat (by rw [tn _ hp.le]; omega) (by rw [tn _ (hcard _)]; have := hcard (Finset.univ.filter fun n : Fin 262144 => (batch (ix1 n)).toNat < b.val); omega),
    StableHlo.Predicate.slt_iff_toNat (by rw [tn _ hp.le]; omega) (by rw [tn _ (hcard _)]; have := hcard (Finset.univ.filter fun n : Fin 262144 => (batch (ix1 n)).toNat ≤ b.val); omega),
    tn _ hp.le, tn _ (hcard _), tn _ (hcard _)]
  rw [Cert.Count.sorted_pos_iff (fun n : Fin 262144 => (batch (ix1 n)).toNat) (fun n n' h => hb.sorted n n' h) p b.val]
  unfold Cert.Spec.graphOf
  rw [Fin.ext_iff]
  show (batch (ix1 p)).toNat = b.val ↔ b.val = (batch (ix1 p)).toNat % 64
  rw [Nat.mod_eq_of_lt (hb.range p)]
  exact eq_comm

end Cert.KernelIdeal.Hand

end
-- ==== Proof.KBlock.lean ====
/-
  The kernel body's stored value at one entry, on the extended reals. At grid point `t`, row `r` of the block is node
  `t·4096 + r`; the body marks the one graph `g` whose two boundaries enclose that position, multiplies the mark row
  into the graph-feature table (which picks row `g`), joins it to the node's own features, and applies the two
  layers: `(∑ j, max ((∑ k, x k · w1 k j) + b1 j) 0 · w2 j q) + b2 q`.
-/
import proofs.«411711_j670014898681_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-! ## The three block products read at an entry

Each product contracts axis 1 of its left operand with axis 0 of its right one; the contraction index is its one
coordinate, and the operand indices at output `(r, c)` and contraction coordinate `k` are `(r, k)` and `(k, c)`. -/

theorem lhs1_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl
theorem lhs1_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs1_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs1_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl

/-- The mark rows times the graph-feature table, at row `r`, feature `c`: the sum over the 64 graphs. -/
theorem matmul1_apply (A : FVec Ideal S4096x64 .bf16) (B : FVec Ideal S64x128 .bf16) (r : Fin 4096) (c : Fin 128) :
    matmul dot_S4096x64_S64x128_S4096x128_1_0_0_1_n_n none A B (constant (F := Ideal) S4096x128 .f32 0x00000000#32) (ix2 r c)
      = ∑ b : Fin 64, A (ix2 r b) * B (ix2 b c) := by
  simp only [matmul]
  rw [Ideal.matmul_constant_zero_apply,
    ← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx (ix2 r c)
      ((contrEquiv1 dot_S4096x64_S64x128_S4096x128_1_0_0_1_n_n 64 rfl rfl).symm k) = ix2 r k := funext fun a => Fin.ext (by
    match a with
    | ⟨0, _⟩ => exact lhs1_0 _ _
    | ⟨1, _⟩ => exact (lhs1_1 _ _).trans hk)
  have er : dot_S4096x64_S64x128_S4096x128_1_0_0_1_n_n.rhsIdx (ix2 r c)
      ((contrEquiv1 dot_S4096x64_S64x128_S4096x128_1_0_0_1_n_n 64 rfl rfl).symm k) = ix2 k c := funext fun a => Fin.ext (by
    match a with
    | ⟨0, _⟩ => exact (rhs1_0 _ _).trans hk
    | ⟨1, _⟩ => exact rhs1_1 _ _)
  rw [el, er]

theorem lhs2_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
theorem lhs2_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs2_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs2_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The joined feature rows times the first layer's weights, at row `r`, hidden unit `j`: the sum over the 256 features. -/
theorem matmul2_apply (A : FVec Ideal S4096x256 .bf16) (B : FVec Ideal S256x128 .bf16) (r : Fin 4096) (j : Fin 128) :
    matmul dot_S4096x256_S256x128_S4096x128_1_0_0_1_n_n none A B (constant (F := Ideal) S4096x128 .f32 0x00000000#32) (ix2 r j)
      = ∑ k : Fin 256, A (ix2 r k) * B (ix2 k j) := by
  simp only [matmul]
  rw [Ideal.matmul_constant_zero_apply,
    ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r j)
      ((contrEquiv1 dot_S4096x256_S256x128_S4096x128_1_0_0_1_n_n 256 rfl rfl).symm k) = ix2 r k := funext fun a => Fin.ext (by
    match a with
    | ⟨0, _⟩ => exact lhs2_0 _ _
    | ⟨1, _⟩ => exact (lhs2_1 _ _).trans hk)
  have er : dot_S4096x256_S256x128_S4096x128_1_0_0_1_n_n.rhsIdx (ix2 r j)
      ((contrEquiv1 dot_S4096x256_S256x128_S4096x128_1_0_0_1_n_n 256 rfl rfl).symm k) = ix2 k j := funext fun a => Fin.ext (by
    match a with
    | ⟨0, _⟩ => exact (rhs2_0 _ _).trans hk
    | ⟨1, _⟩ => exact rhs2_1 _ _)
  rw [el, er]

theorem lhs3_0 (i : S4096x24.Idx) (q : dot_S4096x128_S128x24_S4096x24_1_0_0_1_n_n.contr.Idx) :
    (dot_S4096x128_S128x24_S4096x24_1_0_0_1_n_n.lhsIdx i q 0).val = (i 0).val := by
  unfold DotDims.lhsIdx
  rw [dif_neg (show ¬(0 : Fin S4096x128.rank) ∈ dot_S4096x128_S128x24_S4096x24_1_0_0_1_n_n.lhsBatch by decide),
    dif_pos (show (0 : Fin S4096x128.rank) ∈ dot_S4096x128_S128x24_S4096x24_1_0_0_1_n_n.lhsNonContracting by decide)]
  rfl
theorem lhs3_1 (i : S4096x24.Idx) (q : dot_S4096x128_S128x24_S4096x24_1_0_0_1_n_n.contr.Idx) :
    (dot_S4096x128_S128x24_S4096x24_1_0_0_1_n_n.lhsIdx i q 1).val = (q ⟨0, by decide⟩).val :=
  dot_S4096x128_S128x24_S4096x24_1_0_0_1_n_n.lhsIdx_val_of_single rfl i q
theorem rhs3_0 (i : S4096x24.Idx) (q : dot_S4096x128_S128x24_S4096x24_1_0_0_1_n_n.contr.Idx) :
    (dot_S4096x128_S128x24_S4096x24_1_0_0_1_n_n.rhsIdx i q 0).val = (q ⟨0, by decide⟩).val :=
  dot_S4096x128_S128x24_S4096x24_1_0_0_1_n_n.rhsIdx_val_of_single rfl i q
theorem rhs3_1 (i : S4096x24.Idx) (q : dot_S4096x128_S128x24_S4096x24_1_0_0_1_n_n.contr.Idx) :
    (dot_S4096x128_S128x24_S4096x24_1_0_0_1_n_n.rhsIdx i q 1).val = (i 1).val := by
  unfold DotDims.rhsIdx
  rw [dif_neg (show ¬(1 : Fin S128x24.rank) ∈ dot_S4096x128_S128x24_S4096x24_1_0_0_1_n_n.rhsBatch by decide),
    dif_pos (show (1 : Fin S128x24.rank) ∈ dot_S4096x128_S128x24_S4096x24_1_0_0_1_n_n.rhsNonContracting by decide)]
  rfl

/-- The hidden rows times the second layer's weights, at row `r`, move `q`: the sum over the 128 hidden units. -/
theorem matmul3_apply (A : FVec Ideal S4096x128 .bf16) (B : FVec Ideal S128x24 .bf16) (r : Fin 4096) (q : Fin 24) :
    matmul dot_S4096x128_S128x24_S4096x24_1_0_0_1_n_n none A B (constant (F := Ideal) S4096x24 .f32 0x00000000#32) (ix2 r q)
      = ∑ j : Fin 128, A (ix2 r j) * B (ix2 j q) := by
  simp only [matmul]
  rw [Ideal.matmul_constant_zero_apply,
    ← Equiv.sum_comp (contrEquiv1 dot_S4096x128_S128x24_S4096x24_1_0_0_1_n_n 128 rfl rfl).symm]
  refine Finset.sum_congr rfl fun k _ => ?_
  have hk := contrEquiv1_symm_val dot_S4096x128_S128x24_S4096x24_1_0_0_1_n_n 128 rfl rfl k
  have el : dot_S4096x128_S128x24_S4096x24_1_0_0_1_n_n.lhsIdx (ix2 r q)
      ((contrEquiv1 dot_S4096x128_S128x24_S4096x24_1_0_0_1_n_n 128 rfl rfl).symm k) = ix2 r k := funext fun a => Fin.ext (by
    match a with
    | ⟨0, _⟩ => exact lhs3_0 _ _
    | ⟨1, _⟩ => exact (lhs3_1 _ _).trans hk)
  have er : dot_S4096x128_S128x24_S4096x24_1_0_0_1_n_n.rhsIdx (ix2 r q)
      ((contrEquiv1 dot_S4096x128_S128x24_S4096x24_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-! ## The position column and the mark -/

/-- On the one-axis grid of 64 points the coordinate of point `t` is `t`. -/
theorem coords0_val (t : Fin grid0.N) : (grid0.coords t 0).val = t.val := by
  have hN : grid0.N = 64 := by decide
  have hs : grid0.stride 0 = 1 := by decide
  have ht : t.val < 64 := hN ▸ t.isLt
  show t.val / grid0.stride 0 % 64 = t.val
  rw [hs, Nat.div_one, Nat.mod_eq_of_lt ht]

/-- The position column at row `r` of point `t`: `t·4096 + r` as a 32-bit word. -/
theorem pos_apply (t : Fin grid0.N) (r : Fin 4096) (z : Fin 1) :
    addi (broadcast S4096x1 (Scalar.muli (BitVec.ofNat 32 (grid0.coords t 0).val) 4096#32))
        (iota .tc S4096x1 32 [0] iota_S4096x1_d0_w32) (ix2 r z)
      = BitVec.ofNat 32 (t.val * 4096 + r.val) := by
  show IntOp.addi (Scalar.muli (BitVec.ofNat 32 (grid0.coords t 0).val) 4096#32)
      (iota .tc S4096x1 32 [0] iota_S4096x1_d0_w32 (ix2 r z)) = _
  rw [iota_single_apply, coords0_val]
  show BitVec.ofNat 32 t.val * 4096#32 + BitVec.ofNat 32 r.val = _
  rw [BitVec.ofNat_add, BitVec.ofNat_mul]

/-- A `[4096, 1]` column broadcast to `[4096, 64]` reads, at `(r, b)`, the column at `r`. -/
theorem bcol_apply {α : Type} (x : S4096x1.Idx → α) (r : Fin 4096) (b : Fin 64) :
    broadcastTo S4096x64 x broadcasts_S4096x1_S4096x64 (ix2 r b) = x (ix2 r (0 : Fin 1)) := by
  refine broadcastTo_apply x broadcasts_S4096x1_S4096x64 (ix2 r b) (ix2 r (0 : Fin 1)) fun ax => ?_
  match ax with
  | ⟨0, _⟩ => rfl
  | ⟨1, _⟩ => rfl

/-- A `[1, 64]` row broadcast to `[4096, 64]` reads, at `(r, b)`, the row at `b`. -/
theorem brow_apply {α : Type} (x : S1x64.Idx → α) (r : Fin 4096) (b : Fin 64) :
    broadcastTo S4096x64 x broadcasts_S1x64_S4096x64 (ix2 r b) = x (ix2 (0 : Fin 1) b) :=
  broadcastTo_1b_ab_apply x broadcasts_S1x64_S4096x64 r b

/-- A one-bit word widened to 32 bits and converted is the extended real 1 when the bit is set, 0 when it is not. -/
theorem bit_to_real (c : BitVec 1) :
    (FloatOps.sitofp (F := Ideal) .f32 (c.setWidth 32) : EReal) = if c = 1#1 then 1 else 0 := by
  rcases BitVec.eq_zero_or_eq_one c with h | h <;> subst h
  · show (((BitVec.toInt (BitVec.setWidth 32 0#1) : ℤ) : ℝ) : EReal) = _
    simp
  · show (((BitVec.toInt (BitVec.setWidth 32 1#1) : ℤ) : ℝ) : EReal) = _
    simp

/-- The conjunction of two one-bit words is set exactly when both are. -/
theorem andi_eq_one (a b : BitVec 1) : IntOp.andi a b = 1#1 ↔ (a = 1#1 ∧ b = 1#1) := by
  rcases BitVec.eq_zero_or_eq_one a with h | h <;> rcases BitVec.eq_zero_or_eq_one b with h' | h' <;>
    subst h <;> subst h' <;> decide

/-- The mark at row `r`, graph `b`: 1 when the position is at or past the lower boundary and before the upper one,
    0 otherwise. -/
theorem mark_apply (P : IVec S4096x1 32) (lo hi : IVec S1x64 32) (r : Fin 4096) (b : Fin 64) :
    (truncf .bf16 (sitofp (F := Ideal) .f32 (extui 32 (andi
        (cmpi .sge (broadcastTo S4096x64 P broadcasts_S4096x1_S4096x64) (broadcastTo S4096x64 lo broadcasts_S1x64_S4096x64))
        (cmpi .slt (broadcastTo S4096x64 P broadcasts_S4096x1_S4096x64) (broadcastTo S4096x64 hi broadcasts_S1x64_S4096x64)))
        natLt_1_32)) bitsLt_bf16_f32 : FVec Ideal S4096x64 .bf16) (ix2 r b)
      = if (IntOp.cmpi .sge (P (ix2 r (0 : Fin 1))) (lo (ix2 (0 : Fin 1) b)) = 1#1
          ∧ IntOp.cmpi .slt (P (ix2 r (0 : Fin 1))) (hi (ix2 (0 : Fin 1) b)) = 1#1) then 1 else 0 := by
  rw [truncf_apply, sitofp_apply, extui_apply]
  show FloatOps.sitofp (F := Ideal) .f32 ((IntOp.andi
      (IntOp.cmpi .sge (broadcastTo S4096x64 P broadcasts_S4096x1_S4096x64 (ix2 r b))
        (broadcastTo S4096x64 lo broadcasts_S1x64_S4096x64 (ix2 r b)))
      (IntOp.cmpi .slt (broadcastTo S4096x64 P broadcasts_S4096x1_S4096x64 (ix2 r b))
        (broadcastTo S4096x64 hi broadcasts_S1x64_S4096x64 (ix2 r b)))).setWidth 32) = _
  rw [bcol_apply, brow_apply, brow_apply, bit_to_real]
  simp only [andi_eq_one]

/-- A 0/1 row that is 1 at exactly one place picks that place's term out of a sum. -/
theorem sum_pick (p : Fin 64 → Prop) [DecidablePred p] (g : Fin 64) (hp : ∀ b, p b ↔ b = g) (f : Fin 64 → EReal) :
    ∑ b : Fin 64, (if p b then (1 : EReal) else 0) * f b = f g := by
  rw [Finset.sum_eq_single g]
  · rw [if_pos ((hp g).2 rfl), one_mul]
  · intro b _ hb
    rw [if_neg (fun h => hb ((hp b).1 h)), zero_mul]
  · intro h
    exact absurd (Finset.mem_univ g) h

/-! ## The joined feature row, and the two bias rows -/

/-- Two `[4096, 128]` blocks joined along the columns read, at `(r, k)`, the first block at column `k` below 128 and the
    second at column `k − 128` from there on. -/
theorem concat_apply (X Y : FVec Ideal S4096x128 .bf16) (r : Fin 4096) (k : Fin 256) :
    concatenate S4096x256 1 [⟨S4096x128, X⟩, ⟨S4096x128, Y⟩] concatenates_S4096x128_S4096x128_S4096x256_d1 (ix2 r k)
      = if h : k.val < 128 then X (ix2 r ⟨k.val, h⟩) else Y (ix2 r ⟨k.val - 128, by omega⟩) := by
  split
  · next h =>
    refine concatenate_pair_apply_left (1 : Fin S4096x256.rank) X Y concatenates_S4096x128_S4096x128_S4096x256_d1
      (ix2 r k) rfl (ix2 r ⟨k.val, h⟩) fun b => ?_
    match b with
    | ⟨0, _⟩ => rfl
    | ⟨1, _⟩ => rfl
  · next h =>
    refine concatenate_pair_apply_right (1 : Fin S4096x256.rank) X Y concatenates_S4096x128_S4096x128_S4096x256_d1
      (ix2 r k) rfl rfl (ix2 r ⟨k.val - 128, by omega⟩) (fun b => ?_) ?_
    · match b with
      | ⟨0, _⟩ => exact fun _ => rfl
      | ⟨1, _⟩ => exact fun hb => absurd rfl hb
    · show k.val - 128 + 128 = k.val
      omega

/-- The first layer's bias, cast to one row and broadcast over the rows, reads at `(r, j)` the bias of unit `j`. -/
theorem bias1_apply (v : FVec Ideal S128 .f32) (r : Fin 4096) (j : Fin 128) :
    broadcastTo S4096x128 (shapeCast S1x128 v shapeCasts_S128_S1x128) broadcasts_S1x128_S4096x128 (ix2 r j) = v (ix1 j) := by
  rw [broadcastTo_1b_ab_apply, shapeCast_a_1a_apply]

/-- The second layer's bias likewise reads at `(r, q)` the bias of move `q`. -/
theorem bias2_apply (v : FVec Ideal S24 .f32) (r : Fin 4096) (q : Fin 24) :
    broadcastTo S4096x24 (shapeCast S1x24 v shapeCasts_S24_S1x24) broadcasts_S1x24_S4096x24 (ix2 r q) = v (ix1 q) := by
  rw [broadcastTo_1b_ab_apply, shapeCast_a_1a_apply]

/-- The mark rows of point `t` times the graph-feature table, at row `r`, feature `c`: the table's row of the one
    graph `g` whose boundaries enclose position `t·4096 + r`. -/
theorem graph_row_apply (t : Fin grid0.N) (lo hi : IVec S1x64 32) (G : FVec Ideal S64x128 .bf16)
    (r : Fin 4096) (c : Fin 128) (g : Fin 64)
    (hg : ∀ b : Fin 64, (IntOp.cmpi .sge (BitVec.ofNat 32 (t.val * 4096 + r.val)) (lo (ix2 (0 : Fin 1) b)) = 1#1
        ∧ IntOp.cmpi .slt (BitVec.ofNat 32 (t.val * 4096 + r.val)) (hi (ix2 (0 : Fin 1) b)) = 1#1) ↔ b = g) :
    matmul dot_S4096x64_S64x128_S4096x128_1_0_0_1_n_n none
        (truncf .bf16 (sitofp (F := Ideal) .f32 (extui 32 (andi
          (cmpi .sge
            (broadcastTo S4096x64
              (addi (broadcast S4096x1 (Scalar.muli (BitVec.ofNat 32 (grid0.coords t 0).val) 4096#32))
                (iota .tc S4096x1 32 [0] iota_S4096x1_d0_w32))
              broadcasts_S4096x1_S4096x64)
            (broadcastTo S4096x64 lo broadcasts_S1x64_S4096x64))
          (cmpi .slt
            (broadcastTo S4096x64
              (addi (broadcast S4096x1 (Scalar.muli (BitVec.ofNat 32 (grid0.coords t 0).val) 4096#32))
                (iota .tc S4096x1 32 [0] iota_S4096x1_d0_w32))
              broadcasts_S4096x1_S4096x64)
            (broadcastTo S4096x64 hi broadcasts_S1x64_S4096x64)))
          natLt_1_32)) bitsLt_bf16_f32)
        G (constant (F := Ideal) S4096x128 .f32 0x00000000#32) (ix2 r c)
      = G (ix2 g c) := by
  rw [matmul1_apply]
  refine (Finset.sum_congr rfl fun b _ => ?_).trans (sum_pick _ g hg fun b => G (ix2 b c))
  rw [mark_apply, pos_apply]

/-! ## The stored value -/

/-- The stored value at row `r`, move `q` of the block of grid point `t`, when `g` is the one graph whose boundaries
    enclose position `t·4096 + r`. -/
theorem pay_apply (t : Fin grid0.N) (x0 : Vec Ideal S4096x128 .f32) (x1 x2 : Vec Ideal S1x64 .i32) (x3 : Vec Ideal S64x128 .bf16)
    (x4 : Vec Ideal S256x128 .bf16) (x5 : Vec Ideal S128 .f32) (x6 : Vec Ideal S128x24 .bf16) (x7 : Vec Ideal S24 .f32)
    (r : Fin 4096) (q : Fin 24) (g : Fin 64)
    (hg : ∀ b : Fin 64, (IntOp.cmpi .sge (BitVec.ofNat 32 (t.val * 4096 + r.val)) (x1 (ix2 (0 : Fin 1) b)) = 1#1
        ∧ IntOp.cmpi .slt (BitVec.ofNat 32 (t.val * 4096 + r.val)) (x2 (ix2 (0 : Fin 1) b)) = 1#1) ↔ b = g) :
    k0_pay1 (F := Ideal) (k0_pay2 (grid0.coords t) x1 x2 x3 x0 x4 x5 x6) (k0_pay3 x7) (ix2 r q)
      = (∑ j : Fin 128, max ((∑ k : Fin 256,
            (if h : k.val < 128 then x0 (ix2 r ⟨k.val, h⟩) else x3 (ix2 g ⟨k.val - 128, by omega⟩)) * x4 (ix2 k j)) + x5 (ix1 j)) 0
          * x6 (ix2 j q)) + x7 (ix1 q) := by
  unfold k0_pay1 k0_pay2 k0_pay3
  dsimp only
  rw [addf_apply, matmul3_apply, bias2_apply, shapeCast_self x6]
  refine congrArg (· + x7 (ix1 q)) (Finset.sum_congr rfl fun j _ => ?_)
  rw [truncf_apply, maximumf_apply, addf_apply, broadcast_apply, matmul2_apply, bias1_apply, shapeCast_self x4]
  refine congrArg (· * x6 (ix2 j q)) ?_
  refine congrArg₂ max (congrArg (· + x5 (ix1 j)) (Finset.sum_congr rfl fun k _ => ?_)) Ideal.ofBits_zero_f32
  refine congrArg (· * x4 (ix2 k j)) ?_
  rw [concat_apply]
  split
  · rw [truncf_apply]
  · rw [truncf_apply, shapeCast_self x1, shapeCast_self x2, shapeCast_self x3]
    exact graph_row_apply t x1 x2 x3 r _ g hg

end Cert.KernelIdeal.Hand

end
-- ==== Proof.KFinal.lean ====
/-
  The score array the kernel leaves. Grid point `t` writes rows `4096·t … 4096·t + 4095`; row `r` of its block is node
  `4096·t + r`, whose position the two boundary rows locate in exactly one graph (the stated domain: ids in range and
  non-decreasing), so the block is the network's score of those nodes; the 64 blocks tile the array.
-/
import proofs.«411711_j670014898681_2_alg».proof.Proof.KHost
import proofs.«411711_j670014898681_2_alg».proof.Proof.KCount
import proofs.«411711_j670014898681_2_alg».proof.Proof.KBlock
import proofs.«411711_j670014898681_2_alg».proof.Proof.Spec
import Idealize.ShloMosaic.Lib.Pipeline.Value
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The argument arrays and the blocks, at their literal types -/

abbrev aNF (c : Dev nD) : FVec Ideal S262144x128 .f32 := m ((c : Thread nD τ).loc main_arg0)
abbrev aGF (c : Dev nD) : FVec Ideal S64x128 .f32 := m ((c : Thread nD τ).loc main_arg1)
abbrev aW1 (c : Dev nD) : FVec Ideal S128x256 .f32 := m ((c : Thread nD τ).loc main_arg2)
abbrev aB1 (c : Dev nD) : FVec Ideal S128 .f32 := m ((c : Thread nD τ).loc main_arg3)
abbrev aW2 (c : Dev nD) : FVec Ideal S24x128 .f32 := m ((c : Thread nD τ).loc main_arg4)
abbrev aB2 (c : Dev nD) : FVec Ideal S24 .f32 := m ((c : Thread nD τ).loc main_arg5)
abbrev aBatch (c : Dev nD) : IVec S262144 32 := m ((c : Thread nD τ).loc main_arg7)

abbrev blk0 (c : Dev nD) (t : Fin cfg0.N) : Vec Ideal S4096x128 .f32 := iblk m c 0 t
abbrev blk1 (c : Dev nD) (t : Fin cfg0.N) : Vec Ideal S1x64 .i32 := iblk m c 1 t
abbrev blk2 (c : Dev nD) (t : Fin cfg0.N) : Vec Ideal S1x64 .i32 := iblk m c 2 t
abbrev blk3 (c : Dev nD) (t : Fin cfg0.N) : Vec Ideal S64x128 .bf16 := iblk m c 3 t
abbrev blk4 (c : Dev nD) (t : Fin cfg0.N) : Vec Ideal S256x128 .bf16 := iblk m c 4 t
abbrev blk5 (c : Dev nD) (t : Fin cfg0.N) : Vec Ideal S128 .f32 := iblk m c 5 t
abbrev blk6 (c : Dev nD) (t : Fin cfg0.N) : Vec Ideal S128x24 .bf16 := iblk m c 6 t
abbrev blk7 (c : Dev nD) (t : Fin cfg0.N) : Vec Ideal S24 .f32 := iblk m c 7 t

/-- The network's scores of all nodes, from the argument arrays. -/
def scoresK (c : Dev nD) : FVec Ideal S262144x24 .f32 :=
  Cert.Spec.scores (aNF m c) (aGF m c) (aW1 m c) (aB1 m c) (aW2 m c) (aB2 m c) (Cert.Spec.graphOf (aBatch m c))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the node-feature and score windows move with the point along the rows, every
    other window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 64 := lt_of_lt_of_eq t.isLt N_0

/-! ## Each window's block at a point, read off the arguments -/

/-- Row `r` of the node-feature block of point `t` is node `4096·t + r`. -/
theorem blk0_apply (c : Dev nD) (t : Fin cfg0.N) (r : Fin 4096) (k : Fin 128) (n : Fin 262144) (hn : n.val = t.val * 4096 + r.val) :
    blk0 m c t (ix2 r k) = aNF m c (ix2 n k) := by
  obtain ⟨e0, e1, -⟩ := idx_facts t
  unfold blk0 iblk
  rw [View.read_apply]
  show V m c main_arg0 _ = _
  rw [V_main_arg0]
  congr 1
  funext a
  apply Fin.ext
  match a with
  | ⟨0, _⟩ => show win0_0.index t (0 : Fin 2) * 4096 + 1 * r.val = n.val; rw [e0, hn]; omega
  | ⟨1, _⟩ => show win0_0.index t (1 : Fin 2) * 128 + 1 * k.val = k.val; rw [e1]; omega

/-- The boundary rows are whole blocks. -/
theorem blk1_apply (c : Dev nD) (t : Fin cfg0.N) (b : Fin 64) :
    blk1 m c t (ix2 (0 : Fin 1) b) = cumLo (aBatch m c) (ix2 (0 : Fin 1) b) := by
  obtain ⟨-, -, e0, e1, -⟩ := idx_facts t
  unfold blk1 iblk
  rw [View.read_apply]
  show (V m c main_v19 : IVec S1x64 32) _ = _
  rw [V_main_v19]
  congr 1
  funext a
  apply Fin.ext
  match a with
  | ⟨0, _⟩ => show win0_1.index t (0 : Fin 2) * 1 + 1 * 0 = 0; rw [e0]
  | ⟨1, _⟩ => show win0_1.index t (1 : Fin 2) * 64 + 1 * b.val = b.val; rw [e1]; omega

theorem blk2_apply (c : Dev nD) (t : Fin cfg0.N) (b : Fin 64) :
    blk2 m c t (ix2 (0 : Fin 1) b) = cumHi (aBatch m c) (ix2 (0 : Fin 1) b) := by
  obtain ⟨-, -, -, -, e0, e1, -⟩ := idx_facts t
  unfold blk2 iblk
  rw [View.read_apply]
  show (V m c main_v21 : IVec S1x64 32) _ = _
  rw [V_main_v21]
  congr 1
  funext a
  apply Fin.ext
  match a with
  | ⟨0, _⟩ => show win0_2.index t (0 : Fin 2) * 1 + 1 * 0 = 0; rw [e0]
  | ⟨1, _⟩ => show win0_2.index t (1 : Fin 2) * 64 + 1 * b.val = b.val; rw [e1]; omega

/-- The graph-feature table (its change of format is the identity on the extended reals). -/
theorem blk3_apply (c : Dev nD) (t : Fin cfg0.N) (g : Fin 64) (k : Fin 128) :
    blk3 m c t (ix2 g k) = aGF m c (ix2 g k) := by
  obtain ⟨-, -, -, -, -, -, e0, e1, -⟩ := idx_facts t
  unfold blk3 iblk
  rw [View.read_apply]
  show (V m c main_v4 : FVec Ideal S64x128 .bf16) _ = _
  rw [V_main_v4, truncf_apply]
  congr 1
  funext a
  apply Fin.ext
  match a with
  | ⟨0, _⟩ => show win0_3.index t (0 : Fin 2) * 64 + 1 * g.val = g.val; rw [e0]; omega
  | ⟨1, _⟩ => show win0_3.index t (1 : Fin 2) * 128 + 1 * k.val = k.val; rw [e1]; omega

/-- The first layer's weights, transposed by the host. -/
theorem blk4_apply (c : Dev nD) (t : Fin cfg0.N) (k : Fin 256) (j : Fin 128) :
    blk4 m c t (ix2 k j) = aW1 m c (ix2 j k) := by
  obtain ⟨-, -, -, -, -, -, -, -, e0, e1, -⟩ := idx_facts t
  unfold blk4 iblk
  rw [View.read_apply]
  show (V m c main_v1 : FVec Ideal S256x128 .bf16) _ = _
  rw [V_main_v1, truncf_apply]
  refine transpose_apply _ _ _ _ (ix2 j k) (fun b => ?_)
  match b with
  | ⟨0, _⟩ => show k.val = win0_4.index t (0 : Fin 2) * 256 + 1 * k.val; rw [e0]; omega
  | ⟨1, _⟩ => show j.val = win0_4.index t (1 : Fin 2) * 128 + 1 * j.val; rw [e1]; omega

theorem blk5_apply (c : Dev nD) (t : Fin cfg0.N) (j : Fin 128) :
    blk5 m c t (ix1 j) = aB1 m c (ix1 j) := by
  obtain ⟨-, -, -, -, -, -, -, -, -, -, e0, -⟩ := idx_facts t
  unfold blk5 iblk
  rw [View.read_apply]
  show V m c main_arg3 _ = _
  rw [V_main_arg3]
  congr 1
  funext a
  apply Fin.ext
  match a with
  | ⟨0, _⟩ => show win0_5.index t (0 : Fin 1) * 128 + 1 * j.val = j.val; rw [e0]; omega

/-- The second layer's weights, transposed by the host. -/
theorem blk6_apply (c : Dev nD) (t : Fin cfg0.N) (j : Fin 128) (q : Fin 24) :
    blk6 m c t (ix2 j q) = aW2 m c (ix2 q j) := by
  obtain ⟨-, -, -, -, -, -, -, -, -, -, -, e0, e1, -⟩ := idx_facts t
  unfold blk6 iblk
  rw [View.read_apply]
  show (V m c main_v3 : FVec Ideal S128x24 .bf16) _ = _
  rw [V_main_v3, truncf_apply]
  refine transpose_apply _ _ _ _ (ix2 q j) (fun b => ?_)
  match b with
  | ⟨0, _⟩ => show j.val = win0_6.index t (0 : Fin 2) * 128 + 1 * j.val; rw [e0]; omega
  | ⟨1, _⟩ => show q.val = win0_6.index t (1 : Fin 2) * 24 + 1 * q.val; rw [e1]; omega

theorem blk7_apply (c : Dev nD) (t : Fin cfg0.N) (q : Fin 24) :
    blk7 m c t (ix1 q) = aB2 m c (ix1 q) := by
  obtain ⟨-, -, -, -, -, -, -, -, -, -, -, -, -, e0, -⟩ := idx_facts t
  unfold blk7 iblk
  rw [View.read_apply]
  show V m c main_arg5 _ = _
  rw [V_main_arg5]
  congr 1
  funext a
  apply Fin.ext
  match a with
  | ⟨0, _⟩ => show win0_7.index t (0 : Fin 1) * 24 + 1 * q.val = q.val; rw [e0]; omega

/-! ## What a point writes back -/

/-- The stored block at row `r`, move `q` is the score of node `4096·t + r`. -/
theorem stored_apply (c : Dev nD) (hb : Cert.Spec.BatchOk (aBatch m c)) (t : Fin cfg0.N) (r : Fin 4096) (q : Fin 24)
    (n : Fin 262144) (hn : n.val = t.val * 4096 + r.val) :
    k0_pay1 (F := Ideal) (k0_pay2 (grid0.coords t) (blk1 m c t) (blk2 m c t) (blk3 m c t) (blk0 m c t) (blk4 m c t) (blk5 m c t) (blk6 m c t))
        (k0_pay3 (blk7 m c t)) (ix2 r q)
      = scoresK m c (ix2 n q) := by
  have hg : ∀ b : Fin 64, (IntOp.cmpi .sge (BitVec.ofNat 32 (t.val * 4096 + r.val)) (blk1 m c t (ix2 (0 : Fin 1) b)) = 1#1
        ∧ IntOp.cmpi .slt (BitVec.ofNat 32 (t.val * 4096 + r.val)) (blk2 m c t (ix2 (0 : Fin 1) b)) = 1#1)
        ↔ b = Cert.Spec.graphOf (aBatch m c) n := by
    intro b
    rw [blk1_apply, blk2_apply, ← hn]
    exact onehot_iff (aBatch m c) hb n b
  refine (pay_apply t (blk0 m c t) (blk1 m c t) (blk2 m c t) (blk3 m c t) (blk4 m c t) (blk5 m c t) (blk6 m c t) (blk7 m c t) r q
    (Cert.Spec.graphOf (aBatch m c) n) hg).trans ?_
  unfold scoresK Cert.Spec.scores Cert.Spec.score Cert.Spec.hidden Cert.Spec.feat
  rw [blk7_apply]
  refine congrArg₂ (· + ·) (Finset.sum_congr rfl fun j _ => ?_) rfl
  rw [blk5_apply, blk6_apply]
  refine congrArg₂ (· * ·) (congrArg₂ max (congrArg₂ (· + ·) (Finset.sum_congr rfl fun k _ => ?_) rfl) rfl) rfl
  rw [blk4_apply]
  refine congrArg₂ (· * ·) ?_ rfl
  by_cases hk : k.val < 128
  · rw [dif_pos hk, dif_pos hk, blk0_apply m c t r ⟨k.val, hk⟩ n hn]
  · rw [dif_neg hk, dif_neg hk, blk3_apply]

/-- WHAT POINT `t` WRITES BACK is block `t` of the score array. -/
theorem flushed_eq (c : Dev nD) (hb : Cert.Spec.BatchOk (aBatch m c)) (t : Fin cfg0.N) :
    (dats m 0 c).flushed 8 t = ((cfg0.win 8).blk t).view.read (Elt Ideal) (scoresK m c) := by
  show (cfg0.win 8).cut (grid0.coords t) ((dats m 0 c).after 8 t) = _
  rw [after0_8]
  unfold out0_8
  rw [View.canon_unit_zero hz2]
  simp only [View.ld_unit_zero (S := S1x64) hz2, View.ld_unit_zero (S := S64x128) hz2, View.ld_unit_zero (S := S4096x128) hz2,
    View.ld_unit_zero (S := S256x128) hz2, View.ld_unit_zero (S := S128) hz1, View.ld_unit_zero (S := S128x24) hz2,
    View.ld_unit_zero (S := S24) hz1]
  funext j
  obtain ⟨r, q, rfl⟩ : ∃ (r : Fin 4096) (q : Fin 24), j = ix2 r q := ⟨j 0, j 1, eq_ix2 j⟩
  have ht := t_lt t
  obtain ⟨-, -, -, -, -, -, -, -, -, -, -, -, -, -, e0, e1⟩ := idx_facts t
  rw [View.read_apply]
  show k0_pay1 (F := Ideal) (k0_pay2 (grid0.coords t) (blk1 m c t) (blk2 m c t) (blk3 m c t) (blk0 m c t) (blk4 m c t) (blk5 m c t) (blk6 m c t))
        (k0_pay3 (blk7 m c t)) (ix2 r q) = scoresK m c (((cfg0.win 8).blk t).view.emb (ix2 r q))
  refine (stored_apply m c hb t r q ⟨t.val * 4096 + r.val, by omega⟩ rfl).trans ?_
  congr 1
  funext a
  apply Fin.ext
  match a with
  | ⟨0, _⟩ => show t.val * 4096 + r.val = win0_8.index t (0 : Fin 2) * 4096 + 1 * r.val; rw [e0]; omega
  | ⟨1, _⟩ => show q.val = win0_8.index t (1 : Fin 2) * 24 + 1 * q.val; rw [e1]; omega

/-- An index of the score array is in point `t`'s block iff each coordinate is in the block's range on its axis. -/
theorem mem_blk8 (t : Fin cfg0.N) (i : S262144x24.Idx) :
    i ∈ ((cfg0.win 8).blk t).view.set ↔ ∀ a : Fin 2, win0_8.index t a * S4096x24.size a ≤ (i a).val ∧ (i a).val < win0_8.index t a * S4096x24.size a + S4096x24.size a := by
  show i ∈ ((View.whole main_v22).slice (win0_8.rect t)).set ↔ _
  rw [View.set_slice_whole, Rect.mem_set_unit]
  exact Iff.rfl

/-- The 64 blocks tile the score array: node `n` is in the block of point `n / 4096`. -/
theorem cover (i : S262144x24.Idx) : ∃ t : Fin cfg0.N, (cfg0.win 8).flush t = true ∧ i ∈ ((cfg0.win 8).blk t).view.set := by
  have hi0 : (i 0).val < 262144 := (i 0).isLt
  have hi1 : (i 1).val < 24 := (i 1).isLt
  have hN : cfg0.N = 64 := N_0
  refine ⟨⟨(i 0).val / 4096, by rw [hN]; omega⟩, flush0_8 _, ?_⟩
  rw [mem_blk8]
  obtain ⟨-, -, -, -, -, -, -, -, -, -, -, -, -, -, e0, e1⟩ := idx_facts ⟨(i 0).val / 4096, by rw [hN]; omega⟩
  intro a
  match a with
  | ⟨0, _⟩ =>
    show win0_8.index _ (0 : Fin 2) * 4096 ≤ (i 0).val ∧ (i 0).val < win0_8.index _ (0 : Fin 2) * 4096 + 4096
    rw [e0]; show (i 0).val / 4096 * 4096 ≤ (i 0).val ∧ (i 0).val < (i 0).val / 4096 * 4096 + 4096; omega
  | ⟨1, _⟩ =>
    show win0_8.index _ (1 : Fin 2) * 24 ≤ (i 1).val ∧ (i 1).val < win0_8.index _ (1 : Fin 2) * 24 + 24
    rw [e1]; omega

/-- THE SCORE ARRAY after the region: the network's scores of all nodes. -/
theorem final (c : Dev nD) (hb : Cert.Spec.BatchOk (aBatch m c)) : (dats m 0 c).arrAt 8 cfg0.N = scoresK m c :=
  (dats m 0 c).arrAt_eq_of_cover 8 (scoresK m c) (fun t _ => flushed_eq m c hb t) (cover)

end Cert.KernelIdeal.Hand

end
-- ==== Proof.KTail.lean ====
/-
  The host operations after the score array, as one function of it, the cube mask, the batch ids and the move mask:
  the cube nodes' exclusive running count, less its minimum over the node's graph (the rank of the node among its
  graph's cube nodes); nodes that are cubes with rank below 4096 keep their graph and rank as a scatter index, the
  others get the out-of-range pair (64, 4096); the score rows are scattered at those indices into a table filled with
  -1e9, the move mask selects between the table and -1e9, and the table is reshaped.
-/
import proofs.«411711_j670014898681_2_alg».proof.Proof.KernelIdealFrame
import Idealize.ShloMosaic.Lib.StableHlo.Run

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- For each node, how many cube nodes come before it (the cube mask's running sum less the node's own bit). -/
def exclCount (cube : IVec S262144 1) : IVec S262144 32 :=
  let v23 : IVec S262144 32 := extui 32 cube natLt_1_32
  subi (Host.reduceWindow IntOp.addi ![262144] ![1] ![262143] ![0] v23
    (broadcastInDim S_ ![] bcast_S_S_ (constantI S_ 32 0#32) : IVec S_ 32) reduceWindows_S262144_S262144_w262144s1p262143_0 h_S_ : IVec S262144 32) v23

/-- Per graph, the least of those counts over the graph's nodes (the largest word where a graph has no node). -/
def segBase (excl batch : IVec S262144 32) : IVec S64 32 :=
  Host.scatter scatter_S64_S262144x1_S262144_n_0_0_1 IntOp.minsi
    (broadcastInDim S64 ![] bcast_S_S64 (constantI S_ 32 2147483647#32) : IVec S64 32)
    (broadcastInDim S262144x1 ![0] bcast_S262144_S262144x1_0 batch : IVec S262144x1 32) excl

/-- An index below zero is taken from the end of an axis of extent `n`. -/
def wrapIdx (n : BitVec 32) (x : IVec S262144 32) : IVec S262144 32 :=
  select (cmpi .slt x (broadcastInDim S262144 ![] bcast_S_S262144 (constantI S_ 32 0#32) : IVec S262144 32) : IVec S262144 1)
    (addi x (broadcastInDim S262144 ![] bcast_S_S262144 (constantI S_ 32 n) : IVec S262144 32) : IVec S262144 32) x

/-- The rank of a node among its graph's cube nodes. -/
def rankOf (cube : IVec S262144 1) (batch : IVec S262144 32) : IVec S262144 32 :=
  subi (exclCount cube)
    (Host.gather gather_S64_S262144x1_S262144_n_0_n_n_0_1_1 (segBase (exclCount cube) batch)
      (broadcastInDim S262144x1 ![0] bcast_S262144_S262144x1_0 (wrapIdx 64#32 batch) : IVec S262144x1 32) : IVec S262144 32)

/-- A node's score row is kept when it is a cube and its rank is below 4096. -/
def validOf (cube : IVec S262144 1) (rank : IVec S262144 32) : IVec S262144 1 :=
  andi cube (cmpi .slt rank (broadcastInDim S262144 ![] bcast_S_S262144 (constantI S_ 32 4096#32) : IVec S262144 32) : IVec S262144 1)

/-- The scatter index of every node: (graph, rank) where kept, the out-of-range pair (64, 4096) elsewhere. -/
def scatterIdx (valid : IVec S262144 1) (batch rank : IVec S262144 32) : IVec S262144x2 32 :=
  concatenate S262144x2 1
    [⟨S262144x1, (broadcastInDim S262144x1 ![0] bcast_S262144_S262144x1_0
        (wrapIdx 64#32 (select valid batch (broadcastInDim S262144 ![] bcast_S_S262144 (constantI S_ 32 64#32) : IVec S262144 32))) : IVec S262144x1 32)⟩,
     ⟨S262144x1, (broadcastInDim S262144x1 ![0] bcast_S262144_S262144x1_0
        (wrapIdx 4096#32 (select valid rank (broadcastInDim S262144 ![] bcast_S_S262144 (constantI S_ 32 4096#32) : IVec S262144 32))) : IVec S262144x1 32)⟩]
    concatenates_S262144x1_S262144x1_S262144x2_d1

/-- The host operations after the score array, as one function of it, the cube mask, the batch ids and the move mask. -/
def tailK (scores : FVec F S262144x24 .f32) (cube : IVec S262144 1) (batch : IVec S262144 32) (move : IVec S64x4096x24 1) :
    FVec F S64x98304 .f32 :=
  shapeCast S64x98304
    (select move
      (Host.scatter scatter_S64x4096x24_S262144x2_S262144x24_1_01_01_1 (fun _ b => b)
        (broadcastInDim S64x4096x24 ![] bcast_S_S64x4096x24 (constant S_ .f32 0xCE6E6B28#32) : FVec F S64x4096x24 .f32)
        (scatterIdx (validOf cube (rankOf cube batch)) batch (rankOf cube batch)) scores : FVec F S64x4096x24 .f32)
      (broadcastInDim S64x4096x24 ![] bcast_S_S64x4096x24 (constant S_ .f32 0xCE6E6B28#32) : FVec F S64x4096x24 .f32) : FVec F S64x4096x24 .f32)
    shapeCasts_S64x4096x24_S64x98304

/-! The operations after the region, stretch by stretch, each from ANY contents `W` of the buffers: the values a stretch
    leaves for the later ones, and the buffers it does not write. -/

section Stretches

attribute [local irreducible] Host.scatter Host.gather Host.reduceWindow concatenate

variable (W : Valuation τ sig (Elt F))

/-- The stretch of the padded table, cut before its concatenate. -/
abbrev ops6a : List (HloOp τ sig (Elt F)) := (hostOps1_6 (F := F)).take 18
@[inherit_doc ops6a]
abbrev ops6b : List (HloOp τ sig (Elt F)) := (hostOps1_6 (F := F)).drop 18
theorem after6 : after hostOps1_6 W = after ops6b (after ops6a W) := by
  rw [← StableHlo.after_append]
  exact congrArg (fun l => after l W) (List.take_append_drop 18 _).symm

/-- First stretch: the cube mask as 0/1 words. -/
theorem a0_v23 : (after hostOps1 W (Proc.devRef .tc main_v23) : IVec S262144 32)
    = extui 32 (W (Proc.devRef .tc main_arg6) : IVec S262144 1) natLt_1_32 := by
  simp only [hostOps1]
  after_results
  all_goals rfl
theorem k0_arg6 : after hostOps1 W (Proc.devRef .tc main_arg6) = W (Proc.devRef .tc main_arg6) := by
  simp only [hostOps1]
  after_results_simp
theorem k0_arg7 : after hostOps1 W (Proc.devRef .tc main_arg7) = W (Proc.devRef .tc main_arg7) := by
  simp only [hostOps1]
  after_results_simp
theorem k0_arg8 : after hostOps1 W (Proc.devRef .tc main_arg8) = W (Proc.devRef .tc main_arg8) := by
  simp only [hostOps1]
  after_results_simp
theorem k0_v22 : after hostOps1 W (Proc.devRef .tc main_v22) = W (Proc.devRef .tc main_v22) := by
  simp only [hostOps1]
  after_results_simp

/-- Second stretch: the running sums of those words. -/
theorem a1_v24 : (after hostOps1_1 W (Proc.devRef .tc main_v24) : IVec S262144 32)
    = Host.reduceWindow IntOp.addi ![262144] ![1] ![262143] ![0] (W (Proc.devRef .tc main_v23) : IVec S262144 32)
        (broadcastInDim S_ ![] bcast_S_S_ (constantI S_ 32 0#32) : IVec S_ 32) reduceWindows_S262144_S262144_w262144s1p262143_0 h_S_ := by
  simp only [hostOps1_1]
  after_results
  all_goals rfl
theorem k1_v23 : after hostOps1_1 W (Proc.devRef .tc main_v23) = W (Proc.devRef .tc main_v23) := by
  simp only [hostOps1_1]
  after_results_simp
theorem k1_arg6 : after hostOps1_1 W (Proc.devRef .tc main_arg6) = W (Proc.devRef .tc main_arg6) := by
  simp only [hostOps1_1]
  after_results_simp
theorem k1_arg7 : after hostOps1_1 W (Proc.devRef .tc main_arg7) = W (Proc.devRef .tc main_arg7) := by
  simp only [hostOps1_1]
  after_results_simp
theorem k1_arg8 : after hostOps1_1 W (Proc.devRef .tc main_arg8) = W (Proc.devRef .tc main_arg8) := by
  simp only [hostOps1_1]
  after_results_simp
theorem k1_v22 : after hostOps1_1 W (Proc.devRef .tc main_v22) = W (Proc.devRef .tc main_v22) := by
  simp only [hostOps1_1]
  after_results_simp

/-- Third stretch: the count of cube nodes before a node, less its least value over the node's graph. -/
theorem a2_v36 : (after hostOps1_2 W (Proc.devRef .tc main_v36) : IVec S262144 32)
    = (subi (subi (W (Proc.devRef .tc main_v24) : IVec S262144 32) (W (Proc.devRef .tc main_v23) : IVec S262144 32) : IVec S262144 32)
        (Host.gather gather_S64_S262144x1_S262144_n_0_n_n_0_1_1 (segBase (subi (W (Proc.devRef .tc main_v24) : IVec S262144 32) (W (Proc.devRef .tc main_v23) : IVec S262144 32) : IVec S262144 32) (W (Proc.devRef .tc main_arg7) : IVec S262144 32))
          (broadcastInDim S262144x1 ![0] bcast_S262144_S262144x1_0 (wrapIdx 64#32 (W (Proc.devRef .tc main_arg7) : IVec S262144 32)) : IVec S262144x1 32) : IVec S262144 32) : IVec S262144 32) := by
  simp only [hostOps1_2]
  after_results_simp
  all_goals rfl
/-- Third stretch: the cube nodes whose rank is below 4096. -/
theorem a2_v39 : (after hostOps1_2 W (Proc.devRef .tc main_v39) : IVec S262144 1)
    = validOf (W (Proc.devRef .tc main_arg6) : IVec S262144 1) (subi (subi (W (Proc.devRef .tc main_v24) : IVec S262144 32) (W (Proc.devRef .tc main_v23) : IVec S262144 32) : IVec S262144 32)
        (Host.gather gather_S64_S262144x1_S262144_n_0_n_n_0_1_1 (segBase (subi (W (Proc.devRef .tc main_v24) : IVec S262144 32) (W (Proc.devRef .tc main_v23) : IVec S262144 32) : IVec S262144 32) (W (Proc.devRef .tc main_arg7) : IVec S262144 32))
          (broadcastInDim S262144x1 ![0] bcast_S262144_S262144x1_0 (wrapIdx 64#32 (W (Proc.devRef .tc main_arg7) : IVec S262144 32)) : IVec S262144x1 32) : IVec S262144 32) : IVec S262144 32) := by
  simp only [hostOps1_2]
  after_results_simp
  all_goals rfl
/-- Third stretch: the scalar 64. -/
theorem a2_c9 : (after hostOps1_2 W (Proc.devRef .tc main_c_9) : IVec S_ 32)
    = constantI S_ 32 64#32 := by
  simp only [hostOps1_2]
  after_results_simp
  all_goals rfl
theorem k2_arg7 : after hostOps1_2 W (Proc.devRef .tc main_arg7) = W (Proc.devRef .tc main_arg7) := by
  simp only [hostOps1_2]
  after_results_simp
theorem k2_arg8 : after hostOps1_2 W (Proc.devRef .tc main_arg8) = W (Proc.devRef .tc main_arg8) := by
  simp only [hostOps1_2]
  after_results_simp
theorem k2_v22 : after hostOps1_2 W (Proc.devRef .tc main_v22) = W (Proc.devRef .tc main_v22) := by
  simp only [hostOps1_2]
  after_results_simp

/-- Fourth stretch: the graph of a kept node, the scalar in `main_c_9` elsewhere. -/
theorem a3_v40 : (after hostOps1_3 W (Proc.devRef .tc main_v40) : IVec S262144 32)
    = select (W (Proc.devRef .tc main_v39) : IVec S262144 1) (W (Proc.devRef .tc main_arg7) : IVec S262144 32) (broadcastInDim S262144 ![] bcast_S_S262144 (W (Proc.devRef .tc main_c_9) : IVec S_ 32) : IVec S262144 32) := by
  simp only [hostOps1_3]
  after_results
  all_goals rfl
theorem k3_v36 : after hostOps1_3 W (Proc.devRef .tc main_v36) = W (Proc.devRef .tc main_v36) := by
  simp only [hostOps1_3]
  after_results_simp
theorem k3_v39 : after hostOps1_3 W (Proc.devRef .tc main_v39) = W (Proc.devRef .tc main_v39) := by
  simp only [hostOps1_3]
  after_results_simp
theorem k3_arg8 : after hostOps1_3 W (Proc.devRef .tc main_arg8) = W (Proc.devRef .tc main_arg8) := by
  simp only [hostOps1_3]
  after_results_simp
theorem k3_v22 : after hostOps1_3 W (Proc.devRef .tc main_v22) = W (Proc.devRef .tc main_v22) := by
  simp only [hostOps1_3]
  after_results_simp

/-- Fifth stretch: the scalar 4096. -/
theorem a4_c10 : (after hostOps1_4 W (Proc.devRef .tc main_c_10) : IVec S_ 32)
    = constantI S_ 32 4096#32 := by
  simp only [hostOps1_4]
  after_results
  all_goals rfl
theorem k4_v36 : after hostOps1_4 W (Proc.devRef .tc main_v36) = W (Proc.devRef .tc main_v36) := by
  simp only [hostOps1_4]
  after_results_simp
theorem k4_v39 : after hostOps1_4 W (Proc.devRef .tc main_v39) = W (Proc.devRef .tc main_v39) := by
  simp only [hostOps1_4]
  after_results_simp
theorem k4_v40 : after hostOps1_4 W (Proc.devRef .tc main_v40) = W (Proc.devRef .tc main_v40) := by
  simp only [hostOps1_4]
  after_results_simp
theorem k4_arg8 : after hostOps1_4 W (Proc.devRef .tc main_arg8) = W (Proc.devRef .tc main_arg8) := by
  simp only [hostOps1_4]
  after_results_simp
theorem k4_v22 : after hostOps1_4 W (Proc.devRef .tc main_v22) = W (Proc.devRef .tc main_v22) := by
  simp only [hostOps1_4]
  after_results_simp

/-- Sixth stretch: the rank of a kept node, the scalar in `main_c_10` elsewhere. -/
theorem a5_v41 : (after hostOps1_5 W (Proc.devRef .tc main_v41) : IVec S262144 32)
    = select (W (Proc.devRef .tc main_v39) : IVec S262144 1) (W (Proc.devRef .tc main_v36) : IVec S262144 32) (broadcastInDim S262144 ![] bcast_S_S262144 (W (Proc.devRef .tc main_c_10) : IVec S_ 32) : IVec S262144 32) := by
  simp only [hostOps1_5]
  after_results
  all_goals rfl
theorem k5_v40 : after hostOps1_5 W (Proc.devRef .tc main_v40) = W (Proc.devRef .tc main_v40) := by
  simp only [hostOps1_5]
  after_results_simp
theorem k5_arg8 : after hostOps1_5 W (Proc.devRef .tc main_arg8) = W (Proc.devRef .tc main_arg8) := by
  simp only [hostOps1_5]
  after_results_simp
theorem k5_v22 : after hostOps1_5 W (Proc.devRef .tc main_v22) = W (Proc.devRef .tc main_v22) := by
  simp only [hostOps1_5]
  after_results_simp

/-- Seventh stretch, first part: the table at its fill value. -/
theorem a6_v42 : (after ops6a W (Proc.devRef .tc main_v42) : FVec F S64x4096x24 .f32)
    = broadcastInDim S64x4096x24 ![] bcast_S_S64x4096x24 (constant (F := F) S_ .f32 0xCE6E6B28#32) := by
  simp only [ops6a, hostOps1_6, List.take_succ_cons, List.take_zero]
  after_results_simp
  all_goals rfl
/-- Seventh stretch, first part: the row coordinate, wrapped, as a column. -/
theorem a6_v53 : (after ops6a W (Proc.devRef .tc main_v53) : IVec S262144x1 32)
    = broadcastInDim S262144x1 ![0] bcast_S262144_S262144x1_0 (wrapIdx 64#32 (W (Proc.devRef .tc main_v40) : IVec S262144 32)) := by
  simp only [ops6a, hostOps1_6, List.take_succ_cons, List.take_zero]
  after_results_simp
  all_goals rfl
/-- Seventh stretch, first part: the column coordinate, wrapped, as a column. -/
theorem a6_v54 : (after ops6a W (Proc.devRef .tc main_v54) : IVec S262144x1 32)
    = broadcastInDim S262144x1 ![0] bcast_S262144_S262144x1_0 (wrapIdx 4096#32 (W (Proc.devRef .tc main_v41) : IVec S262144 32)) := by
  simp only [ops6a, hostOps1_6, List.take_succ_cons, List.take_zero]
  after_results_simp
  all_goals rfl
theorem k6a_v22 : after ops6a W (Proc.devRef .tc main_v22) = W (Proc.devRef .tc main_v22) := by
  simp only [ops6a, hostOps1_6, List.take_succ_cons, List.take_zero]
  after_results_simp
theorem k6a_arg8 : after ops6a W (Proc.devRef .tc main_arg8) = W (Proc.devRef .tc main_arg8) := by
  simp only [ops6a, hostOps1_6, List.take_succ_cons, List.take_zero]
  after_results_simp

/-- Seventh stretch, second part: the score rows written at the joined coordinates. -/
theorem b6_v56 : (after ops6b W (Proc.devRef .tc main_v56) : FVec F S64x4096x24 .f32)
    = Host.scatter scatter_S64x4096x24_S262144x2_S262144x24_1_01_01_1 (fun _ b => b) (W (Proc.devRef .tc main_v42) : FVec F S64x4096x24 .f32)
        (concatenate S262144x2 1 [⟨S262144x1, (W (Proc.devRef .tc main_v53) : IVec S262144x1 32)⟩, ⟨S262144x1, (W (Proc.devRef .tc main_v54) : IVec S262144x1 32)⟩]
          concatenates_S262144x1_S262144x1_S262144x2_d1 : IVec S262144x2 32) (W (Proc.devRef .tc main_v22) : FVec F S262144x24 .f32) := by
  simp only [ops6b, hostOps1_6, List.drop_succ_cons, List.drop_zero]
  after_results
  all_goals rfl
/-- Seventh stretch, second part: the fill value. -/
theorem b6_cst15 : (after ops6b W (Proc.devRef .tc main_cst_15) : FVec F S_ .f32)
    = constant (F := F) S_ .f32 0xCE6E6B28#32 := by
  simp only [ops6b, hostOps1_6, List.drop_succ_cons, List.drop_zero]
  after_results
  all_goals rfl
theorem k6b_arg8 : after ops6b W (Proc.devRef .tc main_arg8) = W (Proc.devRef .tc main_arg8) := by
  simp only [ops6b, hostOps1_6, List.drop_succ_cons, List.drop_zero]
  after_results_simp

/-- Eighth stretch: the move mask applied. -/
theorem a7_v57 : (after hostOps1_7 W (Proc.devRef .tc main_v57) : FVec F S64x4096x24 .f32)
    = select (W (Proc.devRef .tc main_arg8) : IVec S64x4096x24 1) (W (Proc.devRef .tc main_v56) : FVec F S64x4096x24 .f32) (broadcastInDim S64x4096x24 ![] bcast_S_S64x4096x24 (W (Proc.devRef .tc main_cst_15) : FVec F S_ .f32) : FVec F S64x4096x24 .f32) := by
  simp only [hostOps1_7]
  after_results
  all_goals rfl

/-- Last stretch: the table with its two inner axes joined. -/
theorem a8_v58 : (after hostOps1_8 W (Proc.devRef .tc main_v58) : FVec F S64x98304 .f32)
    = shapeCast S64x98304 (W (Proc.devRef .tc main_v57) : FVec F S64x4096x24 .f32) shapeCasts_S64x4096x24_S64x98304 := by
  simp only [hostOps1_8]
  after_results
  all_goals rfl

end Stretches

attribute [local irreducible] Host.scatter Host.gather Host.reduceWindow concatenate in
/-- Whatever the buffers hold when the region is left, the result buffer ends at `tailK` of the score array and the
    three integer arguments. -/
theorem after_tail (W : Valuation τ sig (Elt F)) :
    (after (List.flatten [hostOps1, hostOps1_1, hostOps1_2, hostOps1_3, hostOps1_4, hostOps1_5, hostOps1_6, hostOps1_7, hostOps1_8]) W (Proc.devRef .tc main_v58) : FVec F S64x98304 .f32)
      = tailK (W (Proc.devRef .tc main_v22)) (W (Proc.devRef .tc main_arg6)) (W (Proc.devRef .tc main_arg7)) (W (Proc.devRef .tc main_arg8)) := by
  simp only [List.flatten_cons, List.flatten_nil, List.append_nil, StableHlo.after_append]
  rw [a8_v58, a7_v57, after6]
  rw [b6_v56, b6_cst15, k6b_arg8, a6_v42, a6_v53, a6_v54, k6a_v22, k6a_arg8]
  rw [a5_v41, k5_v40, k5_v22, k5_arg8]
  rw [a4_c10, k4_v39, k4_v36, k4_v40, k4_v22, k4_arg8]
  rw [a3_v40, k3_v39, k3_v36, k3_v22, k3_arg8]
  rw [a2_v39, a2_v36, a2_c9, k2_arg7, k2_v22, k2_arg8]
  rw [a1_v24, k1_v23, k1_arg6, k1_arg7, k1_v22, k1_arg8]
  rw [a0_v23, k0_arg6, k0_arg7, k0_v22, k0_arg8]
  unfold tailK scatterIdx rankOf exclCount
  rfl

end Cert.KernelIdeal.Hand

end
-- ==== Proof.KRun.lean ====
/-
  The kernel program's run, read: every weakly fair execution ends with the result buffer at the host tail applied
  to the network's score array (what the 64 grid points wrote back), the cube mask, the batch ids and the move mask;
  the arguments end unchanged.
-/
import proofs.«411711_j670014898681_2_alg».proof.Proof.KFinal
import proofs.«411711_j670014898681_2_alg».proof.Proof.KTail

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The arrays the host tail reads when the region is left: the score array is what the points wrote back, the three
    integer arguments are as launched. -/
theorem tail_value (c : Dev nD) (hb : Cert.Spec.BatchOk (aBatch m c)) :
    (Pipeline.afterTail₀ cfgs (dats m) 0 (V0 m) [hostOps1, hostOps1_1, hostOps1_2, hostOps1_3, hostOps1_4, hostOps1_5, hostOps1_6, hostOps1_7, hostOps1_8] c main_v58 : FVec Ideal S64x98304 .f32)
      = tailK (scoresK m c) (m ((c : Thread nD τ).loc main_arg6)) (aBatch m c) (m ((c : Thread nD τ).loc main_arg8)) := by
  unfold Pipeline.afterTail₀
  refine (after_tail _).trans ?_
  have e22 : Pipeline.withArrays (cfgs 0).spec c (V0 m c) (fun w => (dats m 0 c).arrAt w (cfgs 0).N) (Proc.devRef .tc main_v22) = scoresK m c :=
    (Pipeline.withArrays_arr spec0 launch0.win.arr_inj c (V0 m c) (fun w => (dats m 0 c).arrAt w cfg0.N) 8).trans (final m c hb)
  have e6 : Pipeline.withArrays (cfgs 0).spec c (V0 m c) (fun w => (dats m 0 c).arrAt w (cfgs 0).N) (Proc.devRef .tc main_arg6) = m ((c : Thread nD τ).loc main_arg6) :=
    (Pipeline.withArrays_of_ne _ c (V0 m c) _ main_arg6 (by exact (by decide : ∀ w, Pipeline.arrRef spec0 w ≠ main_arg6))).trans (V_main_arg6 m c)
  have e7 : Pipeline.withArrays (cfgs 0).spec c (V0 m c) (fun w => (dats m 0 c).arrAt w (cfgs 0).N) (Proc.devRef .tc main_arg7) = aBatch m c :=
    (Pipeline.withArrays_of_ne _ c (V0 m c) _ main_arg7 (by exact (by decide : ∀ w, Pipeline.arrRef spec0 w ≠ main_arg7))).trans (V_main_arg7 m c)
  have e8 : Pipeline.withArrays (cfgs 0).spec c (V0 m c) (fun w => (dats m 0 c).arrAt w (cfgs 0).N) (Proc.devRef .tc main_arg8) = m ((c : Thread nD τ).loc main_arg8) :=
    (Pipeline.withArrays_of_ne _ c (V0 m c) _ main_arg8 (by exact (by decide : ∀ w, Pipeline.arrRef spec0 w ≠ main_arg8))).trans (V_main_arg8 m c)
  rw [e22, e6, e7, e8]

/-- The run: the result at the tail of the score array, the arguments unchanged. -/
theorem run (hb : ∀ c : Dev nD, Cert.Spec.BatchOk (aBatch m c)) :
    θ_run defs (onTc (τ := τ) (main (F := Ideal))) ⟨m, fun _ => 0, ρ⟩ (fun r => ∀ c : Dev nD,
      (r.2.mem ((c.tc : Thread nD τ).loc main_v58) : FVec Ideal S64x98304 .f32)
          = tailK (scoresK m c) (m ((c.tc : Thread nD τ).loc main_arg6)) (aBatch m c) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v58 (Pipeline.mem_restRefs_of main_v58 (by decide) (by decide))).trans (tail_value m c (hb c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Hand

end
-- ==== Proof.RTail.lean ====
/-
  The host operations after the score array, as one function of it, the cube mask, the batch ids and the move mask:
  the cube nodes' exclusive running count, less its minimum over the node's graph (the rank of the node among its
  graph's cube nodes); nodes that are cubes with rank below 4096 keep their graph and rank as a scatter index, the
  others get the out-of-range pair (64, 4096); the score rows are scattered at those indices into a table filled with
  -1e9, the move mask selects between the table and -1e9, and the table is reshaped.
-/
import proofs.«411711_j670014898681_2_alg».proof.Proof.Gen.ReferenceIdeal
import Idealize.ShloMosaic.PureOps

noncomputable section

namespace Cert.ReferenceIdeal.Hand

open Cert.ReferenceIdeal Cert.ReferenceIdeal.Gen
open Idealize.ShloMosaic

variable {F : FTy → Type} [FloatOps F]

/-- For each node, how many cube nodes come before it (the cube mask's running sum less the node's own bit). -/
def exclCount (cube : IVec S262144 1) : IVec S262144 32 :=
  let v23 : IVec S262144 32 := extui 32 cube natLt_1_32
  subi (Host.reduceWindow IntOp.addi ![262144] ![1] ![262143] ![0] v23
    (broadcastInDim S_ ![] bcast_S_S_ (constantI S_ 32 0#32) : IVec S_ 32) reduceWindows_S262144_S262144_w262144s1p262143_0 h_S_ : IVec S262144 32) v23

/-- Per graph, the least of those counts over the graph's nodes (the largest word where a graph has no node). -/
def segBase (excl batch : IVec S262144 32) : IVec S64 32 :=
  Host.scatter scatter_S64_S262144x1_S262144_n_0_0_1 IntOp.minsi
    (broadcastInDim S64 ![] bcast_S_S64 (constantI S_ 32 2147483647#32) : IVec S64 32)
    (broadcastInDim S262144x1 ![0] bcast_S262144_S262144x1_0 batch : IVec S262144x1 32) excl

/-- An index below zero is taken from the end of an axis of extent `n`. -/
def wrapIdx (n : BitVec 32) (x : IVec S262144 32) : IVec S262144 32 :=
  select (cmpi .slt x (broadcastInDim S262144 ![] bcast_S_S262144 (constantI S_ 32 0#32) : IVec S262144 32) : IVec S262144 1)
    (addi x (broadcastInDim S262144 ![] bcast_S_S262144 (constantI S_ 32 n) : IVec S262144 32) : IVec S262144 32) x

/-- The rank of a node among its graph's cube nodes. -/
def rankOf (cube : IVec S262144 1) (batch : IVec S262144 32) : IVec S262144 32 :=
  subi (exclCount cube)
    (Host.gather gather_S64_S262144x1_S262144_n_0_n_n_0_1_1 (segBase (exclCount cube) batch)
      (broadcastInDim S262144x1 ![0] bcast_S262144_S262144x1_0 (wrapIdx 64#32 batch) : IVec S262144x1 32) : IVec S262144 32)

/-- A node's score row is kept when it is a cube and its rank is below 4096. -/
def validOf (cube : IVec S262144 1) (rank : IVec S262144 32) : IVec S262144 1 :=
  andi cube (cmpi .slt rank (broadcastInDim S262144 ![] bcast_S_S262144 (constantI S_ 32 4096#32) : IVec S262144 32) : IVec S262144 1)

/-- The scatter index of every node: (graph, rank) where kept, the out-of-range pair (64, 4096) elsewhere. -/
def scatterIdx (valid : IVec S262144 1) (batch rank : IVec S262144 32) : IVec S262144x2 32 :=
  concatenate S262144x2 1
    [⟨S262144x1, (broadcastInDim S262144x1 ![0] bcast_S262144_S262144x1_0
        (wrapIdx 64#32 (select valid batch (broadcastInDim S262144 ![] bcast_S_S262144 (constantI S_ 32 64#32) : IVec S262144 32))) : IVec S262144x1 32)⟩,
     ⟨S262144x1, (broadcastInDim S262144x1 ![0] bcast_S262144_S262144x1_0
        (wrapIdx 4096#32 (select valid rank (broadcastInDim S262144 ![] bcast_S_S262144 (constantI S_ 32 4096#32) : IVec S262144 32))) : IVec S262144x1 32)⟩]
    concatenates_S262144x1_S262144x1_S262144x2_d1

/-- The host operations after the score array, as one function of it, the cube mask, the batch ids and the move mask. -/
def tailR (scores : FVec F S262144x24 .f32) (cube : IVec S262144 1) (batch : IVec S262144 32) (move : IVec S64x4096x24 1) :
    FVec F S64x98304 .f32 :=
  shapeCast S64x98304
    (select move
      (Host.scatter scatter_S64x4096x24_S262144x2_S262144x24_1_01_01_1 (fun _ b => b)
        (broadcastInDim S64x4096x24 ![] bcast_S_S64x4096x24 (constant S_ .f32 0xCE6E6B28#32) : FVec F S64x4096x24 .f32)
        (scatterIdx (validOf cube (rankOf cube batch)) batch (rankOf cube batch)) scores : FVec F S64x4096x24 .f32)
      (broadcastInDim S64x4096x24 ![] bcast_S_S64x4096x24 (constant S_ .f32 0xCE6E6B28#32) : FVec F S64x4096x24 .f32) : FVec F S64x4096x24 .f32)
    shapeCasts_S64x4096x24_S64x98304

end Cert.ReferenceIdeal.Hand

end
-- ==== Proof.RRun.lean ====
/-
  The reference program's run: @main as the list of its host operations (the outlined functions written out at
  their calls), every weakly fair execution ending with the result buffer at the operations' composed value of the
  arguments — the score array of the two-layer network, then the rank / scatter / mask tail — and the arguments
  unchanged.
-/
import proofs.«411711_j670014898681_2_alg».proof.Proof.Gen.ReferenceIdeal
import proofs.«411711_j670014898681_2_alg».proof.Proof.RTail
import Idealize.ShloMosaic.Lib.Pipeline.Frame
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The reference's score array: gather each node's graph features (ids below zero wrapped by 64), join them to the
    node's own, two dense layers with a rectifier between. -/
def refScores (nf : FVec F S262144x128 .f32) (gf : FVec F S64x128 .f32) (W1 : FVec F S128x256 .f32) (b1 : FVec F S128 .f32)
    (W2 : FVec F S24x128 .f32) (b2 : FVec F S24 .f32) (batch : IVec S262144 32) : FVec F S262144x24 .f32 :=
  let v1 : IVec S262144 1 := cmpi .slt batch (broadcastInDim S262144 ![] bcast_S_S262144 (constantI S_ 32 0#32))
  let v3 : IVec S262144 32 := addi batch (broadcastInDim S262144 ![] bcast_S_S262144 (constantI S_ 32 64#32))
  let v4 : IVec S262144 32 := select v1 v3 batch
  let v5 : IVec S262144x1 32 := broadcastInDim S262144x1 ![0] bcast_S262144_S262144x1_0 v4
  let v6 : FVec F S262144x128 .f32 := Host.gather gather_S64x128_S262144x1_S262144x128_1_0_n_n_0_1_1128 gf v5
  let v7 : FVec F S262144x256 .f32 := concatenate S262144x256 1 [⟨S262144x128, nf⟩, ⟨S262144x128, v6⟩] concatenates_S262144x128_S262144x128_S262144x256_d1
  let v8 : FVec F S256x128 .f32 := transpose S256x128 [1, 0] W1 transposes_S128x256_S256x128_1_0
  let v9 : FVec F S262144x128 .f32 := Host.dotGeneral dot_S262144x256_S256x128_S262144x128_1_0_0_1_n_n none v7 v8
  let v11 : FVec F S262144x128 .f32 := broadcastInDim S262144x128 ![0, 1] bcast_S1x128_S262144x128_0_1 (broadcastInDim S1x128 ![1] bcast_S128_S1x128_1 b1 : FVec F S1x128 .f32)
  let v12 : FVec F S262144x128 .f32 := addf v9 v11
  let v13 : FVec F S262144x128 .f32 := maximumf v12 (broadcastInDim S262144x128 ![] bcast_S_S262144x128 (constant S_ .f32 0x00000000#32) : FVec F S262144x128 .f32)
  let v14 : FVec F S128x24 .f32 := transpose S128x24 [1, 0] W2 transposes_S24x128_S128x24_1_0
  let v15 : FVec F S262144x24 .f32 := Host.dotGeneral dot_S262144x128_S128x24_S262144x24_1_0_0_1_n_n none v13 v14
  let v17 : FVec F S262144x24 .f32 := broadcastInDim S262144x24 ![0, 1] bcast_S1x24_S262144x24_0_1 (broadcastInDim S1x24 ![1] bcast_S24_S1x24_1 b2 : FVec F S1x24 .f32)
  addf v15 v17

/-! ## @main as a list of operations -/

/-- @main's operations up to the score array, in order: the wrapped batch ids, the gather of the graph features, the
    join, the first layer with its bias, the rectifier's three operations written out at the call (the zero, its
    broadcast, the maximum), the second layer with its bias. -/
abbrev opsA : List (HloOp τ sig (Elt F)) :=
  [ nullary main_c (constantI S_ 32 0#32),
    unary main_c main_v0 (broadcastInDim S262144 ![] bcast_S_S262144 : (⟨S_, .i32⟩ : BufTy).Contents (Elt F) → (⟨S262144, .i32⟩ : BufTy).Contents (Elt F)),
    binary main_arg7 main_v0 main_v1 (cmpi .slt : (⟨S262144, .i32⟩ : BufTy).Contents (Elt F) → (⟨S262144, .i32⟩ : BufTy).Contents (Elt F) → (⟨S262144, .i1⟩ : BufTy).Contents (Elt F)),
    nullary main_c_0 (constantI S_ 32 64#32),
    unary main_c_0 main_v2 (broadcastInDim S262144 ![] bcast_S_S262144 : (⟨S_, .i32⟩ : BufTy).Contents (Elt F) → (⟨S262144, .i32⟩ : BufTy).Contents (Elt F)),
    binary main_arg7 main_v2 main_v3 (addi : (⟨S262144, .i32⟩ : BufTy).Contents (Elt F) → (⟨S262144, .i32⟩ : BufTy).Contents (Elt F) → (⟨S262144, .i32⟩ : BufTy).Contents (Elt F)),
    ternary main_v1 main_v3 main_arg7 main_v4 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v4 main_v5 (broadcastInDim S262144x1 ![0] bcast_S262144_S262144x1_0 : (⟨S262144, .i32⟩ : BufTy).Contents (Elt F) → (⟨S262144x1, .i32⟩ : BufTy).Contents (Elt F)),
    binary main_arg1 main_v5 main_v6 ((fun x i => Host.gather gather_S64x128_S262144x1_S262144x128_1_0_n_n_0_1_1128 x i) : (⟨S64x128, .f32⟩ : BufTy).Contents (Elt F) → (⟨S262144x1, .i32⟩ : BufTy).Contents (Elt F) → (⟨S262144x128, .f32⟩ : BufTy).Contents (Elt F)),
    binary main_arg0 main_v6 main_v7 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    unary main_arg2 main_v8 ((transpose S256x128 [1, 0] · transposes_S128x256_S256x128_1_0) : (⟨S128x256, .f32⟩ : BufTy).Contents (Elt F) → (⟨S256x128, .f32⟩ : BufTy).Contents (Elt F)),
    binary main_v7 main_v8 main_v9 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg3 main_v10 (broadcastInDim S1x128 ![1] bcast_S128_S1x128_1 : (⟨S128, .f32⟩ : BufTy).Contents (Elt F) → (⟨S1x128, .f32⟩ : BufTy).Contents (Elt F)),
    unary main_v10 main_v11 (broadcastInDim S262144x128 ![0, 1] bcast_S1x128_S262144x128_0_1 : (⟨S1x128, .f32⟩ : BufTy).Contents (Elt F) → (⟨S262144x128, .f32⟩ : BufTy).Contents (Elt F)),
    binary main_v9 main_v11 main_v12 (addf : (⟨S262144x128, .f32⟩ : BufTy).Contents (Elt F) → (⟨S262144x128, .f32⟩ : BufTy).Contents (Elt F) → (⟨S262144x128, .f32⟩ : BufTy).Contents (Elt F)),
    TRef.nullary main_call0.cst (constant S_ .f32 0x00000000#32),
    TRef.unary main_call0.cst main_call0.v0 (broadcastInDim S262144x128 ![] bcast_S_S262144x128),
    TRef.binary (.of main_v12 : TRef sig ⟨S262144x128, .f32⟩) main_call0.v0 main_call0.v1 maximumf,
    unary main_arg4 main_v14 ((transpose S128x24 [1, 0] · transposes_S24x128_S128x24_1_0) : (⟨S24x128, .f32⟩ : BufTy).Contents (Elt F) → (⟨S128x24, .f32⟩ : BufTy).Contents (Elt F)),
    binary main_v13 main_v14 main_v15 ((fun l r => Host.dotGeneral dot_S262144x128_S128x24_S262144x24_1_0_0_1_n_n none l r) : (⟨S262144x128, .f32⟩ : BufTy).Contents (Elt F) → (⟨S128x24, .f32⟩ : BufTy).Contents (Elt F) → (⟨S262144x24, .f32⟩ : BufTy).Contents (Elt F)),
    unary main_arg5 main_v16 (broadcastInDim S1x24 ![1] bcast_S24_S1x24_1 : (⟨S24, .f32⟩ : BufTy).Contents (Elt F) → (⟨S1x24, .f32⟩ : BufTy).Contents (Elt F)),
    unary main_v16 main_v17 (broadcastInDim S262144x24 ![0, 1] bcast_S1x24_S262144x24_0_1 : (⟨S1x24, .f32⟩ : BufTy).Contents (Elt F) → (⟨S262144x24, .f32⟩ : BufTy).Contents (Elt F)),
    binary main_v15 main_v17 main_v18 (addf : (⟨S262144x24, .f32⟩ : BufTy).Contents (Elt F) → (⟨S262144x24, .f32⟩ : BufTy).Contents (Elt F) → (⟨S262144x24, .f32⟩ : BufTy).Contents (Elt F)) ]

/-- @main's operations after the score array, in order, the outlined functions' operations written out at their calls:
    the running sum is the constant zero, its rank-0 broadcast and the windowed reduction; each selection against a
    scalar is the scalar converted to its own type, its broadcast and the select. -/
abbrev opsB : List (HloOp τ sig (Elt F)) :=
  [ unary main_arg6 main_v19 ((extui 32 · natLt_1_32) : (⟨S262144, .i1⟩ : BufTy).Contents (Elt F) → (⟨S262144, .i32⟩ : BufTy).Contents (Elt F)),
    TRef.nullary main_call1.call0.c (constantI S_ 32 0#32),
    TRef.unary main_call1.call0.c main_call1.call0.v0 (broadcastInDim S_ ![] bcast_S_S_),
    TRef.binary (.of main_v19 : TRef sig ⟨S262144, .i32⟩) main_call1.call0.v0 main_call1.call0.v1 (fun x v => Host.reduceWindow IntOp.addi ![262144] ![1] ![262143] ![0] x v reduceWindows_S262144_S262144_w262144s1p262143_0 h_S_),
    binary main_v20 main_v19 main_v21 (subi : (⟨S262144, .i32⟩ : BufTy).Contents (Elt F) → (⟨S262144, .i32⟩ : BufTy).Contents (Elt F) → (⟨S262144, .i32⟩ : BufTy).Contents (Elt F)),
    nullary main_c_1 (constantI S_ 32 2147483647#32),
    unary main_c_1 main_v22 (broadcastInDim S64 ![] bcast_S_S64 : (⟨S_, .i32⟩ : BufTy).Contents (Elt F) → (⟨S64, .i32⟩ : BufTy).Contents (Elt F)),
    unary main_arg7 main_v23 (broadcastInDim S262144x1 ![0] bcast_S262144_S262144x1_0 : (⟨S262144, .i32⟩ : BufTy).Contents (Elt F) → (⟨S262144x1, .i32⟩ : BufTy).Contents (Elt F)),
    ternary main_v22 main_v23 main_v21 main_v24 ((fun x i u => Host.scatter scatter_S64_S262144x1_S262144_n_0_0_1 IntOp.minsi x i u) : (⟨S64, .i32⟩ : BufTy).Contents (Elt F) → (⟨S262144x1, .i32⟩ : BufTy).Contents (Elt F) → (⟨S262144, .i32⟩ : BufTy).Contents (Elt F) → (⟨S64, .i32⟩ : BufTy).Contents (Elt F)),
    nullary main_c_2 (constantI S_ 32 0#32),
    unary main_c_2 main_v25 (broadcastInDim S262144 ![] bcast_S_S262144 : (⟨S_, .i32⟩ : BufTy).Contents (Elt F) → (⟨S262144, .i32⟩ : BufTy).Contents (Elt F)),
    binary main_arg7 main_v25 main_v26 (cmpi .slt : (⟨S262144, .i32⟩ : BufTy).Contents (Elt F) → (⟨S262144, .i32⟩ : BufTy).Contents (Elt F) → (⟨S262144, .i1⟩ : BufTy).Contents (Elt F)),
    nullary main_c_3 (constantI S_ 32 64#32),
    unary main_c_3 main_v27 (broadcastInDim S262144 ![] bcast_S_S262144 : (⟨S_, .i32⟩ : BufTy).Contents (Elt F) → (⟨S262144, .i32⟩ : BufTy).Contents (Elt F)),
    binary main_arg7 main_v27 main_v28 (addi : (⟨S262144, .i32⟩ : BufTy).Contents (Elt F) → (⟨S262144, .i32⟩ : BufTy).Contents (Elt F) → (⟨S262144, .i32⟩ : BufTy).Contents (Elt F)),
    ternary main_v26 main_v28 main_arg7 main_v29 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v29 main_v30 (broadcastInDim S262144x1 ![0] bcast_S262144_S262144x1_0 : (⟨S262144, .i32⟩ : BufTy).Contents (Elt F) → (⟨S262144x1, .i32⟩ : BufTy).Contents (Elt F)),
    binary main_v24 main_v30 main_v31 ((fun x i => Host.gather gather_S64_S262144x1_S262144_n_0_n_n_0_1_1 x i) : (⟨S64, .i32⟩ : BufTy).Contents (Elt F) → (⟨S262144x1, .i32⟩ : BufTy).Contents (Elt F) → (⟨S262144, .i32⟩ : BufTy).Contents (Elt F)),
    binary main_v21 main_v31 main_v32 (subi : (⟨S262144, .i32⟩ : BufTy).Contents (Elt F) → (⟨S262144, .i32⟩ : BufTy).Contents (Elt F) → (⟨S262144, .i32⟩ : BufTy).Contents (Elt F)),
    nullary main_c_4 (constantI S_ 32 4096#32),
    unary main_c_4 main_v33 (broadcastInDim S262144 ![] bcast_S_S262144 : (⟨S_, .i32⟩ : BufTy).Contents (Elt F) → (⟨S262144, .i32⟩ : BufTy).Contents (Elt F)),
    binary main_v32 main_v33 main_v34 (cmpi .slt : (⟨S262144, .i32⟩ : BufTy).Contents (Elt F) → (⟨S262144, .i32⟩ : BufTy).Contents (Elt F) → (⟨S262144, .i1⟩ : BufTy).Contents (Elt F)),
    binary main_arg6 main_v34 main_v35 (andi : (⟨S262144, .i1⟩ : BufTy).Contents (Elt F) → (⟨S262144, .i1⟩ : BufTy).Contents (Elt F) → (⟨S262144, .i1⟩ : BufTy).Contents (Elt F)),
    nullary main_c_5 (constantI S_ 32 64#32),
    TRef.unary (.of main_c_5 : TRef sig ⟨S_, .i32⟩) main_call2.v0 id,
    TRef.unary main_call2.v0 main_call2.v1 (broadcastInDim S262144 ![] bcast_S_S262144),
    TRef.ternary (.of main_v35 : TRef sig ⟨S262144, .i1⟩) (.of main_arg7 : TRef sig ⟨S262144, .i32⟩) main_call2.v1 main_call2.v2 select,
    nullary main_c_6 (constantI S_ 32 4096#32),
    TRef.unary (.of main_c_6 : TRef sig ⟨S_, .i32⟩) main_call3.v0 id,
    TRef.unary main_call3.v0 main_call3.v1 (broadcastInDim S262144 ![] bcast_S_S262144),
    TRef.ternary (.of main_v35 : TRef sig ⟨S262144, .i1⟩) (.of main_v32 : TRef sig ⟨S262144, .i32⟩) main_call3.v1 main_call3.v2 select,
    nullary main_cst (constant S_ .f32 0xCE6E6B28#32),
    unary main_cst main_v38 (broadcastInDim S64x4096x24 ![] bcast_S_S64x4096x24 : (⟨S_, .f32⟩ : BufTy).Contents (Elt F) → (⟨S64x4096x24, .f32⟩ : BufTy).Contents (Elt F)),
    nullary main_c_7 (constantI S_ 32 0#32),
    unary main_c_7 main_v39 (broadcastInDim S262144 ![] bcast_S_S262144 : (⟨S_, .i32⟩ : BufTy).Contents (Elt F) → (⟨S262144, .i32⟩ : BufTy).Contents (Elt F)),
    binary main_v36 main_v39 main_v40 (cmpi .slt : (⟨S262144, .i32⟩ : BufTy).Contents (Elt F) → (⟨S262144, .i32⟩ : BufTy).Contents (Elt F) → (⟨S262144, .i1⟩ : BufTy).Contents (Elt F)),
    nullary main_c_8 (constantI S_ 32 64#32),
    unary main_c_8 main_v41 (broadcastInDim S262144 ![] bcast_S_S262144 : (⟨S_, .i32⟩ : BufTy).Contents (Elt F) → (⟨S262144, .i32⟩ : BufTy).Contents (Elt F)),
    binary main_v36 main_v41 main_v42 (addi : (⟨S262144, .i32⟩ : BufTy).Contents (Elt F) → (⟨S262144, .i32⟩ : BufTy).Contents (Elt F) → (⟨S262144, .i32⟩ : BufTy).Contents (Elt F)),
    ternary main_v40 main_v42 main_v36 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_9 (constantI S_ 32 0#32),
    unary main_c_9 main_v44 (broadcastInDim S262144 ![] bcast_S_S262144 : (⟨S_, .i32⟩ : BufTy).Contents (Elt F) → (⟨S262144, .i32⟩ : BufTy).Contents (Elt F)),
    binary main_v37 main_v44 main_v45 (cmpi .slt : (⟨S262144, .i32⟩ : BufTy).Contents (Elt F) → (⟨S262144, .i32⟩ : BufTy).Contents (Elt F) → (⟨S262144, .i1⟩ : BufTy).Contents (Elt F)),
    nullary main_c_10 (constantI S_ 32 4096#32),
    unary main_c_10 main_v46 (broadcastInDim S262144 ![] bcast_S_S262144 : (⟨S_, .i32⟩ : BufTy).Contents (Elt F) → (⟨S262144, .i32⟩ : BufTy).Contents (Elt F)),
    binary main_v37 main_v46 main_v47 (addi : (⟨S262144, .i32⟩ : BufTy).Contents (Elt F) → (⟨S262144, .i32⟩ : BufTy).Contents (Elt F) → (⟨S262144, .i32⟩ : BufTy).Contents (Elt F)),
    ternary main_v45 main_v47 main_v37 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v43 main_v49 (broadcastInDim S262144x1 ![0] bcast_S262144_S262144x1_0 : (⟨S262144, .i32⟩ : BufTy).Contents (Elt F) → (⟨S262144x1, .i32⟩ : BufTy).Contents (Elt F)),
    unary main_v48 main_v50 (broadcastInDim S262144x1 ![0] bcast_S262144_S262144x1_0 : (⟨S262144, .i32⟩ : BufTy).Contents (Elt F) → (⟨S262144x1, .i32⟩ : BufTy).Contents (Elt F)),
    binary main_v49 main_v50 main_v51 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v38 main_v51 main_v18 main_v52 ((fun x i u => Host.scatter scatter_S64x4096x24_S262144x2_S262144x24_1_01_01_1 (fun _ b => b) x i u) : (⟨S64x4096x24, .f32⟩ : BufTy).Contents (Elt F) → (⟨S262144x2, .i32⟩ : BufTy).Contents (Elt F) → (⟨S262144x24, .f32⟩ : BufTy).Contents (Elt F) → (⟨S64x4096x24, .f32⟩ : BufTy).Contents (Elt F)),
    nullary main_cst_11 (constant S_ .f32 0xCE6E6B28#32),
    TRef.unary (.of main_cst_11 : TRef sig ⟨S_, .f32⟩) main_call4.v0 id,
    TRef.unary main_call4.v0 main_call4.v1 (broadcastInDim S64x4096x24 ![] bcast_S_S64x4096x24),
    TRef.ternary (.of main_arg8 : TRef sig ⟨S64x4096x24, .i1⟩) (.of main_v52 : TRef sig ⟨S64x4096x24, .f32⟩) main_call4.v1 main_call4.v2 select,
    reshape main_v53 main_v54 rfl shapeCasts_S64x4096x24_S64x98304 ]

-- seventy-nine statements in sequence, re-associated: one level of recursion per statement
set_option maxRecDepth 8192 in
set_option maxHeartbeats 4000000 in
/-- @main is that straight line: the two windows and the outlined functions unfolded at their calls, both sides are
    one chain of steps once sequencing is reassociated. -/
theorem main_eq (c : Dev nD) : main (F := F) c = seq (opsA ++ opsB) := by
  rw [seq_append]
  simp only [main, main_part0, main_part1, fn_relu.body, fn_cumsum.body, fn_cumsum_0.body, fn_where.body, fn_where_1.body,
    fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub ..⟩

theorem opsB_sub : (opsB : List (HloOp τ sig (Elt F))).Forall fun op => op.bufs ⊆ tcRefs τ sig :=
  ⟨unary_bufs_sub .., nullary_bufs_sub .., unary_bufs_sub .., binary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., binary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., ternary_bufs_sub .., nullary_bufs_sub .., unary_bufs_sub .., unary_bufs_sub ..,
    ternary_bufs_sub .., reshape_bufs_sub ..⟩

/-- Every operation determines its results: none leaves a buffer at contents of the machine's choosing. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_sub : (opsA ++ opsB : List (HloOp τ sig (Elt F))).Forall fun op => op.bufs ⊆ tcRefs τ sig :=
  List.forall_append.mpr ⟨opsA_sub, opsB_sub⟩

theorem ops_fresh : ∀ op ∈ (opsA ++ opsB : List (HloOp τ sig (Elt F))), op.fresh = ∅ :=
  List.forall_iff_forall_mem.mp (List.forall_append.mpr ⟨opsA_fresh, opsB_fresh⟩)

/-! ## Reading the first part -/

attribute [local irreducible] Host.scatter Host.gather Host.reduceWindow concatenate in
set_option maxRecDepth 8192 in
set_option maxHeartbeats 1000000 in
/-- The fold of the first stretch at the score buffer is `refScores` of the arguments, from any contents: each
    operation's result is read at its own buffer and the others keep what they held. -/
theorem readA_v18 (V : Valuation τ sig (Elt F)) :
    after opsA V (main_v18 : DevRef τ sig)
      = refScores (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg7 : DevRef τ sig)) := by
  after_results_simp
  try simp only [TRef.ofBuf, TRef.toBuf, cast_eq]
  rfl

set_option maxRecDepth 8192 in
set_option maxHeartbeats 1000000 in
/-- No operation of the first stretch writes an argument's buffer. -/
theorem argsA (V : Valuation τ sig (Elt F)) :
    after opsA V (main_arg0 : DevRef τ sig) = V (main_arg0 : DevRef τ sig)
      ∧ after opsA V (main_arg1 : DevRef τ sig) = V (main_arg1 : DevRef τ sig)
      ∧ after opsA V (main_arg2 : DevRef τ sig) = V (main_arg2 : DevRef τ sig)
      ∧ after opsA V (main_arg3 : DevRef τ sig) = V (main_arg3 : DevRef τ sig)
      ∧ after opsA V (main_arg4 : DevRef τ sig) = V (main_arg4 : DevRef τ sig)
      ∧ after opsA V (main_arg5 : DevRef τ sig) = V (main_arg5 : DevRef τ sig)
      ∧ after opsA V (main_arg6 : DevRef τ sig) = V (main_arg6 : DevRef τ sig)
      ∧ after opsA V (main_arg7 : DevRef τ sig) = V (main_arg7 : DevRef τ sig)
      ∧ after opsA V (main_arg8 : DevRef τ sig) = V (main_arg8 : DevRef τ sig) := by
  refine ⟨?_, ?_, ?_, ?_, ?_, ?_, ?_, ?_, ?_⟩ <;> after_results_simp

/-! ## The second part in stretches

The second part is cut into ten consecutive stretches. Each is read back from an arbitrary valuation, at the buffers a
later stretch reads: the value it writes there as a function of the contents it starts from, and the buffers it leaves
alone. Composing the readings last to first gives the fold of the whole part. -/

/-- Stretch 1 of the second part: operations 1 to 5 of it. -/
abbrev sB1 : List (HloOp τ sig (Elt F)) :=
  [ unary main_arg6 main_v19 ((extui 32 · natLt_1_32) : (⟨S262144, .i1⟩ : BufTy).Contents (Elt F) → (⟨S262144, .i32⟩ : BufTy).Contents (Elt F)),
    TRef.nullary main_call1.call0.c (constantI S_ 32 0#32),
    TRef.unary main_call1.call0.c main_call1.call0.v0 (broadcastInDim S_ ![] bcast_S_S_),
    TRef.binary (.of main_v19 : TRef sig ⟨S262144, .i32⟩) main_call1.call0.v0 main_call1.call0.v1 (fun x v => Host.reduceWindow IntOp.addi ![262144] ![1] ![262143] ![0] x v reduceWindows_S262144_S262144_w262144s1p262143_0 h_S_),
    binary main_v20 main_v19 main_v21 (subi : (⟨S262144, .i32⟩ : BufTy).Contents (Elt F) → (⟨S262144, .i32⟩ : BufTy).Contents (Elt F) → (⟨S262144, .i32⟩ : BufTy).Contents (Elt F)) ]

/-- Stretch 2 of the second part: operations 6 to 19 of it. -/
abbrev sB2 : List (HloOp τ sig (Elt F)) :=
  [ nullary main_c_1 (constantI S_ 32 2147483647#32),
    unary main_c_1 main_v22 (broadcastInDim S64 ![] bcast_S_S64 : (⟨S_, .i32⟩ : BufTy).Contents (Elt F) → (⟨S64, .i32⟩ : BufTy).Contents (Elt F)),
    unary main_arg7 main_v23 (broadcastInDim S262144x1 ![0] bcast_S262144_S262144x1_0 : (⟨S262144, .i32⟩ : BufTy).Contents (Elt F) → (⟨S262144x1, .i32⟩ : BufTy).Contents (Elt F)),
    ternary main_v22 main_v23 main_v21 main_v24 ((fun x i u => Host.scatter scatter_S64_S262144x1_S262144_n_0_0_1 IntOp.minsi x i u) : (⟨S64, .i32⟩ : BufTy).Contents (Elt F) → (⟨S262144x1, .i32⟩ : BufTy).Contents (Elt F) → (⟨S262144, .i32⟩ : BufTy).Contents (Elt F) → (⟨S64, .i32⟩ : BufTy).Contents (Elt F)),
    nullary main_c_2 (constantI S_ 32 0#32),
    unary main_c_2 main_v25 (broadcastInDim S262144 ![] bcast_S_S262144 : (⟨S_, .i32⟩ : BufTy).Contents (Elt F) → (⟨S262144, .i32⟩ : BufTy).Contents (Elt F)),
    binary main_arg7 main_v25 main_v26 (cmpi .slt : (⟨S262144, .i32⟩ : BufTy).Contents (Elt F) → (⟨S262144, .i32⟩ : BufTy).Contents (Elt F) → (⟨S262144, .i1⟩ : BufTy).Contents (Elt F)),
    nullary main_c_3 (constantI S_ 32 64#32),
    unary main_c_3 main_v27 (broadcastInDim S262144 ![] bcast_S_S262144 : (⟨S_, .i32⟩ : BufTy).Contents (Elt F) → (⟨S262144, .i32⟩ : BufTy).Contents (Elt F)),
    binary main_arg7 main_v27 main_v28 (addi : (⟨S262144, .i32⟩ : BufTy).Contents (Elt F) → (⟨S262144, .i32⟩ : BufTy).Contents (Elt F) → (⟨S262144, .i32⟩ : BufTy).Contents (Elt F)),
    ternary main_v26 main_v28 main_arg7 main_v29 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v29 main_v30 (broadcastInDim S262144x1 ![0] bcast_S262144_S262144x1_0 : (⟨S262144, .i32⟩ : BufTy).Contents (Elt F) → (⟨S262144x1, .i32⟩ : BufTy).Contents (Elt F)),
    binary main_v24 main_v30 main_v31 ((fun x i => Host.gather gather_S64_S262144x1_S262144_n_0_n_n_0_1_1 x i) : (⟨S64, .i32⟩ : BufTy).Contents (Elt F) → (⟨S262144x1, .i32⟩ : BufTy).Contents (Elt F) → (⟨S262144, .i32⟩ : BufTy).Contents (Elt F)),
    binary main_v21 main_v31 main_v32 (subi : (⟨S262144, .i32⟩ : BufTy).Contents (Elt F) → (⟨S262144, .i32⟩ : BufTy).Contents (Elt F) → (⟨S262144, .i32⟩ : BufTy).Contents (Elt F)) ]

/-- Stretch 3 of the second part: operations 20 to 23 of it. -/
abbrev sB3 : List (HloOp τ sig (Elt F)) :=
  [ nullary main_c_4 (constantI S_ 32 4096#32),
    unary main_c_4 main_v33 (broadcastInDim S262144 ![] bcast_S_S262144 : (⟨S_, .i32⟩ : BufTy).Contents (Elt F) → (⟨S262144, .i32⟩ : BufTy).Contents (Elt F)),
    binary main_v32 main_v33 main_v34 (cmpi .slt : (⟨S262144, .i32⟩ : BufTy).Contents (Elt F) → (⟨S262144, .i32⟩ : BufTy).Contents (Elt F) → (⟨S262144, .i1⟩ : BufTy).Contents (Elt F)),
    binary main_arg6 main_v34 main_v35 (andi : (⟨S262144, .i1⟩ : BufTy).Contents (Elt F) → (⟨S262144, .i1⟩ : BufTy).Contents (Elt F) → (⟨S262144, .i1⟩ : BufTy).Contents (Elt F)) ]

/-- Stretch 4 of the second part: operations 24 to 31 of it. -/
abbrev sB4 : List (HloOp τ sig (Elt F)) :=
  [ nullary main_c_5 (constantI S_ 32 64#32),
    TRef.unary (.of main_c_5 : TRef sig ⟨S_, .i32⟩) main_call2.v0 id,
    TRef.unary main_call2.v0 main_call2.v1 (broadcastInDim S262144 ![] bcast_S_S262144),
    TRef.ternary (.of main_v35 : TRef sig ⟨S262144, .i1⟩) (.of main_arg7 : TRef sig ⟨S262144, .i32⟩) main_call2.v1 main_call2.v2 select,
    nullary main_c_6 (constantI S_ 32 4096#32),
    TRef.unary (.of main_c_6 : TRef sig ⟨S_, .i32⟩) main_call3.v0 id,
    TRef.unary main_call3.v0 main_call3.v1 (broadcastInDim S262144 ![] bcast_S_S262144),
    TRef.ternary (.of main_v35 : TRef sig ⟨S262144, .i1⟩) (.of main_v32 : TRef sig ⟨S262144, .i32⟩) main_call3.v1 main_call3.v2 select ]

/-- Stretch 5 of the second part: operations 32 to 47 of it. -/
abbrev sB5 : List (HloOp τ sig (Elt F)) :=
  [ nullary main_cst (constant S_ .f32 0xCE6E6B28#32),
    unary main_cst main_v38 (broadcastInDim S64x4096x24 ![] bcast_S_S64x4096x24 : (⟨S_, .f32⟩ : BufTy).Contents (Elt F) → (⟨S64x4096x24, .f32⟩ : BufTy).Contents (Elt F)),
    nullary main_c_7 (constantI S_ 32 0#32),
    unary main_c_7 main_v39 (broadcastInDim S262144 ![] bcast_S_S262144 : (⟨S_, .i32⟩ : BufTy).Contents (Elt F) → (⟨S262144, .i32⟩ : BufTy).Contents (Elt F)),
    binary main_v36 main_v39 main_v40 (cmpi .slt : (⟨S262144, .i32⟩ : BufTy).Contents (Elt F) → (⟨S262144, .i32⟩ : BufTy).Contents (Elt F) → (⟨S262144, .i1⟩ : BufTy).Contents (Elt F)),
    nullary main_c_8 (constantI S_ 32 64#32),
    unary main_c_8 main_v41 (broadcastInDim S262144 ![] bcast_S_S262144 : (⟨S_, .i32⟩ : BufTy).Contents (Elt F) → (⟨S262144, .i32⟩ : BufTy).Contents (Elt F)),
    binary main_v36 main_v41 main_v42 (addi : (⟨S262144, .i32⟩ : BufTy).Contents (Elt F) → (⟨S262144, .i32⟩ : BufTy).Contents (Elt F) → (⟨S262144, .i32⟩ : BufTy).Contents (Elt F)),
    ternary main_v40 main_v42 main_v36 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_9 (constantI S_ 32 0#32),
    unary main_c_9 main_v44 (broadcastInDim S262144 ![] bcast_S_S262144 : (⟨S_, .i32⟩ : BufTy).Contents (Elt F) → (⟨S262144, .i32⟩ : BufTy).Contents (Elt F)),
    binary main_v37 main_v44 main_v45 (cmpi .slt : (⟨S262144, .i32⟩ : BufTy).Contents (Elt F) → (⟨S262144, .i32⟩ : BufTy).Contents (Elt F) → (⟨S262144, .i1⟩ : BufTy).Contents (Elt F)),
    nullary main_c_10 (constantI S_ 32 4096#32),
    unary main_c_10 main_v46 (broadcastInDim S262144 ![] bcast_S_S262144 : (⟨S_, .i32⟩ : BufTy).Contents (Elt F) → (⟨S262144, .i32⟩ : BufTy).Contents (Elt F)),
    binary main_v37 main_v46 main_v47 (addi : (⟨S262144, .i32⟩ : BufTy).Contents (Elt F) → (⟨S262144, .i32⟩ : BufTy).Contents (Elt F) → (⟨S262144, .i32⟩ : BufTy).Contents (Elt F)),
    ternary main_v45 main_v47 main_v37 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ]

/-- Stretch 6 of the second part: operations 48 to 49 of it. -/
abbrev sB6 : List (HloOp τ sig (Elt F)) :=
  [ unary main_v43 main_v49 (broadcastInDim S262144x1 ![0] bcast_S262144_S262144x1_0 : (⟨S262144, .i32⟩ : BufTy).Contents (Elt F) → (⟨S262144x1, .i32⟩ : BufTy).Contents (Elt F)),
    unary main_v48 main_v50 (broadcastInDim S262144x1 ![0] bcast_S262144_S262144x1_0 : (⟨S262144, .i32⟩ : BufTy).Contents (Elt F) → (⟨S262144x1, .i32⟩ : BufTy).Contents (Elt F)) ]

/-- Stretch 7 of the second part: operations 50 to 51 of it. -/
abbrev sB7 : List (HloOp τ sig (Elt F)) :=
  [ binary main_v49 main_v50 main_v51 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v38 main_v51 main_v18 main_v52 ((fun x i u => Host.scatter scatter_S64x4096x24_S262144x2_S262144x24_1_01_01_1 (fun _ b => b) x i u) : (⟨S64x4096x24, .f32⟩ : BufTy).Contents (Elt F) → (⟨S262144x2, .i32⟩ : BufTy).Contents (Elt F) → (⟨S262144x24, .f32⟩ : BufTy).Contents (Elt F) → (⟨S64x4096x24, .f32⟩ : BufTy).Contents (Elt F)) ]

/-- Stretch 8 of the second part: operations 52 to 54 of it. -/
abbrev sB8 : List (HloOp τ sig (Elt F)) :=
  [ nullary main_cst_11 (constant S_ .f32 0xCE6E6B28#32),
    TRef.unary (.of main_cst_11 : TRef sig ⟨S_, .f32⟩) main_call4.v0 id,
    TRef.unary main_call4.v0 main_call4.v1 (broadcastInDim S64x4096x24 ![] bcast_S_S64x4096x24) ]

/-- Stretch 9 of the second part: operations 55 to 55 of it. -/
abbrev sB9 : List (HloOp τ sig (Elt F)) :=
  [ TRef.ternary (.of main_arg8 : TRef sig ⟨S64x4096x24, .i1⟩) (.of main_v52 : TRef sig ⟨S64x4096x24, .f32⟩) main_call4.v1 main_call4.v2 select ]

/-- Stretch 10 of the second part: operations 56 to 56 of it. -/
abbrev sB10 : List (HloOp τ sig (Elt F)) :=
  [ reshape main_v53 main_v54 rfl shapeCasts_S64x4096x24_S64x98304 ]

/-- The second part is its ten stretches in order. -/
theorem opsB_eq : (opsB : List (HloOp τ sig (Elt F))) = sB1 ++ sB2 ++ sB3 ++ sB4 ++ sB5 ++ sB6 ++ sB7 ++ sB8 ++ sB9 ++ sB10 := rfl

attribute [local irreducible] Host.scatter Host.gather Host.reduceWindow concatenate in
set_option maxRecDepth 8192 in
set_option maxHeartbeats 1000000 in
/-- After stretch 1 the count buffer holds each node's number of cube nodes before it. -/
theorem sB1_v21 (W : Valuation τ sig (Elt F)) :
    after sB1 W (main_v21 : DevRef τ sig)
      = exclCount ((W (main_arg6 : DevRef τ sig)) : IVec S262144 1) := by
  after_results_simp
  try simp only [TRef.ofBuf, TRef.toBuf, cast_eq]
  try rfl

set_option maxRecDepth 8192 in
set_option maxHeartbeats 1000000 in
/-- Stretch 1 writes none of these buffers. -/
theorem sB1_keep (W : Valuation τ sig (Elt F)) :
    after sB1 W (main_arg6 : DevRef τ sig) = (W (main_arg6 : DevRef τ sig))
      ∧ after sB1 W (main_arg7 : DevRef τ sig) = (W (main_arg7 : DevRef τ sig))
      ∧ after sB1 W (main_arg8 : DevRef τ sig) = (W (main_arg8 : DevRef τ sig))
      ∧ after sB1 W (main_v18 : DevRef τ sig) = (W (main_v18 : DevRef τ sig)) := by
  refine ⟨?_, ?_, ?_, ?_⟩ <;> after_results_simp

attribute [local irreducible] Host.scatter Host.gather Host.reduceWindow concatenate in
set_option maxRecDepth 8192 in
set_option maxHeartbeats 1000000 in
/-- After stretch 2 the rank buffer holds the count less its graph's least count, the graph looked up at the wrapped batch id. -/
theorem sB2_v32 (W : Valuation τ sig (Elt F)) :
    after sB2 W (main_v32 : DevRef τ sig)
      = subi ((W (main_v21 : DevRef τ sig)) : IVec S262144 32)
          (Host.gather gather_S64_S262144x1_S262144_n_0_n_n_0_1_1 (segBase ((W (main_v21 : DevRef τ sig)) : IVec S262144 32) ((W (main_arg7 : DevRef τ sig)) : IVec S262144 32))
            (broadcastInDim S262144x1 ![0] bcast_S262144_S262144x1_0 (wrapIdx 64#32 ((W (main_arg7 : DevRef τ sig)) : IVec S262144 32)) : IVec S262144x1 32) : IVec S262144 32) := by
  after_results_simp
  try simp only [TRef.ofBuf, TRef.toBuf, cast_eq]
  try rfl

set_option maxRecDepth 8192 in
set_option maxHeartbeats 1000000 in
/-- Stretch 2 writes none of these buffers. -/
theorem sB2_keep (W : Valuation τ sig (Elt F)) :
    after sB2 W (main_arg6 : DevRef τ sig) = (W (main_arg6 : DevRef τ sig))
      ∧ after sB2 W (main_arg7 : DevRef τ sig) = (W (main_arg7 : DevRef τ sig))
      ∧ after sB2 W (main_arg8 : DevRef τ sig) = (W (main_arg8 : DevRef τ sig))
      ∧ after sB2 W (main_v18 : DevRef τ sig) = (W (main_v18 : DevRef τ sig)) := by
  refine ⟨?_, ?_, ?_, ?_⟩ <;> after_results_simp

attribute [local irreducible] Host.scatter Host.gather Host.reduceWindow concatenate in
set_option maxRecDepth 8192 in
set_option maxHeartbeats 1000000 in
/-- After stretch 3 the keep mask: a cube node whose rank is below 4096. -/
theorem sB3_v35 (W : Valuation τ sig (Elt F)) :
    after sB3 W (main_v35 : DevRef τ sig)
      = validOf ((W (main_arg6 : DevRef τ sig)) : IVec S262144 1) ((W (main_v32 : DevRef τ sig)) : IVec S262144 32) := by
  after_results_simp
  try simp only [TRef.ofBuf, TRef.toBuf, cast_eq]
  try rfl

set_option maxRecDepth 8192 in
set_option maxHeartbeats 1000000 in
/-- Stretch 3 writes none of these buffers. -/
theorem sB3_keep (W : Valuation τ sig (Elt F)) :
    after sB3 W (main_v32 : DevRef τ sig) = (W (main_v32 : DevRef τ sig))
      ∧ after sB3 W (main_arg7 : DevRef τ sig) = (W (main_arg7 : DevRef τ sig))
      ∧ after sB3 W (main_arg8 : DevRef τ sig) = (W (main_arg8 : DevRef τ sig))
      ∧ after sB3 W (main_v18 : DevRef τ sig) = (W (main_v18 : DevRef τ sig)) := by
  refine ⟨?_, ?_, ?_, ?_⟩ <;> after_results_simp

attribute [local irreducible] Host.scatter Host.gather Host.reduceWindow concatenate in
set_option maxRecDepth 8192 in
set_option maxHeartbeats 1000000 in
/-- After stretch 4 the row buffer: the batch id where kept, 64 elsewhere. -/
theorem sB4_v36 (W : Valuation τ sig (Elt F)) :
    after sB4 W (main_v36 : DevRef τ sig)
      = select ((W (main_v35 : DevRef τ sig)) : IVec S262144 1) ((W (main_arg7 : DevRef τ sig)) : IVec S262144 32) (broadcastInDim S262144 ![] bcast_S_S262144 (constantI S_ 32 64#32) : IVec S262144 32) := by
  after_results_simp
  try simp only [TRef.ofBuf, TRef.toBuf, cast_eq]
  try rfl

attribute [local irreducible] Host.scatter Host.gather Host.reduceWindow concatenate in
set_option maxRecDepth 8192 in
set_option maxHeartbeats 1000000 in
/-- After stretch 4 the column buffer: the rank where kept, 4096 elsewhere. -/
theorem sB4_v37 (W : Valuation τ sig (Elt F)) :
    after sB4 W (main_v37 : DevRef τ sig)
      = select ((W (main_v35 : DevRef τ sig)) : IVec S262144 1) ((W (main_v32 : DevRef τ sig)) : IVec S262144 32) (broadcastInDim S262144 ![] bcast_S_S262144 (constantI S_ 32 4096#32) : IVec S262144 32) := by
  after_results_simp
  try simp only [TRef.ofBuf, TRef.toBuf, cast_eq]
  try rfl

set_option maxRecDepth 8192 in
set_option maxHeartbeats 1000000 in
/-- Stretch 4 writes none of these buffers. -/
theorem sB4_keep (W : Valuation τ sig (Elt F)) :
    after sB4 W (main_arg8 : DevRef τ sig) = (W (main_arg8 : DevRef τ sig))
      ∧ after sB4 W (main_v18 : DevRef τ sig) = (W (main_v18 : DevRef τ sig)) := by
  refine ⟨?_, ?_⟩ <;> after_results_simp

attribute [local irreducible] Host.scatter Host.gather Host.reduceWindow concatenate in
set_option maxRecDepth 8192 in
set_option maxHeartbeats 1000000 in
/-- After stretch 5 the table buffer is filled with -1e9. -/
theorem sB5_v38 (W : Valuation τ sig (Elt F)) :
    after sB5 W (main_v38 : DevRef τ sig)
      = (broadcastInDim S64x4096x24 ![] bcast_S_S64x4096x24 (constant S_ .f32 0xCE6E6B28#32) : FVec F S64x4096x24 .f32) := by
  after_results_simp
  try simp only [TRef.ofBuf, TRef.toBuf, cast_eq]
  try rfl

attribute [local irreducible] Host.scatter Host.gather Host.reduceWindow concatenate in
set_option maxRecDepth 8192 in
set_option maxHeartbeats 1000000 in
/-- After stretch 5 the rows, an index below zero taken from the end of 64. -/
theorem sB5_v43 (W : Valuation τ sig (Elt F)) :
    after sB5 W (main_v43 : DevRef τ sig)
      = wrapIdx 64#32 ((W (main_v36 : DevRef τ sig)) : IVec S262144 32) := by
  after_results_simp
  try simp only [TRef.ofBuf, TRef.toBuf, cast_eq]
  try rfl

attribute [local irreducible] Host.scatter Host.gather Host.reduceWindow concatenate in
set_option maxRecDepth 8192 in
set_option maxHeartbeats 1000000 in
/-- After stretch 5 the columns, an index below zero taken from the end of 4096. -/
theorem sB5_v48 (W : Valuation τ sig (Elt F)) :
    after sB5 W (main_v48 : DevRef τ sig)
      = wrapIdx 4096#32 ((W (main_v37 : DevRef τ sig)) : IVec S262144 32) := by
  after_results_simp
  try simp only [TRef.ofBuf, TRef.toBuf, cast_eq]
  try rfl

set_option maxRecDepth 8192 in
set_option maxHeartbeats 1000000 in
/-- Stretch 5 writes none of these buffers. -/
theorem sB5_keep (W : Valuation τ sig (Elt F)) :
    after sB5 W (main_arg8 : DevRef τ sig) = (W (main_arg8 : DevRef τ sig))
      ∧ after sB5 W (main_v18 : DevRef τ sig) = (W (main_v18 : DevRef τ sig)) := by
  refine ⟨?_, ?_⟩ <;> after_results_simp

attribute [local irreducible] Host.scatter Host.gather Host.reduceWindow concatenate in
set_option maxRecDepth 8192 in
set_option maxHeartbeats 1000000 in
/-- After stretch 6 the rows as a column of index pairs. -/
theorem sB6_v49 (W : Valuation τ sig (Elt F)) :
    after sB6 W (main_v49 : DevRef τ sig)
      = (broadcastInDim S262144x1 ![0] bcast_S262144_S262144x1_0 ((W (main_v43 : DevRef τ sig)) : IVec S262144 32) : IVec S262144x1 32) := by
  after_results_simp
  try simp only [TRef.ofBuf, TRef.toBuf, cast_eq]
  try rfl

attribute [local irreducible] Host.scatter Host.gather Host.reduceWindow concatenate in
set_option maxRecDepth 8192 in
set_option maxHeartbeats 1000000 in
/-- After stretch 6 the columns as a column of index pairs. -/
theorem sB6_v50 (W : Valuation τ sig (Elt F)) :
    after sB6 W (main_v50 : DevRef τ sig)
      = (broadcastInDim S262144x1 ![0] bcast_S262144_S262144x1_0 ((W (main_v48 : DevRef τ sig)) : IVec S262144 32) : IVec S262144x1 32) := by
  after_results_simp
  try simp only [TRef.ofBuf, TRef.toBuf, cast_eq]
  try rfl

set_option maxRecDepth 8192 in
set_option maxHeartbeats 1000000 in
/-- Stretch 6 writes none of these buffers. -/
theorem sB6_keep (W : Valuation τ sig (Elt F)) :
    after sB6 W (main_v38 : DevRef τ sig) = (W (main_v38 : DevRef τ sig))
      ∧ after sB6 W (main_arg8 : DevRef τ sig) = (W (main_arg8 : DevRef τ sig))
      ∧ after sB6 W (main_v18 : DevRef τ sig) = (W (main_v18 : DevRef τ sig)) := by
  refine ⟨?_, ?_, ?_⟩ <;> after_results_simp

attribute [local irreducible] Host.scatter Host.gather Host.reduceWindow concatenate in
set_option maxRecDepth 8192 in
set_option maxHeartbeats 1000000 in
/-- After stretch 7 the table with the score rows scattered at the index pairs. -/
theorem sB7_v52 (W : Valuation τ sig (Elt F)) :
    after sB7 W (main_v52 : DevRef τ sig)
      = (Host.scatter scatter_S64x4096x24_S262144x2_S262144x24_1_01_01_1 (fun _ b => b)
              ((W (main_v38 : DevRef τ sig)) : FVec F S64x4096x24 .f32)
              (concatenate S262144x2 1 [⟨S262144x1, ((W (main_v49 : DevRef τ sig)) : IVec S262144x1 32)⟩, ⟨S262144x1, ((W (main_v50 : DevRef τ sig)) : IVec S262144x1 32)⟩]
                concatenates_S262144x1_S262144x1_S262144x2_d1 : IVec S262144x2 32)
              ((W (main_v18 : DevRef τ sig)) : FVec F S262144x24 .f32) : FVec F S64x4096x24 .f32) := by
  after_results_simp
  try simp only [TRef.ofBuf, TRef.toBuf, cast_eq]
  try rfl

set_option maxRecDepth 8192 in
set_option maxHeartbeats 1000000 in
/-- Stretch 7 does not write this buffer. -/
theorem sB7_keep (W : Valuation τ sig (Elt F)) :
    after sB7 W (main_arg8 : DevRef τ sig) = (W (main_arg8 : DevRef τ sig)) := by
  after_results_simp

attribute [local irreducible] Host.scatter Host.gather Host.reduceWindow concatenate in
set_option maxRecDepth 8192 in
set_option maxHeartbeats 1000000 in
/-- After stretch 8 the fill value -1e9 at the table's shape. -/
theorem sB8_call4_v1 (W : Valuation τ sig (Elt F)) :
    after sB8 W (main_call4_v1 : DevRef τ sig)
      = (broadcastInDim S64x4096x24 ![] bcast_S_S64x4096x24 (constant S_ .f32 0xCE6E6B28#32) : FVec F S64x4096x24 .f32) := by
  after_results_simp
  try simp only [TRef.ofBuf, TRef.toBuf, cast_eq]
  try rfl

set_option maxRecDepth 8192 in
set_option maxHeartbeats 1000000 in
/-- Stretch 8 writes none of these buffers. -/
theorem sB8_keep (W : Valuation τ sig (Elt F)) :
    after sB8 W (main_arg8 : DevRef τ sig) = (W (main_arg8 : DevRef τ sig))
      ∧ after sB8 W (main_v52 : DevRef τ sig) = (W (main_v52 : DevRef τ sig)) := by
  refine ⟨?_, ?_⟩ <;> after_results_simp

attribute [local irreducible] Host.scatter Host.gather Host.reduceWindow concatenate in
set_option maxRecDepth 8192 in
set_option maxHeartbeats 1000000 in
/-- After stretch 9 the move mask applied: the table where set, the fill value elsewhere. -/
theorem sB9_v53 (W : Valuation τ sig (Elt F)) :
    after sB9 W (main_v53 : DevRef τ sig)
      = (select ((W (main_arg8 : DevRef τ sig)) : IVec S64x4096x24 1) ((W (main_v52 : DevRef τ sig)) : FVec F S64x4096x24 .f32) ((W (main_call4_v1 : DevRef τ sig)) : FVec F S64x4096x24 .f32) : FVec F S64x4096x24 .f32) := by
  after_results_simp
  try simp only [TRef.ofBuf, TRef.toBuf, cast_eq]
  try rfl

attribute [local irreducible] Host.scatter Host.gather Host.reduceWindow concatenate in
set_option maxRecDepth 8192 in
set_option maxHeartbeats 1000000 in
/-- After stretch 10 the table flattened per graph. -/
theorem sB10_v54 (W : Valuation τ sig (Elt F)) :
    after sB10 W (main_v54 : DevRef τ sig)
      = shapeCast S64x98304 ((W (main_v53 : DevRef τ sig)) : FVec F S64x4096x24 .f32) shapeCasts_S64x4096x24_S64x98304 := by
  after_results_simp
  rfl

/-! ## Reading the second part -/

/-- The fold of the second part at the result buffer is `tailR` of the score buffer, the cube mask, the batch ids and
    the move mask, from any contents: the stretches read back last to first, each at the contents the one before
    leaves. -/
theorem readB_v54 (V : Valuation τ sig (Elt F)) :
    after opsB V (main_v54 : DevRef τ sig)
      = tailR (V (main_v18 : DevRef τ sig)) (V (main_arg6 : DevRef τ sig)) (V (main_arg7 : DevRef τ sig))
          (V (main_arg8 : DevRef τ sig)) := by
  rw [opsB_eq]
  simp only [after_append]
  rw [sB10_v54, sB9_v53, (sB8_keep _).1, (sB8_keep _).2, sB8_call4_v1, sB7_keep, sB7_v52,
    (sB6_keep _).1, (sB6_keep _).2.1, (sB6_keep _).2.2, sB6_v49, sB6_v50,
    sB5_v38, sB5_v43, sB5_v48, (sB5_keep _).1, (sB5_keep _).2,
    sB4_v36, sB4_v37, (sB4_keep _).1, (sB4_keep _).2,
    sB3_v35, (sB3_keep _).1, (sB3_keep _).2.1, (sB3_keep _).2.2.1, (sB3_keep _).2.2.2,
    sB2_v32, (sB2_keep _).1, (sB2_keep _).2.1, (sB2_keep _).2.2.1, (sB2_keep _).2.2.2,
    sB1_v21, (sB1_keep _).1, (sB1_keep _).2.1, (sB1_keep _).2.2.1, (sB1_keep _).2.2.2]
  rfl

set_option maxRecDepth 8192 in
set_option maxHeartbeats 4000000 in
/-- No operation of the second stretch writes an argument's buffer. -/
theorem argsB (V : Valuation τ sig (Elt F)) :
    after opsB V (main_arg0 : DevRef τ sig) = V (main_arg0 : DevRef τ sig)
      ∧ after opsB V (main_arg1 : DevRef τ sig) = V (main_arg1 : DevRef τ sig)
      ∧ after opsB V (main_arg2 : DevRef τ sig) = V (main_arg2 : DevRef τ sig)
      ∧ after opsB V (main_arg3 : DevRef τ sig) = V (main_arg3 : DevRef τ sig)
      ∧ after opsB V (main_arg4 : DevRef τ sig) = V (main_arg4 : DevRef τ sig)
      ∧ after opsB V (main_arg5 : DevRef τ sig) = V (main_arg5 : DevRef τ sig)
      ∧ after opsB V (main_arg6 : DevRef τ sig) = V (main_arg6 : DevRef τ sig)
      ∧ after opsB V (main_arg7 : DevRef τ sig) = V (main_arg7 : DevRef τ sig)
      ∧ after opsB V (main_arg8 : DevRef τ sig) = V (main_arg8 : DevRef τ sig) := by
  refine ⟨?_, ?_, ?_, ?_, ?_, ?_, ?_, ?_, ?_⟩ <;> after_results_simp

/-! ## The run -/

/-- The fold of all of @main at the result buffer, from any contents. -/
theorem read_v54 (V : Valuation τ sig (Elt F)) :
    after (opsA ++ opsB) V (main_v54 : DevRef τ sig)
      = tailR (refScores (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg7 : DevRef τ sig))) (V (main_arg6 : DevRef τ sig)) (V (main_arg7 : DevRef τ sig)) (V (main_arg8 : DevRef τ sig)) := by
  rw [after_append, readB_v54, readA_v18, (argsA V).2.2.2.2.2.2.1, (argsA V).2.2.2.2.2.2.2.1, (argsA V).2.2.2.2.2.2.2.2]

/-- No operation of @main writes an argument's buffer. -/
theorem read_args (V : Valuation τ sig (Elt F)) :
    after (opsA ++ opsB) V (main_arg0 : DevRef τ sig) = (V (main_arg0 : DevRef τ sig))
      ∧ after (opsA ++ opsB) V (main_arg1 : DevRef τ sig) = (V (main_arg1 : DevRef τ sig))
      ∧ after (opsA ++ opsB) V (main_arg2 : DevRef τ sig) = (V (main_arg2 : DevRef τ sig))
      ∧ after (opsA ++ opsB) V (main_arg3 : DevRef τ sig) = (V (main_arg3 : DevRef τ sig))
      ∧ after (opsA ++ opsB) V (main_arg4 : DevRef τ sig) = (V (main_arg4 : DevRef τ sig))
      ∧ after (opsA ++ opsB) V (main_arg5 : DevRef τ sig) = (V (main_arg5 : DevRef τ sig))
      ∧ after (opsA ++ opsB) V (main_arg6 : DevRef τ sig) = (V (main_arg6 : DevRef τ sig))
      ∧ after (opsA ++ opsB) V (main_arg7 : DevRef τ sig) = (V (main_arg7 : DevRef τ sig))
      ∧ after (opsA ++ opsB) V (main_arg8 : DevRef τ sig) = (V (main_arg8 : DevRef τ sig)) := by
  simp only [after_append]
  obtain ⟨b0, b1, b2, b3, b4, b5, b6, b7, b8⟩ := argsB (after opsA V)
  obtain ⟨a0, a1, a2, a3, a4, a5, a6, a7, a8⟩ := argsA V
  exact ⟨b0.trans a0, b1.trans a1, b2.trans a2, b3.trans a3, b4.trans a4, b5.trans a5, b6.trans a6, b7.trans a7, b8.trans a8⟩

/-- Every weakly fair execution of the reference's @main terminates with the result at `tailR` of `refScores` of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v54) : FVec F S64x98304 .f32)
          = tailR (refScores (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg7)))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c main_v54).trans (read_v54 _),
      (h c main_arg0).trans (read_args _).1, (h c main_arg1).trans (read_args _).2.1,
      (h c main_arg2).trans (read_args _).2.2.1, (h c main_arg3).trans (read_args _).2.2.2.1,
      (h c main_arg4).trans (read_args _).2.2.2.2.1, (h c main_arg5).trans (read_args _).2.2.2.2.2.1,
      (h c main_arg6).trans (read_args _).2.2.2.2.2.2.1, (h c main_arg7).trans (read_args _).2.2.2.2.2.2.2.1,
      (h c main_arg8).trans (read_args _).2.2.2.2.2.2.2.2⟩)
    (run_seq scopedRefs_eq scopedSems_eq defs main (fun _ => opsA ++ opsB) main_eq (fun _ => ops_sub) m ρ
      (fun _ => ops_fresh))

end Cert.ReferenceIdeal.Hand

end
-- ==== Proof.RValue.lean ====
/-
  The reference's score array, entry by entry, on the extended reals: with the batch ids in range the gather reads
  row `batch n` of the graph features, the join puts it after the node's own features, and the two contractions are
  plain sums — the network's score as written in the specification.
-/
import proofs.«411711_j670014898681_2_alg».proof.Proof.RRun
import proofs.«411711_j670014898681_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.StableHlo.Predicate

noncomputable section

namespace Cert.ReferenceIdeal.Hand

open Cert.ReferenceIdeal Cert.ReferenceIdeal.Gen
open Idealize.ShloMosaic Idealize.ShloMosaic.ValueIdx

/-! ## Layout operations of this program read at an index -/

section Layout
variable {α : Type}

/-- A vector laid along every row of an [a, b] array through a [1, b] row reads, at (p, c), the vector at c. -/
theorem bcast_row_apply {a b : Nat} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 x) (ix2 p c) = x (ix1 c) := by
  refine (broadcastInDim_apply ![0, 1] h2 _ (ix2 p c) (ix2 (0 : Fin 1) c) fun ax => ?_).trans
    (broadcastInDim_apply ![1] h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A vector as an [a, 1] column reads, at (p, 0), the vector at p. -/
theorem bcast_col_apply {a : Nat} (x : (⟨1, ![a]⟩ : Shape).Idx → α)
    (h : (⟨1, ![a]⟩ : Shape).BroadcastsInDim ⟨2, ![a, 1]⟩ ![0]) (p : Fin a) :
    broadcastInDim ⟨2, ![a, 1]⟩ ![0] h x (ix2 p (0 : Fin 1)) = x (ix1 p) := by
  refine broadcastInDim_apply ![0] h x (ix2 p (0 : Fin 1)) (ix1 p) fun ax => ?_
  match ax with
  | ⟨0, _⟩ =>
    show p.val = if a = 1 then 0 else p.val
    split
    · have := p.isLt; omega
    · rfl

end Layout

/-! ## A gather of whole rows: `x[idx]` of a table [N, C] at a column [R, 1] of row numbers -/

section Rows
variable {α : Type}

/-- The dimension numbers of a gather of rows: operand [N, C], start indices [R, 1], result [R, C]; the result's axis 1
    is the offset axis, the operand's axis 0 is collapsed and indexed, the index vector lies on axis 1. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the table's row axis the operand index is the start index `idx[r, 0]`, read signed and clamped into [0, N − 1]. -/
theorem rowDims_operandIdx_0 {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowDims N R C wf).operandIdx (ix2 r c) idx 0).val = min (idx (ix2 r (0 : Fin 1))).toInt.toNat (N - 1) := by
  show (rowDims N R C wf).start (ix2 r c) idx 0 + (rowDims N R C wf).batchCoord (ix2 r c) 0
    + (rowDims N R C wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r c) ⟨List.idxOf (0 : Fin 2) (rowDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand index is the result's column. -/
theorem rowDims_operandIdx_1 {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowDims N R C wf).operandIdx (ix2 r c) idx 1).val = c.val := by
  show (rowDims N R C wf).start (ix2 r c) idx 1 + (rowDims N R C wf).batchCoord (ix2 r c) 1
    + (rowDims N R C wf).offCoord (ix2 r c) 1 = _
  rw [GatherDims.batchCoord_eq_zero _ _ _ List.not_mem_nil]
  have hs : (rowDims N R C wf).start (ix2 r c) idx 1 = 0 := by
    unfold GatherDims.start
    rw [dif_neg (show ¬ (1 : Fin 2) ∈ (rowDims N R C wf).startIndexMap from (by decide : (1 : Fin 2) ∉ ([0] : List (Fin 2))))]
  rw [hs]
  simp only [Nat.add_zero, Nat.zero_add]
  unfold GatherDims.offCoord
  rw [dif_pos (show (1 : Fin 2) ∈ (rowDims N R C wf).sKept from
    (GatherDims.mem_sKept _ _).mpr ⟨(by decide : (1 : Fin 2) ∉ ([0] : List (Fin 2))), List.not_mem_nil⟩)]
  rfl

/-- The gather of rows read at (r, c): the table's row at the start index `idx[r, 0]`, read signed and clamped into
    [0, N − 1], at column c. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ => exact rowDims_operandIdx_0 wf idx r c
  | ⟨1, _⟩ => exact rowDims_operandIdx_1 wf idx r c

end Rows

/-! ## This program's operations at an index -/

/-- The first layer's contraction is the plain sum over the 256 joined features. -/
theorem dot1_apply (A : FVec Ideal S262144x256 .f32) (B : FVec Ideal S256x128 .f32) (n : Fin 262144) (j : Fin 128) :
    Host.dotGeneral (F := Ideal) dot_S262144x256_S256x128_S262144x128_1_0_0_1_n_n none A B (ix2 n j)
      = ∑ k : Fin 256, A (ix2 n k) * B (ix2 k j) :=
  StackMember.dotGeneral_plain_apply none A B n j

/-- The second layer's contraction is the plain sum over the 128 hidden units. -/
theorem dot2_apply (A : FVec Ideal S262144x128 .f32) (B : FVec Ideal S128x24 .f32) (n : Fin 262144) (q : Fin 24) :
    Host.dotGeneral (F := Ideal) dot_S262144x128_S128x24_S262144x24_1_0_0_1_n_n none A B (ix2 n q)
      = ∑ j : Fin 128, A (ix2 n j) * B (ix2 j q) :=
  StackMember.dotGeneral_plain_apply none A B n q

/-- With the ids in range the index word of node n — the id, 64 added where it is negative — is the id itself. -/
theorem idxWord_apply (batch : IVec S262144 32) (hb : Cert.Spec.BatchOk batch) (n : Fin 262144) :
    (broadcastInDim S262144x1 ![0] bcast_S262144_S262144x1_0
      (select (cmpi .slt batch (broadcastInDim S262144 ![] bcast_S_S262144 (constantI S_ 32 0#32)))
        (addi batch (broadcastInDim S262144 ![] bcast_S_S262144 (constantI S_ 32 64#32))) batch) : IVec S262144x1 32)
      (ix2 n (0 : Fin 1)) = batch (ix1 n) := by
  rw [bcast_col_apply, select_apply]
  have hlt : (batch (ix1 n)).toNat < 64 := hb.range n
  have hc : IntOp.cmpi .slt (batch (ix1 n)) 0#32 = 0#1 :=
    eq_zero_of_ne_one fun h => by
      have := (StableHlo.Predicate.slt_iff_toNat (a := batch (ix1 n)) (b := 0#32) (by omega) (by decide)).mp h
      simp at this
  show Scalar.select (IntOp.cmpi .slt (batch (ix1 n)) 0#32) _ _ = _
  rw [hc, select_zero]

/-- With the ids in range the gathered row of node n is its graph's feature row. -/
theorem gathered_apply (gf : FVec Ideal S64x128 .f32) (batch : IVec S262144 32) (hb : Cert.Spec.BatchOk batch)
    (n : Fin 262144) (c : Fin 128) :
    Host.gather gather_S64x128_S262144x1_S262144x128_1_0_n_n_0_1_1128 gf
      (broadcastInDim S262144x1 ![0] bcast_S262144_S262144x1_0
        (select (cmpi .slt batch (broadcastInDim S262144 ![] bcast_S_S262144 (constantI S_ 32 0#32)))
          (addi batch (broadcastInDim S262144 ![] bcast_S_S262144 (constantI S_ 32 64#32))) batch) : IVec S262144x1 32)
      (ix2 n c) = gf (ix2 (Cert.Spec.graphOf batch n) c) := by
  refine (gather_rows_apply (N := 64) (R := 262144) (C := 128) (by decide)
    gather_S64x128_S262144x1_S262144x128_1_0_n_n_0_1_1128_wf gf _ n c).trans ?_
  have hlt : (batch (ix1 n)).toNat < 64 := hb.range n
  congr 2
  refine Fin.ext ?_
  show min (_ : BitVec 32).toInt.toNat (64 - 1) = (batch (ix1 n)).toNat % 64
  rw [idxWord_apply batch hb n, StableHlo.Predicate.toInt_eq_toNat_of_lt (by omega), Int.toNat_natCast]
  omega

/-- Entry k of node n's joined row: its own feature below 128, the second piece's at k − 128 from there on. -/
theorem joined_apply (nf v6 : FVec Ideal S262144x128 .f32) (n : Fin 262144) (k : Fin 256) :
    concatenate S262144x256 1 [⟨S262144x128, nf⟩, ⟨S262144x128, v6⟩] concatenates_S262144x128_S262144x128_S262144x256_d1 (ix2 n k)
      = if h : k.val < 128 then nf (ix2 n ⟨k.val, h⟩) else v6 (ix2 n ⟨k.val - 128, by omega⟩) := by
  split
  · next h =>
    exact concatenate_pair_apply_left 1 nf v6 _ (ix2 n k) rfl (ix2 n ⟨k.val, h⟩) fun b => by
      match b with
      | ⟨0, _⟩ => rfl
      | ⟨1, _⟩ => rfl
  · next h =>
    exact concatenate_pair_apply_right 1 nf v6 _ (ix2 n k) rfl rfl (ix2 n ⟨k.val - 128, by omega⟩)
      (fun b hb => by
        match b with
        | ⟨0, _⟩ => rfl
        | ⟨1, _⟩ => exact absurd rfl hb)
      (by show k.val - 128 + 128 = k.val; omega)

theorem refScores_eq (nf : FVec Ideal S262144x128 .f32) (gf : FVec Ideal S64x128 .f32) (W1 : FVec Ideal S128x256 .f32) (b1 : FVec Ideal S128 .f32)
    (W2 : FVec Ideal S24x128 .f32) (b2 : FVec Ideal S24 .f32) (batch : IVec S262144 32) (hb : Cert.Spec.BatchOk batch) :
    refScores (F := Ideal) nf gf W1 b1 W2 b2 batch = Cert.Spec.scores nf gf W1 b1 W2 b2 (Cert.Spec.graphOf batch) := by
  funext i
  obtain ⟨n, q, rfl⟩ : ∃ (n : Fin 262144) (q : Fin 24), i = ix2 n q := ⟨i 0, i 1, eq_ix2 i⟩
  show _ = Cert.Spec.score nf gf W1 b1 W2 b2 (Cert.Spec.graphOf batch) n q
  simp only [refScores]
  rw [addf_apply, bcast_row_apply, dot2_apply]
  unfold Cert.Spec.score
  congr 1
  refine Finset.sum_congr rfl fun j _ => ?_
  rw [transpose_ix2_apply, maximumf_apply, addf_apply, bcast_row_apply, dot1_apply]
  unfold Cert.Spec.hidden
  congr 2
  · congr 1
    refine Finset.sum_congr rfl fun k _ => ?_
    rw [transpose_ix2_apply, joined_apply]
    unfold Cert.Spec.feat
    congr 1
    split
    · rfl
    · rw [gathered_apply gf batch hb]
  · exact Ideal.ofBits_zero_f32

end Cert.ReferenceIdeal.Hand

end
-- ==== Proof.PreDecode.lean ====
/-
  Reading the stated domain out of the printed precondition: its last three conjuncts say every batch id is at least
  zero, every batch id is below 64, and every id is at least the one before it; as numbers, the ids are below 64 and
  non-decreasing.
-/
import proofs.«411711_j670014898681_2_alg».proof.Proof.Gen.Pre_finite_inputs
import proofs.«411711_j670014898681_2_alg».proof.Proof.Spec
import Idealize.ShloMosaic.Lib.ReduceAll
import Idealize.ShloMosaic.Lib.StableHlo.Predicate
import Idealize.ShloMosaic.Lib.ValueIdx
import Idealize.ShloMosaic.Lib.Pipeline.Value

noncomputable section

namespace Cert.PreHand

open Cert.Pre_finite_inputs
open Idealize.ShloMosaic Idealize.ShloMosaic.ValueIdx

variable {F : FTy → Type} [FloatOps F]

/-- A signed 32-bit word that is at least zero reads, unsigned, below 2³¹. -/
private theorem toNat_lt_of_sge_zero {x : BitVec 32} (h : IntOp.cmpi .sge x 0#32 = 1#1) : x.toNat < 2 ^ 31 := by
  unfold IntOp.cmpi at h
  rw [StableHlo.Predicate.ofBool_eq_one_iff] at h
  simp only [BitVec.sle, decide_eq_true_eq] at h
  have h0 : (0#32 : BitVec 32).toInt = 0 := by decide
  have hx := x.isLt
  rw [h0, BitVec.toInt_eq_toNat_cond] at h
  split at h <;> omega

/-- A chain of numbers each at most its successor is non-decreasing along any distance. -/
private theorem mono_of_step (f : ℕ → ℕ) (N : ℕ) (hstep : ∀ i, i + 1 < N → f i ≤ f (i + 1)) :
    ∀ d n, n + d < N → f n ≤ f (n + d)
  | 0, n, _ => Nat.le_refl _
  | d + 1, n, hn => Nat.le_trans (mono_of_step f N hstep d n (by omega)) (hstep (n + d) (by omega))

private instance : Subsingleton S_.Idx := ⟨fun a b => funext fun d => d.elim0⟩

theorem batchOk_of_pre (a0 : FVec F S262144x128 .f32) (a1 : FVec F S64x128 .f32) (a2 : FVec F S128x256 .f32) (a3 : FVec F S128 .f32)
    (a4 : FVec F S24x128 .f32) (a5 : FVec F S24 .f32) (a6 : IVec S262144 1) (a7 : IVec S262144 32) (a8 : IVec S64x4096x24 1)
    (h : Cert.Pre_finite_inputs.fn (F := F) a0 a1 a2 a3 a4 a5 a6 a7 a8 = fun _ => 1#1) : Cert.Spec.BatchOk a7 := by
  have h0 := congrFun h ValueIdx.ix0
  dsimp only [fn, fn_part1, fn_part2] at h0
  -- the conjunction, split from its end: sortedness, the upper bound, the lower bound
  obtain ⟨h36, h40⟩ := IntOp.andi_eq_one.1 h0
  obtain ⟨h32, h35⟩ := IntOp.andi_eq_one.1 h36
  obtain ⟨_, h31⟩ := IntOp.andi_eq_one.1 h32
  -- every id is at least zero as a signed word, so it reads below 2³¹
  have hnn : ∀ i : S262144.Idx, (a7 i).toNat < 2 ^ 31 := fun i =>
    toNat_lt_of_sge_zero (Host.reduce_andi_all _ _ _ _ _ h31 i)
  -- every id is below 64
  have hlt : ∀ i : S262144.Idx, (a7 i).toNat < 64 := fun i => by
    have e := Host.reduce_andi_all _ _ _ _ _ h35 i
    have := (StableHlo.Predicate.slt_iff_toNat (hnn i) (b := 64#32) (by decide)).1 e
    simpa using this
  -- every id is at least the one before it
  have hstep : ∀ i (hi : i + 1 < 262144), (a7 (ix1 ⟨i, by omega⟩)).toNat ≤ (a7 (ix1 ⟨i + 1, hi⟩)).toNat := fun i hi => by
    have e := Host.reduce_andi_all _ _ _ _ _ h40 (ix1 (n := 262143) ⟨i, by omega⟩)
    have e1 : extractStridedSlice S262143 ![1] a7 Facts.slices_S262144_S262143_1 (ix1 (n := 262143) ⟨i, by omega⟩)
        = a7 (ix1 ⟨i + 1, hi⟩) :=
      extractStridedSlice_apply _ _ _ _ _ fun a => by
        match a with
        | ⟨0, _⟩ => show i + 1 = 1 + i; omega
    have e0 : extractStridedSlice S262143 ![0] a7 Facts.slices_S262144_S262143_0 (ix1 (n := 262143) ⟨i, by omega⟩)
        = a7 (ix1 ⟨i, by omega⟩) :=
      extractStridedSlice_apply _ _ _ _ _ fun a => by
        match a with
        | ⟨0, _⟩ => show i = 0 + i; omega
    have e' : IntOp.cmpi .sge (a7 (ix1 ⟨i + 1, hi⟩)) (a7 (ix1 ⟨i, by omega⟩)) = 1#1 := by
      rw [← e1, ← e0]; exact e
    exact (StableHlo.Predicate.sge_iff_toNat (hnn _) (hnn _)).1 e'
  refine ⟨fun n => hlt (ix1 n), fun n n' hnn' => ?_⟩
  obtain ⟨n, hn⟩ := n
  obtain ⟨n', hn'⟩ := n'
  have hle : n ≤ n' := hnn'
  have key := mono_of_step (fun k => if hk : k < 262144 then (a7 (ix1 ⟨k, hk⟩)).toNat else 0) 262144
    (fun i hi => by
      have hi' : i < 262144 := by omega
      simp only [dif_pos hi, dif_pos hi']
      exact hstep i hi) (n' - n) n (by omega)
  have hnn2 : n + (n' - n) = n' := by omega
  simp only [hnn2, dif_pos hn, dif_pos hn'] at key
  exact key

end Cert.PreHand

end
-- ==== Proof.TailEq.lean ====
/-
  After the score array both programs run the same host operations — the cube nodes' ranks inside their graphs (a
  running sum less its segment minimum), the scatter of the score rows into the padded table, the move mask, the
  final reshape — so the two tails are one function of the score array and the three integer arguments.
-/
import proofs.«411711_j670014898681_2_alg».proof.Proof.KTail
import proofs.«411711_j670014898681_2_alg».proof.Proof.RTail
import Idealize.ShloMosaic.PureOps.Ideal

noncomputable section

namespace Cert.Proof.Hand

open Idealize.ShloMosaic

/-- The two programs' tails are the same composition of the same operations. -/
theorem tail_eq (s : FVec Ideal Cert.KernelIdeal.S262144x24 .f32) (cube : IVec Cert.KernelIdeal.S262144 1)
    (batch : IVec Cert.KernelIdeal.S262144 32) (move : IVec Cert.KernelIdeal.S64x4096x24 1) :
    Cert.KernelIdeal.Hand.tailK (F := Ideal) s cube batch move = Cert.ReferenceIdeal.Hand.tailR (F := Ideal) s cube batch move := by
  rfl

end Cert.Proof.Hand

end
-- ==== Proof.lean ====
/-
  The certificate of the node-scoring kernel against its reference.

  Both programs score every node with a two-layer network on the node's own features joined to its graph's
  features, and then scatter the score rows of the cube nodes into a padded per-graph table. They differ only in how
  a node finds its graph's features: the reference gathers row `batch[n]` of the table; the kernel counts the nodes of
  each graph, takes running sums, and marks graph `b` for position `p` when `cumLo b ≤ p < cumHi b`, then multiplies the
  0/1 mark row into the table. On the stated domain — the batch ids in `[0, 64)` and non-decreasing — the mark row has
  its one 1 at `batch[p]`, so the product picks the same row; every later operation is the same on both sides, and on
  the extended reals a change of float format is the identity. The precondition's integer conjuncts are decoded in
  `PreDecode`; the kernel's score array is read off its frame run block by block (`KFinal`, `KRun`), the reference's
  off its host run (`RRun`, `RValue`); the common tail is carried as one function (`TailEq`).
-/
import proofs.«411711_j670014898681_2_alg».proof.Defs
import proofs.«411711_j670014898681_2_alg».proof.Proof.Gen.Kernel
import proofs.«411711_j670014898681_2_alg».proof.Proof.Gen.KernelIdeal
import proofs.«411711_j670014898681_2_alg».proof.Proof.Gen.ReferenceIdeal
import proofs.«411711_j670014898681_2_alg».proof.Proof.Gen.Pre_finite_inputs
import proofs.«411711_j670014898681_2_alg».proof.Proof.KernelFrame
import proofs.«411711_j670014898681_2_alg».proof.Proof.KernelIdealFrame
import proofs.«411711_j670014898681_2_alg».proof.Proof.KRun
import proofs.«411711_j670014898681_2_alg».proof.Proof.RRun
import proofs.«411711_j670014898681_2_alg».proof.Proof.RValue
import proofs.«411711_j670014898681_2_alg».proof.Proof.PreDecode
import proofs.«411711_j670014898681_2_alg».proof.Proof.TailEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end at the common tail of the network's score array: the
    kernel's blocks tile it, the reference's gather and contractions spell it, and the stated domain of the batch ids
    is what makes the kernel's mark row pick each node's own graph. -/
theorem algebraic : Cert.algebraic_KernelIdeal_ReferenceIdeal := by
  intro m ρ m' ρ' hpre hagree
  have hb : ∀ c : Dev Cert.KernelIdeal.nD, Cert.Spec.BatchOk (Cert.KernelIdeal.Hand.aBatch m c) :=
    fun c => Cert.PreHand.batchOk_of_pre _ _ _ _ _ _ _ _ _ (hpre c)
  refine ⟨_, Cert.KernelIdeal.Hand.run m ρ hb, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8⟩ := hagree c
  rw [a0, a1, a2, a3, a4, a5, a6, a7, a8]
  rw [Cert.ReferenceIdeal.Hand.refScores_eq _ _ _ _ _ _ _ (hb c)]
  exact (Cert.Proof.Hand.tail_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
